-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x500 : S_.BroadcastsInDim S1433x500 (![] : Fin 0 → Fin S1433x500.rank)
  reducesTo_S1433x500_S_d0_1 : S1433x500.ReducesTo [0, 1] S_
  bcast_S_S500 : S_.BroadcastsInDim S500 (![] : Fin 0 → Fin S500.rank)
  reducesTo_S500_S_d0 : S500.ReducesTo [0] S_
  bcast_S_S500x7 : S_.BroadcastsInDim S500x7 (![] : Fin 0 → Fin S500x7.rank)
  reducesTo_S500x7_S_d0_1 : S500x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S500x7 .f32) (main_arg5 : FVec F S7 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500x7 .f32 := Host.absf main_arg4
  let main_cst_6 : FVec F S_ .f32 := constant S_ .f32 0x7F800000#32
  let main_v20 : FVec F S500x7 .f32 := broadcastInDim S500x7 ![] bcast_S_S500x7 main_cst_6
  let main_v21 : IVec S500x7 1 := cmpf .olt main_v19 main_v20
  let main_c_7 : IVec S_ 1 := constantI S_ 1 1#1
  let main_v22 : IVec S_ 1 := (fun x v => Host.reduce IntOp.andi x v reducesTo_S500x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x500 .f32) (main_arg3 : FVec F S500 .f32) (main_arg4 : FVec F S500x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x500 .f32 := Host.absf main_arg2
  let main_cst_2 : FVec F S_ .f32 := constant S_ .f32 0x7F800000#32
  let main_v10 : FVec F S1433x500 .f32 := broadcastInDim S1433x500 ![] bcast_S_S1433x500 main_cst_2
  let main_v11 : IVec S1433x500 1 := cmpf .olt main_v9 main_v10
  let main_c_3 : IVec S_ 1 := constantI S_ 1 1#1
  let main_v12 : IVec S_ 1 := (fun x v => Host.reduce IntOp.andi x v reducesTo_S1433x500_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S_ : Shape := ⟨0, ![]⟩
abbrev S1433x512 : Shape := ⟨2, ![1433, 512]⟩
abbrev S1 : Shape := ⟨1, ![1]⟩
abbrev S1x512 : Shape := ⟨2, ![1, 512]⟩
abbrev S2 : Shape := ⟨1, ![2]⟩
abbrev S512x128 : Shape := ⟨2, ![512, 128]⟩
abbrev S1x128 : Shape := ⟨2, ![1, 128]⟩
abbrev S10000x128 : Shape := ⟨2, ![10000, 128]⟩
abbrev S10000x7 : Shape := ⟨2, ![10000, 7]⟩
abbrev S1000x1433 : Shape := ⟨2, ![1000, 1433]⟩
abbrev S200x10000 : Shape := ⟨2, ![200, 10000]⟩
abbrev S200x128 : Shape := ⟨2, ![200, 128]⟩
abbrev S10000x512 : Shape := ⟨2, ![10000, 512]⟩
abbrev S1000x512 : Shape := ⟨2, ![1000, 512]⟩
abbrev S200x512 : Shape := ⟨2, ![200, 512]⟩
abbrev S400x10000 : Shape := ⟨2, ![400, 10000]⟩
abbrev S400x128 : Shape := ⟨2, ![400, 128]⟩

abbrev nBuf : Space → Nat
  | .hbm => 41
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x500, .f32⟩
  | .hbm, ⟨3, _⟩ => ⟨S500, .f32⟩
  | .hbm, ⟨4, _⟩ => ⟨S500x7, .f32⟩
  | .hbm, ⟨5, _⟩ => ⟨S7, .f32⟩
  | .hbm, ⟨6, _⟩ => ⟨S_, .bf16⟩
  | .hbm, ⟨7, _⟩ => ⟨S1433x512, .bf16⟩
  | .hbm, ⟨8, _⟩ => ⟨S1433x500, .bf16⟩
  | .hbm, ⟨9, _⟩ => ⟨S_, .i32⟩
  | .hbm, ⟨10, _⟩ => ⟨S1, .i32⟩
  | .hbm, ⟨11, _⟩ => ⟨S1433x512, .bf16⟩
  | .hbm, ⟨12, _⟩ => ⟨S_, .f32⟩
  | .hbm, ⟨13, _⟩ => ⟨S1x512, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x512, .f32⟩
  | .hbm, ⟨20, _⟩ => ⟨S_, .bf16⟩
  | .hbm, ⟨21, _⟩ => ⟨S512x128, .bf16⟩
  | .hbm, ⟨22, _⟩ => ⟨S500x7, .bf16⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S512x128, .bf16⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S10000x128, .bf16⟩
  | .hbm, ⟨38, _⟩ => ⟨S10000x10000, .bf16⟩
  | .hbm, ⟨39, _⟩ => ⟨S10000x128, .f32⟩
  | .hbm, ⟨40, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x512, .bf16⟩
  | .local _ .vmem, ⟨3, _⟩ => ⟨S1x512, .f32⟩
  | .local _ .vmem, ⟨4, _⟩ => ⟨S512x128, .bf16⟩
  | .local _ .vmem, ⟨5, _⟩ => ⟨S200x10000, .f32⟩
  | .local _ .vmem, ⟨6, _⟩ => ⟨S200x10000, .f32⟩
  | .local _ .vmem, ⟨7, _⟩ => ⟨S200x128, .bf16⟩
  | .local _ .vmem, ⟨8, _⟩ => ⟨S200x128, .bf16⟩
  | .local _ .vmem, ⟨9, _⟩ => ⟨S200x10000, .bf16⟩
  | .local _ .vmem, ⟨10, _⟩ => ⟨S200x10000, .bf16⟩
  | .local _ .vmem, ⟨11, _⟩ => ⟨S10000x512, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1x128, .f32⟩
  | .local _ .vmem, ⟨16, _⟩ => ⟨S400x128, .f32⟩
  | .local _ .vmem, ⟨17, _⟩ => ⟨S400x128, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_cst_3 : Ref sig .tc := ⟨.hbm, 20, rfl⟩
abbrev main_call0_v9 : Ref sig .tc := ⟨.hbm, 21, rfl⟩
abbrev main_call0_v10 : Ref sig .tc := ⟨.hbm, 22, rfl⟩
abbrev main_call0_c_4 : Ref sig .tc := ⟨.hbm, 23, rfl⟩
abbrev main_call0_v11 : Ref sig .tc := ⟨.hbm, 24, rfl⟩
abbrev main_call0_c_5 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst_6 : Ref sig .tc := ⟨.hbm, 29, rfl⟩
abbrev main_call0_v15 : Ref sig .tc := ⟨.hbm, 30, rfl⟩
abbrev main_call0_c_7 : Ref sig .tc := ⟨.hbm, 31, rfl⟩
abbrev main_call0_v16 : Ref sig .tc := ⟨.hbm, 32, rfl⟩
abbrev main_call0_c_8 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20_0 : Ref sig .tc := ⟨.hbm, 37, rfl⟩
abbrev main_call0_v20_1 : Ref sig .tc := ⟨.hbm, 38, rfl⟩
abbrev main_call0_v21 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c10_i32_5 : BitVec 32 := 10#32
  let c0_i32_6 : BitVec 32 := 0#32
  let v12 : BitVec 1 := Scalar.cmpi .eq c10_i32_5 c0_i32_6
  let c1_i32 : BitVec 32 := 1#32
  let v13 : BitVec 32 := Scalar.select v12 c1_i32 c10_i32_5
  let v14 : BitVec 32 := Scalar.remsi arg0 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1000_i32 : BitVec 32 := 1000#32
  let v22 : BitVec 32 := Scalar.muli v21 c1000_i32
  let v23 : Index := Scalar.indexCast v22
  let c0_10 : Index := 0#32
  ![v23.toNat, 0]
def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1433x512 : S_.BroadcastsInDim S1433x512 (![] : Fin 0 → Fin S1433x512.rank)
  bitsLt_bf16_f32 : FTy.bits .bf16 < FTy.bits .f32
  bcast_S_S1 : S_.BroadcastsInDim S1 (![] : Fin 0 → Fin S1.rank)
  bcast_S_S1x512 : S_.BroadcastsInDim S1x512 (![] : Fin 0 → Fin S1x512.rank)
  concatenates_S1_S1_S2_d0 : Shape.Concatenates [S1, S1] S2 0
  bcast_S_S512x128 : S_.BroadcastsInDim S512x128 (![] : Fin 0 → Fin S512x128.rank)
  bcast_S_S1x128 : S_.BroadcastsInDim S1x128 (![] : Fin 0 → Fin S1x128.rank)
  slices_S10000x128_S10000x7_0_0 : S10000x128.Slices ![0, 0] S10000x7
  inb_S1000x1433_S1000x1433_0_0 : ∀ a, (![0, 0] : Fin 2 → Nat) a + S1000x1433.size a ≤ S1000x1433.size a
  h_S1000x1433 : 0 < S1000x1433.numel
  inb_S1433x512_S1433x512_0_0 : ∀ a, (![0, 0] : Fin 2 → Nat) a + S1433x512.size a ≤ S1433x512.size a
  h_S1433x512 : 0 < S1433x512.numel
  shapeCasts_S1433x512_S1433x512 : S1433x512.ShapeCasts S1433x512
  h_S1000x512 : 0 < S1000x512.numel
  shapeCasts_S1000x512_S1000x512 : S1000x512.ShapeCasts S1000x512
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  scatter_S1433x512_S1_S1433x500_01_n_1_0_wf : ScatterDims.WF S1433x512 S1 S1433x500 [0, 1] [] [1] 0
  scatter_S1x512_S2_S500_0_0_01_0_wf : ScatterDims.WF S1x512 S2 S500 [0] [0] [0, 1] 0
  scatter_S512x128_S2_S500x7_01_n_01_0_wf : ScatterDims.WF S512x128 S2 S500x7 [0, 1] [] [0, 1] 0
  scatter_S1x128_S2_S7_0_0_01_0_wf : ScatterDims.WF S1x128 S2 S7 [0] [0] [0, 1] 0
  dot_S1000x1433_S1433x512_S1000x512_1_0_0_1_n_n_wf : DotDims.WF S1000x1433 S1433x512 S1000x512 [1] [0] [0] [1] [] []
  dot_S200x10000_S10000x512_S200x512_1_0_0_1_n_n_wf : DotDims.WF S200x10000 S10000x512 S200x512 [1] [0] [0] [1] [] []
  dot_S200x512_S512x128_S200x128_1_0_0_1_n_n_wf : DotDims.WF S200x512 S512x128 S200x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h1 : k0_cond1 i = 1#1), ∀ a, (k0_off1 i) a + S1000x512.size a ≤ S10000x512.size a
  k0_off1_packedbf16 : ∀ i : grid0.Coords, ∀ (k0_h1 : k0_cond1 i = 1#1), (Rect.unit (s := S10000x512) (k0_off1 i) S1000x512.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .bf16 = 32 ∨ (Rect.block (s := S1433x512) S1433x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .bf16 = 32 ∨ (Rect.block (s := S10000x128) S200x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .bf16 = 32 ∨ (Rect.block (s := S10000x10000) S200x10000.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def scatter_S1433x512_S1_S1433x500_01_n_1_0 : ScatterDims S1433x512 S1 S1433x500 where
  updateWindowDims := [0, 1]
  insertedWindowDims := []
  scatterDimsToOperandDims := [1]
  indexVectorDim := 0
  wf := scatter_S1433x512_S1_S1433x500_01_n_1_0_wf
def scatter_S1x512_S2_S500_0_0_01_0 : ScatterDims S1x512 S2 S500 where
  updateWindowDims := [0]
  insertedWindowDims := [0]
  scatterDimsToOperandDims := [0, 1]
  indexVectorDim := 0
  wf := scatter_S1x512_S2_S500_0_0_01_0_wf
def scatter_S512x128_S2_S500x7_01_n_01_0 : ScatterDims S512x128 S2 S500x7 where
  updateWindowDims := [0, 1]
  insertedWindowDims := []
  scatterDimsToOperandDims := [0, 1]
  indexVectorDim := 0
  wf := scatter_S512x128_S2_S500x7_01_n_01_0_wf
def scatter_S1x128_S2_S7_0_0_01_0 : ScatterDims S1x128 S2 S7 where
  updateWindowDims := [0]
  insertedWindowDims := [0]
  scatterDimsToOperandDims := [0, 1]
  indexVectorDim := 0
  wf := scatter_S1x128_S2_S7_0_0_01_0_wf
def dot_S1000x1433_S1433x512_S1000x512_1_0_0_1_n_n : DotDims S1000x1433 S1433x512 S1000x512 where
  lhsContracting := [1]
  rhsContracting := [0]
  lhsNonContracting := [0]
  rhsNonContracting := [1]
  lhsBatch := []
  rhsBatch := []
  wf := dot_S1000x1433_S1433x512_S1000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x128_S200x128_1_0_0_1_n_n : DotDims S200x512 S512x128 S200x128 where
  lhsContracting := [1]
  rhsContracting := [0]
  lhsNonContracting := [0]
  rhsNonContracting := [1]
  lhsBatch := []
  rhsBatch := []
  wf := dot_S200x512_S512x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20_1) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_call0_v20_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v20_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v21) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x500 : Shape := ⟨2, ![1433, 500]⟩
abbrev S500 : Shape := ⟨1, ![500]⟩
abbrev S500x7 : Shape := ⟨2, ![500, 7]⟩
abbrev S7 : Shape := ⟨1, ![7]⟩
abbrev S10000x500 : Shape := ⟨2, ![10000, 500]⟩
abbrev S1x500 : Shape := ⟨2, ![1, 500]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x500, .f32⟩
  | .hbm, ⟨3, _⟩ => ⟨S500, .f32⟩
  | .hbm, ⟨4, _⟩ => ⟨S500x7, .f32⟩
  | .hbm, ⟨5, _⟩ => ⟨S7, .f32⟩
  | .hbm, ⟨6, _⟩ => ⟨S10000x500, .f32⟩
  | .hbm, ⟨7, _⟩ => ⟨S10000x500, .f32⟩
  | .hbm, ⟨8, _⟩ => ⟨S1x500, .f32⟩
  | .hbm, ⟨9, _⟩ => ⟨S10000x500, .f32⟩
  | .hbm, ⟨10, _⟩ => ⟨S10000x500, .f32⟩
  | .hbm, ⟨11, _⟩ => ⟨S_, .f32⟩
  | .hbm, ⟨12, _⟩ => ⟨S10000x500, .f32⟩
  | .hbm, ⟨13, _⟩ => ⟨S10000x500, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S10000x500_0_1 : S1x500.BroadcastsInDim S10000x500 (![0, 1] : Fin 2 → Fin S10000x500.rank)
  bcast_S_S10000x500 : S_.BroadcastsInDim S10000x500 (![] : Fin 0 → Fin S10000x500.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x1433_S1433x500_S10000x500_1_0_0_1_n_n_wf : DotDims.WF S10000x1433 S1433x500 S10000x500 [1] [0] [0] [1] [] []
  dot_S10000x10000_S10000x500_S10000x500_1_0_0_1_n_n_wf : DotDims.WF S10000x10000 S10000x500 S10000x500 [1] [0] [0] [1] [] []
  dot_S10000x500_S500x7_S10000x7_1_0_0_1_n_n_wf : DotDims.WF S10000x500 S500x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x500_S10000x500_1_0_0_1_n_n : DotDims S10000x1433 S1433x500 S10000x500 where
  lhsContracting := [1]
  rhsContracting := [0]
  lhsNonContracting := [0]
  rhsNonContracting := [1]
  lhsBatch := []
  rhsBatch := []
  wf := dot_S10000x1433_S1433x500_S10000x500_1_0_0_1_n_n_wf
def dot_S10000x10000_S10000x500_S10000x500_1_0_0_1_n_n : DotDims S10000x10000 S10000x500 S10000x500 where
  lhsContracting := [1]
  rhsContracting := [0]
  lhsNonContracting := [0]
  rhsNonContracting := [1]
  lhsBatch := []
  rhsBatch := []
  wf := dot_S10000x10000_S10000x500_S10000x500_1_0_0_1_n_n_wf
def dot_S10000x500_S500x7_S10000x7_1_0_0_1_n_n : DotDims S10000x500 S500x7 S10000x7 where
  lhsContracting := [1]
  rhsContracting := [0]
  lhsNonContracting := [0]
  rhsNonContracting := [1]
  lhsBatch := []
  rhsBatch := []
  wf := dot_S10000x500_S500x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.WordLevel.FirstLayerCases.lean ====
/-
  The first layer's kernel, case by case.

  The first pallas_call runs 60 grid points in two phases. At points 0..9 the body multiplies block t of x
  (1000 rows) by the padded first weight table and stores the product into rows [1000 t, 1000 t + 1000) of a
  scratch table kept across points; it touches neither output. At points 10..59 it copies block t - 10 of the
  adjacency matrix (200 rows) to the second output, multiplies it by the whole scratch table, adds the padded
  bias row, clamps at zero, multiplies by the padded second weight table and stores the result to the first
  output; the scratch table is read, not written.

  Here: which phase a point is in and where the first phase stores (decided over the grid), where the two
  outputs are idle, each input window's buffer at its block, and the body's triple in each phase.
-/
import proofs.«100629_g28415503630501_cont_9to1_332_17_alg».proof.Proof.Gen.Kernel.Launch
import proofs.«100629_g28415503630501_cont_9to1_332_17_alg».proof.Proof.Gen.Kernel.Skeleton
import proofs.«100629_g28415503630501_cont_9to1_332_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule, decided over the grid -/

/-- The first conditional holds exactly at points 0..9. -/
theorem phaseA_iff : ∀ t : Fin cfg0.N, k0_cond1 (grid0.coords t) = 1#1 ↔ t.val < 10 :=
  (by decide +kernel : ∀ t : Fin grid0.N, k0_cond1 (grid0.coords t) = 1#1 ↔ t.val < 10)
/-- The second holds exactly at points 10..59. -/
theorem phaseB_iff : ∀ t : Fin cfg0.N, k0_cond2 (grid0.coords t) = 1#1 ↔ 10 ≤ t.val :=
  (by decide +kernel : ∀ t : Fin grid0.N, k0_cond2 (grid0.coords t) = 1#1 ↔ 10 ≤ t.val)
/-- In the first phase the store's offsets are row 1000 t, column 0. -/
theorem slab_off : ∀ t : Fin cfg0.N, t.val < 10 → k0_off1 (grid0.coords t) = ![1000 * t.val, 0] :=
  (by decide +kernel : ∀ t : Fin grid0.N, t.val < 10 → k0_off1 (grid0.coords t) = ![1000 * t.val, 0])
/-- In the first phase both outputs are idle and not written back; in the second they are live. -/
theorem idle5_A : ∀ t : Fin cfg0.N, t.val < 10 → cfg0.idle 5 (grid0.coords t) = true :=
  (by decide +kernel : ∀ t : Fin grid0.N, t.val < 10 → cfg0.idle 5 (grid0.coords t) = true)
theorem idle6_A : ∀ t : Fin cfg0.N, t.val < 10 → cfg0.idle 6 (grid0.coords t) = true :=
  (by decide +kernel : ∀ t : Fin grid0.N, t.val < 10 → cfg0.idle 6 (grid0.coords t) = true)
theorem noFlush5_A : ∀ t : Fin cfg0.N, t.val < 10 → (cfg0.win 5).flush t = false :=
  (by decide +kernel : ∀ t : Fin grid0.N, t.val < 10 → win0_5.flush t = false)
theorem noFlush6_A : ∀ t : Fin cfg0.N, t.val < 10 → (cfg0.win 6).flush t = false :=
  (by decide +kernel : ∀ t : Fin grid0.N, t.val < 10 → win0_6.flush t = false)
theorem live5_B : ∀ t : Fin cfg0.N, 10 ≤ t.val → cfg0.idle 5 (grid0.coords t) = false :=
  (by decide +kernel : ∀ t : Fin grid0.N, 10 ≤ t.val → cfg0.idle 5 (grid0.coords t) = false)
theorem live6_B : ∀ t : Fin cfg0.N, 10 ≤ t.val → cfg0.idle 6 (grid0.coords t) = false :=
  (by decide +kernel : ∀ t : Fin grid0.N, 10 ≤ t.val → cfg0.idle 6 (grid0.coords t) = false)
/-- The second phase writes both outputs back at every point. -/
theorem flush5_B : ∀ t : Fin cfg0.N, 10 ≤ t.val → (cfg0.win 5).flush t = true :=
  (by decide +kernel : ∀ t : Fin grid0.N, 10 ≤ t.val → win0_5.flush t = true)
theorem flush6_B : ∀ t : Fin cfg0.N, 10 ≤ t.val → (cfg0.win 6).flush t = true :=
  (by decide +kernel : ∀ t : Fin grid0.N, 10 ≤ t.val → win0_6.flush t = true)

/-! ## The windows' blocks -/

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point: fetched there, or the block index has not
    moved since the fetch (x's index stays 9 through the second phase; the adjacency's stays 0 through the first). -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_w1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_b1 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_w2 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_adj {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it stores -/

abbrev rX : Rect S1000x1433 := Rect.unit (s := S1000x1433) ![0, 0] S1000x1433.size inb_S1000x1433_S1000x1433_0_0
abbrev rW1 : Rect S1433x512 := Rect.unit (s := S1433x512) ![0, 0] S1433x512.size inb_S1433x512_S1433x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rAdj : Rect S200x10000 := Rect.unit (s := S200x10000) ![0, 0] S200x10000.size inb_S200x10000_S200x10000_0_0
abbrev rHid : Rect S200x128 := Rect.unit (s := S200x128) ![0, 0] S200x128.size inb_S200x128_S200x128_0_0
abbrev rScr : Rect S10000x512 := Rect.unit (s := S10000x512) ![0, 0] S10000x512.size inb_S10000x512_S10000x512_0_0

/-- The scratch table after a first-phase point: rows [o, o + 1000) hold the product of the x block and the weight
    table, every other row what it held. -/
def slabbed (o : ℕ) (x0 : Vec F S1000x1433 .f32) (x1 : Vec F S1433x512 .bf16) (S : Vec F S10000x512 .bf16) : Vec F S10000x512 .bf16 :=
  fun y => if h : o ≤ (y (0 : Fin 2)).val ∧ (y (0 : Fin 2)).val < o + 1000 then
      k0_pay1 (View.ld x0 rX) (View.ld x1 rW1)
        (Rect.unitLocal (s := S10000x512) (off := ![o, 0]) (size := S1000x512.size) y (Rect.unit_rows_mem y rfl rfl h))
    else S y

/-- The second output's buffer after a second-phase point: the copy of the adjacency block. -/
def copyBlock (x4 : Vec F S200x10000 .f32) : Vec F S200x10000 .bf16 :=
  View.canon [⟨rAdj, k0_pay2 (View.ld x4 rAdj)⟩]
/-- The first output's buffer after a second-phase point: the hidden block from the adjacency block, the scratch
    table, the bias row and the second weight table. -/
def hidBlock (x4 : Vec F S200x10000 .f32) (S : Vec F S10000x512 .bf16) (x2 : Vec F S1x512 .f32) (x3 : Vec F S512x128 .bf16) : Vec F S200x128 .bf16 :=
  View.canon [⟨rHid, k0_pay3 (View.ld x4 rAdj) (View.ld S rScr) (View.ld x2 rB1) (View.ld x3 rW2)⟩]

theorem copyBlock_cover (p0 : Vec F S200x10000 .bf16) (y : S200x10000.Idx) :
    ∃ pc ∈ ([⟨rAdj, p0⟩] : List (View.Piece (Elt F) S200x10000 .bf16)), y ∈ pc.1.set :=
  View.cover_of_tiled [⟨rAdj, p0⟩] S200x10000.size (by rfl) y
theorem hidBlock_cover (p0 : Vec F S200x128 .bf16) (y : S200x128.Idx) :
    ∃ pc ∈ ([⟨rHid, p0⟩] : List (View.Piece (Elt F) S200x128 .bf16)), y ∈ pc.1.set :=
  View.cover_of_tiled [⟨rHid, p0⟩] S200x128.size (by rfl) y

/-! ## The body's triple in each phase -/

set_option maxHeartbeats 2000000 in
/-- First phase, the store at row o: x's buffer, the weight table's and the scratch at known contents go in; they
    come out with the scratch's slab replaced. The other buffers are not touched and stay with the caller. -/
theorem tripleA (c : Dev nD) (E : Set ℕ) (i : grid0.Coords)
    (arg1 : Memref sig .tc .vmem S1000x1433 .f32) (harg1 : arg1.IsWhole) (arg2 : Memref sig .tc .vmem S1433x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x512 .bf16) (harg8 : arg8.IsWhole)
    (hc1 : k0_cond1 i = 1#1) (hc2 : ¬ k0_cond2 i = 1#1) (o : ℕ) (ho : k0_off1 i = ![o, 0])
    (x0 : Vec F S1000x1433 .f32) (x1 : Vec F S1433x512 .bf16) (S : Vec F S10000x512 .bf16) (K : PUnit → sProp 𝕄) :
    iprop(owns (c : Thread nD τ) arg1 fullShare x0 ∗ owns (c : Thread nD τ) arg2 fullShare x1 ∗ owns (c : Thread nD τ) arg8 fullShare S
        ∗ (iprop(owns (c : Thread nD τ) arg1 fullShare x0 ∗ owns (c : Thread nD τ) arg2 fullShare x1
            ∗ owns (c : Thread nD τ) arg8 fullShare (slabbed o x0 x1 S)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  funext y
  refine (View.read_writes_cons_rows arg8.view fs (size := S1000x512.size) (W := 1000) (k0_off1_inb i hc1) _ [] y ho rfl rfl).trans ?_
  unfold slabbed
  by_cases h : o ≤ (y (0 : Fin 2)).val ∧ (y (0 : Fin 2)).val < o + 1000
  · rw [dif_pos h, dif_pos h]; rfl
  · rw [dif_neg h, dif_neg h, View.writes_nil]

set_option maxHeartbeats 4000000 in
/-- Second phase: the adjacency block, the scratch table, the bias row and the second weight table at known
    contents and the two outputs at anything go in; the inputs come out as they were, the outputs at the copy and
    the hidden block. -/
theorem tripleB (c : Dev nD) (E : Set ℕ) (i : grid0.Coords)
    (arg1 : Memref sig .tc .vmem S1000x1433 .f32) (harg1 : arg1.IsWhole) (arg2 : Memref sig .tc .vmem S1433x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x512 .bf16) (harg8 : arg8.IsWhole)
    (hc1 : ¬ k0_cond1 i = 1#1) (hc2 : k0_cond2 i = 1#1)
    (x2 : Vec F S1x512 .f32) (x3 : Vec F S512x128 .bf16) (x4 : Vec F S200x10000 .f32) (S : Vec F S10000x512 .bf16) (K : PUnit → sProp 𝕄) :
    iprop(owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare S
        ∗ (iprop(owns (c : Thread nD τ) arg3 fullShare x2 ∗ owns (c : Thread nD τ) arg4 fullShare x3 ∗ owns (c : Thread nD τ) arg5 fullShare x4
            ∗ owns (c : Thread nD τ) arg6 fullShare (hidBlock x4 S x2 x3) ∗ owns (c : Thread nD τ) arg7 fullShare (copyBlock x4)
            ∗ owns (c : Thread nD τ) arg8 fullShare S) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf2; subst hf3; subst hf4; subst hfs
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (hidBlock_cover _)
  isplitl [H6]
  · iexists _; isplitr
    swap; · iexact H6
    ipureintro
    exact View.read_writes_eq_canon _ _ _ (copyBlock_cover _)
  iexists fs; isplitr; · ipureintro; rfl
  iexact HS

end Cert.Kernel.FirstLayer

end
-- ==== Proof.WordLevel.FirstLayerBody.lean ====
/-
  The first layer's kernel over the whole grid.

  The scratch table is built a slab of 1000 rows per point over points 0..9 and read whole from point 10 on. The
  support table is what it holds once built: row r is row r mod 1000 of the product of x's block r / 1000 with
  the padded weight table. Between points the invariant says: the scratch agrees with the support table on every
  row below 1000 n (after n points), so from point 10 on it IS the support table, and the hidden block a
  second-phase point stores is a function of the adjacency block, the support table, the bias row and the second
  weight table alone. The proof data name that; the obligation at a point is the phase's triple.
-/
import proofs.«100629_g28415503630501_cont_9to1_332_17_alg».proof.Proof.WordLevel.FirstLayerCases
import Idealize.ShloMosaic.Lib.ValueIdx

set_option maxRecDepth 16384

noncomputable section

namespace Cert.Kernel.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The support table -/

/-- Entry y of slab n, for a row of that slab. -/
def slabAt (c : Dev nD) (n : ℕ) (hn : n < 10) (y : S10000x512.Idx)
    (h : 1000 * n ≤ (y (0 : Fin 2)).val ∧ (y (0 : Fin 2)).val < 1000 * n + 1000) : Elt F .bf16 :=
  k0_pay1 (View.ld (blk V c 0 ⟨n, lt_of_lt_of_eq (Nat.lt_trans hn (by norm_num)) N_0.symm⟩) rX)
    (View.ld (blk V c 1 ⟨n, lt_of_lt_of_eq (Nat.lt_trans hn (by norm_num)) N_0.symm⟩) rW1)
    (Rect.unitLocal (s := S10000x512) (off := ![1000 * n, 0]) (size := S1000x512.size) y (Rect.unit_rows_mem y rfl rfl h))

/-- The support table: every row lies in the slab numbered by its thousands. -/
def support (c : Dev nD) : Vec F S10000x512 .bf16 := fun y =>
  slabAt V c ((y (0 : Fin 2)).val / 1000) (by have := ValueIdx.idx2_lt0 y; omega) y (by have := ValueIdx.idx2_lt0 y; omega)

/-- On a row of slab n the support table is that slab's entry. -/
theorem support_eq_slabAt (c : Dev nD) (n : ℕ) (hn : n < 10) (y : S10000x512.Idx)
    (h : 1000 * n ≤ (y (0 : Fin 2)).val ∧ (y (0 : Fin 2)).val < 1000 * n + 1000) : support V c y = slabAt V c n hn y h := by
  have e : (y (0 : Fin 2)).val / 1000 = n := by omega
  unfold support
  subst e
  rfl

/-- After n points the scratch agrees with the support table below row 1000 n. -/
def Built (c : Dev nD) (n : ℕ) (S : Vec F S10000x512 .bf16) : Prop :=
  ∀ y : S10000x512.Idx, (y (0 : Fin 2)).val < 1000 * n → S y = support V c y

theorem built_zero (c : Dev nD) (S : Vec F S10000x512 .bf16) : Built V c 0 S := fun y h => absurd h (by omega)

/-- Once ten slabs are in, the scratch is the support table. -/
theorem built_full (c : Dev nD) (n : ℕ) (hn : 10 ≤ n) (S : Vec F S10000x512 .bf16) (h : Built V c n S) : S = support V c :=
  funext fun y => h y (by have := ValueIdx.idx2_lt0 y; omega)

theorem built_support (c : Dev nD) (n : ℕ) : Built V c n (support V c) := fun _ _ => rfl

/-- A first-phase point adds its slab. -/
theorem built_step (c : Dev nD) (t : Fin cfg0.N) (ht : t.val < 10) (S : Vec F S10000x512 .bf16) (hS : Built V c t.val S) :
    Built V c (t.val + 1) (slabbed (1000 * t.val) (blk V c 0 t) (blk V c 1 t) S) := by
  intro y hy
  unfold slabbed
  by_cases h : 1000 * t.val ≤ (y (0 : Fin 2)).val ∧ (y (0 : Fin 2)).val < 1000 * t.val + 1000
  · rw [dif_pos h, support_eq_slabAt V c t.val ht y h]
    rfl
  · rw [dif_neg h]
    exact hS y (by omega)

/-! ## The invariant between points -/

/-- The scratch table as the body is passed it. -/
abbrev scM : Memref sig .tc .vmem S10000x512 .bf16 := Memref.whole cc0_scratch0

/-- The core's other scoped buffers (the second pallas_call's staging buffers), each whole at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands the body beside the windows: the scratch and the other scoped buffers at anything, and the
    generator register. -/
theorem PhiA_eq (c : Dev nD) :
    (Pipeline.ΦA spec0 c : sProp 𝕄)
      = iprop(((∃ d, owns (c : Thread nD τ) scM fullShare d) ∗ restScoped c) ∗ (∃ r, prngReg c r)) := by
  unfold Pipeline.ΦA restScoped; rw [scopedRest0_eq]; simp only [scM, owns_whole]; rfl

/-- After n points: the scratch at contents that agree with the support table below row 1000 n; the rest untouched. -/
def Inv (c : Dev nD) (n : ℕ) : sProp 𝕄 :=
  iprop(∃ S : Vec F S10000x512 .bf16, ⌜Built V c n S⌝ ∗ owns (c : Thread nD τ) scM fullShare S ∗ restScoped c ∗ (∃ r, prngReg c r))

/-! ## The proof data -/

/-- The proof data of the first pipeline on core c at entry contents V: each input's buffer at its block; the first
    output's at the hidden block over the SUPPORT TABLE, the second's at the copy of the adjacency block (both read
    only at second-phase points: in the first phase the windows are idle); the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => hidBlock (blk V c 4 t) (support V c) (blk V c 2 t) (blk V c 3 t)
    | ⟨6, _⟩ => copyBlock (blk V c 4 t)
  Φ t := Inv V c t.val
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w1 (c : Dev nD) (t : Fin cfg0.N) : (dat V c).after 1 t = blk V c 1 t := by dsimp only [dat]
theorem after_b1 (c : Dev nD) (t : Fin cfg0.N) : (dat V c).after 2 t = blk V c 2 t := by dsimp only [dat]
theorem after_w2 (c : Dev nD) (t : Fin cfg0.N) : (dat V c).after 3 t = blk V c 3 t := by dsimp only [dat]
theorem after_adj (c : Dev nD) (t : Fin cfg0.N) : (dat V c).after 4 t = blk V c 4 t := by dsimp only [dat]
theorem after_hid (c : Dev nD) (t : Fin cfg0.N) :
    (dat V c).after 5 t = hidBlock (blk V c 4 t) (support V c) (blk V c 2 t) (blk V c 3 t) := by dsimp only [dat]
theorem after_copy (c : Dev nD) (t : Fin cfg0.N) : (dat V c).after 6 t = copyBlock (blk V c 4 t) := by dsimp only [dat]

theorem before_x (c : Dev nD) (t : Fin cfg0.N) (d) : (dat V c).before 0 t d = blk V c 0 t :=
  found_x V (dat V c) (dat_A V c 0) (after_x V c) t d
theorem before_w1 (c : Dev nD) (t : Fin cfg0.N) (d) : (dat V c).before 1 t d = blk V c 1 t :=
  found_w1 V (dat V c) (dat_A V c 1) (after_w1 V c) t d
theorem before_b1 (c : Dev nD) (t : Fin cfg0.N) (d) : (dat V c).before 2 t d = blk V c 2 t :=
  found_b1 V (dat V c) (dat_A V c 2) (after_b1 V c) t d
theorem before_w2 (c : Dev nD) (t : Fin cfg0.N) (d) : (dat V c).before 3 t d = blk V c 3 t :=
  found_w2 V (dat V c) (dat_A V c 3) (after_w2 V c) t d
theorem before_adj (c : Dev nD) (t : Fin cfg0.N) (d) : (dat V c).before 4 t d = blk V c 4 t :=
  found_adj V (dat V c) (dat_A V c 4) (after_adj V c) t d

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

/-! ## The obligation at a point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns: each window's buffer at what the body leaves, an idle window's as it was found. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4000000 in
/-- The body at any point. In the first phase the triple replaces the point's slab and the invariant advances by
    one slab; the outputs go back as found. In the second the scratch is the support table, the triple fills both
    outputs, and the invariant is kept. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w1, before_b1, before_w2, before_adj]
  rw [show (dat V c).owesAt () t.succ = (dat V c).owesAt () t.castSucc from rfl,
    show (dat V c).Φ t.succ = Inv V c (t.val + 1) from rfl,
    show (dat V c).Φ t.castSucc = Inv V c t.val from rfl]
  rw [show (dat V c).leavesExact 0 t = owns (c : Thread nD τ) (st0_0 t) fullShare ((dat V c).after 0 t) from by
      unfold Dat.leavesExact; rw [live0 t], after_x]
  rw [show (dat V c).leavesExact 1 t = owns (c : Thread nD τ) (st0_1 t) fullShare ((dat V c).after 1 t) from by
      unfold Dat.leavesExact; rw [live1 t], after_w1]
  rw [show (dat V c).leavesExact 2 t = owns (c : Thread nD τ) (st0_2 t) fullShare ((dat V c).after 2 t) from by
      unfold Dat.leavesExact; rw [live2 t], after_b1]
  rw [show (dat V c).leavesExact 3 t = owns (c : Thread nD τ) (st0_3 t) fullShare ((dat V c).after 3 t) from by
      unfold Dat.leavesExact; rw [live3 t], after_w2]
  rw [show (dat V c).leavesExact 4 t = owns (c : Thread nD τ) (st0_4 t) fullShare ((dat V c).after 4 t) from by
      unfold Dat.leavesExact; rw [live4 t], after_adj]
  unfold Inv
  by_cases hA : t.val < 10
  · have hc1 : k0_cond1 (grid0.coords t) = 1#1 := (phaseA_iff t).mpr hA
    have hc2 : ¬ k0_cond2 (grid0.coords t) = 1#1 := fun h => absurd ((phaseB_iff t).mp h) (by omega)
    rw [Dat.leavesExact_idle (dat V c) 5 t (idle5_A t hA) (noFlush5_A t hA),
      Dat.leavesExact_idle (dat V c) 6 t (idle6_A t hA) (noFlush6_A t hA)]
    iintro ⟨⟨%S, %hS, HS, Hrest, Hg⟩, Ho, ⟨%d0, H0⟩, ⟨%d1, H1⟩, ⟨%d2, H2⟩, ⟨%d3, H3⟩, ⟨%d4, H4⟩, H5, H6⟩
    iapply (tripleA c Set.univ (grid0.coords t) _ _ _ _ _ _ _ _ _ _ _ _ _ _ _ _ hc1 hc2 (1000 * t.val) (slab_off t hA)
      (blk V c 0 t) (blk V c 1 t) S _)
    isplitl [H0]; · iexact H0
    isplitl [H1]; · iexact H1
    isplitl [HS]; · iexact HS
    iintro ⟨H0, H1, HS⟩
    isplitl [HS Hrest Hg]
    · iexists _; isplitr; · ipureintro; exact built_step V c t hA S hS
      isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hB : 10 ≤ t.val := by omega
    have hc1 : ¬ k0_cond1 (grid0.coords t) = 1#1 := fun h => hA ((phaseA_iff t).mp h)
    have hc2 : k0_cond2 (grid0.coords t) = 1#1 := (phaseB_iff t).mpr hB
    rw [show (dat V c).leavesExact 5 t = owns (c : Thread nD τ) (st0_5 t) fullShare ((dat V c).after 5 t) from by
      unfold Dat.leavesExact; rw [live5_B t hB], after_hid]
    rw [show (dat V c).leavesExact 6 t = owns (c : Thread nD τ) (st0_6 t) fullShare ((dat V c).after 6 t) from by
      unfold Dat.leavesExact; rw [live6_B t hB], after_copy]
    iintro ⟨⟨%S, %hS, HS, Hrest, Hg⟩, Ho, ⟨%d0, H0⟩, ⟨%d1, H1⟩, ⟨%d2, H2⟩, ⟨%d3, H3⟩, ⟨%d4, H4⟩, ⟨%d5, H5⟩, ⟨%d6, H6⟩⟩
    obtain rfl : S = support V c := built_full V c t.val hB S hS
    iapply (tripleB c Set.univ (grid0.coords t) _ _ _ _ _ _ _ _ _ _ _ _ _ _ _ _ hc1 hc2
      (blk V c 2 t) (blk V c 3 t) (blk V c 4 t) (support V c) _)
    isplitl [H2]; · iexact H2
    isplitl [H3]; · iexact H3
    isplitl [H4]; · iexact H4
    isplitl [H5]; · iexists _; iexact H5
    isplitl [H6]; · iexists _; iexact H6
    isplitl [HS]; · iexact HS
    iintro ⟨H2, H3, H4, H5, H6, HS⟩
    isplitl [HS Hrest Hg]
    · iexists _; isplitr; · ipureintro; exact built_support V c _
      isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline rule's body obligation, at every point. -/
theorem body_obligation (c : Dev nD) : BodyObligation (dat (F := F) V c) (defs₀ (F := F)) Variants.none () Set.univ := fun t => by
  rw [bigSep_W0, bigSep_W0]
  exact sound_body V c t

/-- What the region hands the body is the invariant before the first point: nothing is claimed of the scratch yet. -/
theorem hin (c : Dev nD) : Pipeline.ΦA spec0 c ⊢ (dat V c).Φ 0 := by
  rw [show (dat V c).Φ 0 = Inv V c 0 from rfl, PhiA_eq]
  unfold Inv
  iintro ⟨⟨⟨%d, HS⟩, Hrest⟩, Hg⟩
  iexists d; isplitr; · ipureintro; exact built_zero V c d
  isplitl [HS]; · iexact HS
  isplitl [Hrest]; · iexact Hrest
  iexact Hg

/-- After the last point the invariant gives the scoped buffers back, the scratch's contents forgotten. -/
theorem hout (c : Dev nD) : (dat V c).Φ (Fin.last cfg0.N) ⊢ Pipeline.ΦA spec0 c := by
  rw [show (dat V c).Φ (Fin.last cfg0.N) = Inv V c cfg0.N from rfl, PhiA_eq]
  unfold Inv
  iintro ⟨%S, -, HS, Hrest, Hg⟩
  isplitl [HS Hrest]
  · isplitl [HS]; · iexists S; iexact HS
    iexact Hrest
  iexact Hg

end Cert.Kernel.FirstLayer

end
-- ==== Proof.WordLevel.SecondLayerBody.lean ====
/-
  The second layer's kernel, one grid point at a time.

  The second pallas_call computes, for the block of 400 rows numbered t, the product of that block of the
  adjacency copy with the whole (10000 x 128) hidden table, plus the bias row broadcast down the block. Its body
  loads its three inputs whole, reads its output buffer once (the value is never used) and stores the block's
  result whole. Stated here for any entry contents V of the core's buffers: what each input buffer holds at a
  point (the array's block there), what the output buffer holds after the body (the payload of the three input
  blocks), the body's triple, and the per-point obligation of the pipeline rule.
-/
import proofs.«100629_g28415503630501_cont_9to1_332_17_alg».proof.Proof.Gen.Kernel.Launch
import proofs.«100629_g28415503630501_cont_9to1_332_17_alg».proof.Proof.Gen.Kernel.Skeleton
import proofs.«100629_g28415503630501_cont_9to1_332_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SecondLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or the block
    index has not moved since the fetch. -/
theorem found_adj {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_hidden {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_bias {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rAdj : Rect S400x10000 := Rect.unit (s := S400x10000) ![0, 0] S400x10000.size inb_S400x10000_S400x10000_0_0
abbrev rHidden : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rOut : Rect S400x128 := Rect.unit (s := S400x128) ![0, 0] S400x128.size inb_S400x128_S400x128_0_0

/-- What the body leaves in the output buffer: its one store, over the whole buffer, of the payload of the three
    input blocks. -/
def outBlock (x0 : Vec F S400x10000 .bf16) (x1 : Vec F S10000x128 .bf16) (x2 : Vec F S1x128 .f32) : Vec F S400x128 .f32 :=
  View.canon [⟨rOut, k1_pay1 (View.ld x0 rAdj) (View.ld x1 rHidden) (View.ld x2 rBias)⟩]

/-- The one store covers the buffer. -/
theorem outBlock_cover (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

set_option maxHeartbeats 1000000 in
/-- The body on whole staging buffers, the inputs at contents x0, x1, x2 and the output at anything, runs to the
    continuation with the inputs as they were and the output at outBlock of them. -/
theorem triple (c : Dev nD) (E : Set ℕ) (i : grid1.Coords) (arg1 : Memref sig .tc .vmem S400x10000 .bf16) (harg1 : arg1.IsWhole)
    (arg2 : Memref sig .tc .vmem S10000x128 .bf16) (harg2 : arg2.IsWhole) (arg3 : Memref sig .tc .vmem S1x128 .f32) (harg3 : arg3.IsWhole)
    (arg4 : Memref sig .tc .vmem S400x128 .f32) (harg4 : arg4.IsWhole)
    (x0 : Vec F S400x10000 .bf16) (x1 : Vec F S10000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The proof data of the second pipeline on core c at entry contents V: each input's buffer at its block, the
    output's at outBlock of the three blocks; the invariant is the scoped rest and the generator register,
    untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_hidden (c : Dev nD) (t : Fin cfg1.N) : (dat V c).after 1 t = blk V c 1 t := by dsimp only [dat]
theorem after_bias (c : Dev nD) (t : Fin cfg1.N) : (dat V c).after 2 t = blk V c 2 t := by dsimp only [dat]
theorem after_out (c : Dev nD) (t : Fin cfg1.N) :
    (dat V c).after 3 t = outBlock (blk V c 0 t) (blk V c 1 t) (blk V c 2 t) := by dsimp only [dat]

theorem before_adj (c : Dev nD) (t : Fin cfg1.N) (d) : (dat V c).before 0 t d = blk V c 0 t :=
  found_adj V (dat V c) (dat_A V c 0) (after_adj V c) t d
theorem before_hidden (c : Dev nD) (t : Fin cfg1.N) (d) : (dat V c).before 1 t d = blk V c 1 t :=
  found_hidden V (dat V c) (dat_A V c 1) (after_hidden V c) t d
theorem before_bias (c : Dev nD) (t : Fin cfg1.N) (d) : (dat V c).before 2 t d = blk V c 2 t :=
  found_bias V (dat V c) (dat_A V c 2) (after_bias V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_hidden, before_bias]
  rw [show (dat V c).Φ t.succ = (dat V c).Φ t.castSucc from rfl,
    show (dat V c).owesAt () t.succ = (dat V c).owesAt () t.castSucc from rfl,
    after_adj, after_hidden, after_bias, after_out]
  iintro ⟨HΦ, Ho, ⟨%d0, H0⟩, ⟨%d1, H1⟩, ⟨%d2, H2⟩, ⟨%d3, H3⟩⟩
  iapply (triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation (c : Dev nD) : BodyObligation (dat (F := F) V c) (defs₀ (F := F)) Variants.none () Set.univ := fun t => by
  rw [bigSep_W1, bigSep_W1]
  exact sound_body V c t

end Cert.Kernel.SecondLayer

end
-- ==== Proof.WordLevel.TwoLayerRun.lean ====
/-
  The whole program: host operations, the first layer's region, the second layer's region, the closing slice.

  The core's unscoped buffers are followed through the four segments: W0 at launch; W1 after the host operations that
  pad the tables; W2 after the first region, whose two output arrays hold what its write-backs leave; W3 after the
  second region likewise; W4 after the slice to seven columns. Each region is entered from the contents the segment
  before it left and is discharged by its body obligation. The run ends with every unscoped buffer at W4, from which
  both the frame (no segment writes an argument) and the value of the result are read.
-/
import proofs.«100629_g28415503630501_cont_9to1_332_17_alg».proof.Proof.WordLevel.FirstLayerBody
import proofs.«100629_g28415503630501_cont_9to1_332_17_alg».proof.Proof.WordLevel.SecondLayerBody

set_option maxRecDepth 16384

noncomputable section

namespace Cert.Kernel.TwoLayers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the padding operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (FirstLayer.dat (V1 m ρ) c).arrAt w cfg0.N
theorem W2_arr (c : Dev nD) (w : Fin cfg0.W) :
    W2 m ρ c (Proc.devRef .tc (Pipeline.arrRef spec0 w)) = (FirstLayer.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (FirstLayer.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (SecondLayer.dat (V2 m ρ) c).arrAt w cfg1.N
theorem W3_arr (c : Dev nD) (w : Fin cfg1.W) :
    W3 m ρ c (Proc.devRef .tc (Pipeline.arrRef spec1 w)) = (SecondLayer.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (SecondLayer.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing slice: what the program returns with. -/
abbrev W4 : Dev nD → Valuation τ sig (Elt F) := fun c => StableHlo.after hostOps2 (W3 m ρ c)

/-! ## The proof data family and the thread state -/

/-- No pipeline has a prefetched table. -/
abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => FirstLayer.dat (V1 m ρ) c
  | ⟨1, _⟩ => fun c => SecondLayer.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W4, the generator register at some state. -/
abbrev Tₙ (c : Dev nD) : sProp 𝕄 := iprop(StableHlo.held (c : Thread nD τ) (Pipeline.ucRefs τ sig) (W4 m ρ c) ∗ ∃ r, prngReg c r)

/-! ## The regions as segments -/

-- the library lemmas are stated over the pinned configuration: unification may unfold plain definitions in a
-- metavariable's type to meet it
set_option backward.isDefEq.respectTransparency.types false in
/-- Region 0 over the thread state: entered with every unscoped buffer at W1, left with them at W2. Its arrays
    are split out of the unscoped buffers and put back at the contents the write-backs leave; the generator register
    goes into the body's invariant and comes back; nothing is owed; the kernel has no semaphore of its own. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (FirstLayer.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := FirstLayer.hin (V1 m ρ) c
    unfold Pipeline.ΦA at h
    rw [show (pdats m ρ 0 c).Φ 0 = (FirstLayer.dat (V1 m ρ) c).Φ 0 from rfl]
    iintro ⟨Hp, -, Hr⟩
    iapply h
    isplitl [Hr]; · iexact Hr
    iexact Hp
  hout c := by
    have h := FirstLayer.hout (V1 m ρ) c
    unfold Pipeline.ΦA at h
    rw [Pipeline.ownSems0_none, show (pdats m ρ 0 c).Φ (Fin.last _) = (FirstLayer.dat (V1 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas are stated over the pinned configuration: unification may unfold plain definitions in a
-- metavariable's type to meet it
set_option backward.isDefEq.respectTransparency.types false in
/-- Region 1 over the thread state: entered with every unscoped buffer at W2, left with them at W3. Its arrays
    are split out of the unscoped buffers and put back at the contents the write-backs leave; the generator register
    goes into the body's invariant and comes back; nothing is owed; the kernel has no semaphore of its own. -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (SecondLayer.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) tables (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final memory holds each unscoped buffer at W4. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) tables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.TwoLayers

end
-- ==== Proof.WordLevel.Frames.lean ====
/-
  What the run says of the arguments and of the result.

  No segment writes an argument: the host operations write only their own result buffers, and a region changes only
  its output windows' arrays (x and the adjacency matrix are INPUT windows of the first region, whose arrays the
  pipeline leaves as it found them). So each argument's buffer walks back through the four boundaries to its launch
  contents, and the run's post gives the frame. The result buffer ends at W4's value, named here for the value claim.
-/
import proofs.«100629_g28415503630501_cont_9to1_332_17_alg».proof.Proof.WordLevel.TwoLayerRun
import proofs.«100629_g28415503630501_cont_9to1_332_17_alg».proof.Proof.Gen.Kernel.Regions

set_option maxRecDepth 16384

noncomputable section

namespace Cert.Kernel.TwoLayers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem kept_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((FirstLayer.dat (V1 m ρ) c).arrAt_in 0 rfl _).trans (FirstLayer.dat_A (V1 m ρ) c 0))
    _ = W0 m ρ c (Proc.devRef .tc main_arg0) := StableHlo.after_of_writes_sub hostOps0 _ hostOps0_writes (by decide)
    _ = m ((c : Thread nD τ).loc main_arg0) := rfl
theorem kept_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 4).trans (((FirstLayer.dat (V1 m ρ) c).arrAt_in 4 rfl _).trans (FirstLayer.dat_A (V1 m ρ) c 4))
    _ = W0 m ρ c (Proc.devRef .tc main_arg1) := StableHlo.after_of_writes_sub hostOps0 _ hostOps0_writes (by decide)
    _ = m ((c : Thread nD τ).loc main_arg1) := rfl
theorem kept_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem kept_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem kept_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem kept_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- THE FRAME, at any float instance: the program runs to the end, faults nowhere, and leaves its six arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c)⟩) (run m ρ)

/-- The same run with the result named: the result buffer ends at W4's contents there. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v0 (by decide)),
     (h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c)⟩) (run m ρ)

end Cert.Kernel.TwoLayers

end
-- ==== Proof.FirstLayerCases.lean ====
/-
  The first layer's kernel, case by case.

  The first pallas_call runs 60 grid points in two phases. At points 0..9 the body multiplies block t of x
  (1000 rows) by the padded first weight table and stores the product into rows [1000 t, 1000 t + 1000) of a
  scratch table kept across points; it touches neither output. At points 10..59 it copies block t - 10 of the
  adjacency matrix (200 rows) to the second output, multiplies it by the whole scratch table, adds the padded
  bias row, clamps at zero, multiplies by the padded second weight table and stores the result to the first
  output; the scratch table is read, not written.

  Here: which phase a point is in and where the first phase stores (decided over the grid), where the two
  outputs are idle, each input window's buffer at its block, and the body's triple in each phase.
-/
import proofs.«100629_g28415503630501_cont_9to1_332_17_alg».proof.Proof.Gen.KernelIdeal.Launch
import proofs.«100629_g28415503630501_cont_9to1_332_17_alg».proof.Proof.Gen.KernelIdeal.Skeleton
import proofs.«100629_g28415503630501_cont_9to1_332_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The schedule, decided over the grid -/

/-- The first conditional holds exactly at points 0..9. -/
theorem phaseA_iff : ∀ t : Fin cfg0.N, k0_cond1 (grid0.coords t) = 1#1 ↔ t.val < 10 :=
  (by decide +kernel : ∀ t : Fin grid0.N, k0_cond1 (grid0.coords t) = 1#1 ↔ t.val < 10)
/-- The second holds exactly at points 10..59. -/
theorem phaseB_iff : ∀ t : Fin cfg0.N, k0_cond2 (grid0.coords t) = 1#1 ↔ 10 ≤ t.val :=
  (by decide +kernel : ∀ t : Fin grid0.N, k0_cond2 (grid0.coords t) = 1#1 ↔ 10 ≤ t.val)
/-- In the first phase the store's offsets are row 1000 t, column 0. -/
theorem slab_off : ∀ t : Fin cfg0.N, t.val < 10 → k0_off1 (grid0.coords t) = ![1000 * t.val, 0] :=
  (by decide +kernel : ∀ t : Fin grid0.N, t.val < 10 → k0_off1 (grid0.coords t) = ![1000 * t.val, 0])
/-- In the first phase both outputs are idle and not written back; in the second they are live. -/
theorem idle5_A : ∀ t : Fin cfg0.N, t.val < 10 → cfg0.idle 5 (grid0.coords t) = true :=
  (by decide +kernel : ∀ t : Fin grid0.N, t.val < 10 → cfg0.idle 5 (grid0.coords t) = true)
theorem idle6_A : ∀ t : Fin cfg0.N, t.val < 10 → cfg0.idle 6 (grid0.coords t) = true :=
  (by decide +kernel : ∀ t : Fin grid0.N, t.val < 10 → cfg0.idle 6 (grid0.coords t) = true)
theorem noFlush5_A : ∀ t : Fin cfg0.N, t.val < 10 → (cfg0.win 5).flush t = false :=
  (by decide +kernel : ∀ t : Fin grid0.N, t.val < 10 → win0_5.flush t = false)
theorem noFlush6_A : ∀ t : Fin cfg0.N, t.val < 10 → (cfg0.win 6).flush t = false :=
  (by decide +kernel : ∀ t : Fin grid0.N, t.val < 10 → win0_6.flush t = false)
theorem live5_B : ∀ t : Fin cfg0.N, 10 ≤ t.val → cfg0.idle 5 (grid0.coords t) = false :=
  (by decide +kernel : ∀ t : Fin grid0.N, 10 ≤ t.val → cfg0.idle 5 (grid0.coords t) = false)
theorem live6_B : ∀ t : Fin cfg0.N, 10 ≤ t.val → cfg0.idle 6 (grid0.coords t) = false :=
  (by decide +kernel : ∀ t : Fin grid0.N, 10 ≤ t.val → cfg0.idle 6 (grid0.coords t) = false)
/-- The second phase writes both outputs back at every point. -/
theorem flush5_B : ∀ t : Fin cfg0.N, 10 ≤ t.val → (cfg0.win 5).flush t = true :=
  (by decide +kernel : ∀ t : Fin grid0.N, 10 ≤ t.val → win0_5.flush t = true)
theorem flush6_B : ∀ t : Fin cfg0.N, 10 ≤ t.val → (cfg0.win 6).flush t = true :=
  (by decide +kernel : ∀ t : Fin grid0.N, 10 ≤ t.val → win0_6.flush t = true)

/-! ## The windows' blocks -/

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point: fetched there, or the block index has not
    moved since the fetch (x's index stays 9 through the second phase; the adjacency's stays 0 through the first). -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_w1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_b1 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_w2 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_adj {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it stores -/

abbrev rX : Rect S1000x1433 := Rect.unit (s := S1000x1433) ![0, 0] S1000x1433.size inb_S1000x1433_S1000x1433_0_0
abbrev rW1 : Rect S1433x512 := Rect.unit (s := S1433x512) ![0, 0] S1433x512.size inb_S1433x512_S1433x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rAdj : Rect S200x10000 := Rect.unit (s := S200x10000) ![0, 0] S200x10000.size inb_S200x10000_S200x10000_0_0
abbrev rHid : Rect S200x128 := Rect.unit (s := S200x128) ![0, 0] S200x128.size inb_S200x128_S200x128_0_0
abbrev rScr : Rect S10000x512 := Rect.unit (s := S10000x512) ![0, 0] S10000x512.size inb_S10000x512_S10000x512_0_0

/-- The scratch table after a first-phase point: rows [o, o + 1000) hold the product of the x block and the weight
    table, every other row what it held. -/
def slabbed (o : ℕ) (x0 : Vec F S1000x1433 .f32) (x1 : Vec F S1433x512 .bf16) (S : Vec F S10000x512 .bf16) : Vec F S10000x512 .bf16 :=
  fun y => if h : o ≤ (y (0 : Fin 2)).val ∧ (y (0 : Fin 2)).val < o + 1000 then
      k0_pay1 (View.ld x0 rX) (View.ld x1 rW1)
        (Rect.unitLocal (s := S10000x512) (off := ![o, 0]) (size := S1000x512.size) y (Rect.unit_rows_mem y rfl rfl h))
    else S y

/-- The second output's buffer after a second-phase point: the copy of the adjacency block. -/
def copyBlock (x4 : Vec F S200x10000 .f32) : Vec F S200x10000 .bf16 :=
  View.canon [⟨rAdj, k0_pay2 (View.ld x4 rAdj)⟩]
/-- The first output's buffer after a second-phase point: the hidden block from the adjacency block, the scratch
    table, the bias row and the second weight table. -/
def hidBlock (x4 : Vec F S200x10000 .f32) (S : Vec F S10000x512 .bf16) (x2 : Vec F S1x512 .f32) (x3 : Vec F S512x128 .bf16) : Vec F S200x128 .bf16 :=
  View.canon [⟨rHid, k0_pay3 (View.ld x4 rAdj) (View.ld S rScr) (View.ld x2 rB1) (View.ld x3 rW2)⟩]

theorem copyBlock_cover (p0 : Vec F S200x10000 .bf16) (y : S200x10000.Idx) :
    ∃ pc ∈ ([⟨rAdj, p0⟩] : List (View.Piece (Elt F) S200x10000 .bf16)), y ∈ pc.1.set :=
  View.cover_of_tiled [⟨rAdj, p0⟩] S200x10000.size (by rfl) y
theorem hidBlock_cover (p0 : Vec F S200x128 .bf16) (y : S200x128.Idx) :
    ∃ pc ∈ ([⟨rHid, p0⟩] : List (View.Piece (Elt F) S200x128 .bf16)), y ∈ pc.1.set :=
  View.cover_of_tiled [⟨rHid, p0⟩] S200x128.size (by rfl) y

/-! ## The body's triple in each phase -/

set_option maxHeartbeats 2000000 in
/-- First phase, the store at row o: x's buffer, the weight table's and the scratch at known contents go in; they
    come out with the scratch's slab replaced. The other buffers are not touched and stay with the caller. -/
theorem tripleA (c : Dev nD) (E : Set ℕ) (i : grid0.Coords)
    (arg1 : Memref sig .tc .vmem S1000x1433 .f32) (harg1 : arg1.IsWhole) (arg2 : Memref sig .tc .vmem S1433x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x512 .bf16) (harg8 : arg8.IsWhole)
    (hc1 : k0_cond1 i = 1#1) (hc2 : ¬ k0_cond2 i = 1#1) (o : ℕ) (ho : k0_off1 i = ![o, 0])
    (x0 : Vec F S1000x1433 .f32) (x1 : Vec F S1433x512 .bf16) (S : Vec F S10000x512 .bf16) (K : PUnit → sProp 𝕄) :
    iprop(owns (c : Thread nD τ) arg1 fullShare x0 ∗ owns (c : Thread nD τ) arg2 fullShare x1 ∗ owns (c : Thread nD τ) arg8 fullShare S
        ∗ (iprop(owns (c : Thread nD τ) arg1 fullShare x0 ∗ owns (c : Thread nD τ) arg2 fullShare x1
            ∗ owns (c : Thread nD τ) arg8 fullShare (slabbed o x0 x1 S)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  funext y
  refine (View.read_writes_cons_rows arg8.view fs (size := S1000x512.size) (W := 1000) (k0_off1_inb i hc1) _ [] y ho rfl rfl).trans ?_
  unfold slabbed
  by_cases h : o ≤ (y (0 : Fin 2)).val ∧ (y (0 : Fin 2)).val < o + 1000
  · rw [dif_pos h, dif_pos h]; rfl
  · rw [dif_neg h, dif_neg h, View.writes_nil]

set_option maxHeartbeats 4000000 in
/-- Second phase: the adjacency block, the scratch table, the bias row and the second weight table at known
    contents and the two outputs at anything go in; the inputs come out as they were, the outputs at the copy and
    the hidden block. -/
theorem tripleB (c : Dev nD) (E : Set ℕ) (i : grid0.Coords)
    (arg1 : Memref sig .tc .vmem S1000x1433 .f32) (harg1 : arg1.IsWhole) (arg2 : Memref sig .tc .vmem S1433x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x512 .bf16) (harg8 : arg8.IsWhole)
    (hc1 : ¬ k0_cond1 i = 1#1) (hc2 : k0_cond2 i = 1#1)
    (x2 : Vec F S1x512 .f32) (x3 : Vec F S512x128 .bf16) (x4 : Vec F S200x10000 .f32) (S : Vec F S10000x512 .bf16) (K : PUnit → sProp 𝕄) :
    iprop(owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare S
        ∗ (iprop(owns (c : Thread nD τ) arg3 fullShare x2 ∗ owns (c : Thread nD τ) arg4 fullShare x3 ∗ owns (c : Thread nD τ) arg5 fullShare x4
            ∗ owns (c : Thread nD τ) arg6 fullShare (hidBlock x4 S x2 x3) ∗ owns (c : Thread nD τ) arg7 fullShare (copyBlock x4)
            ∗ owns (c : Thread nD τ) arg8 fullShare S) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf2; subst hf3; subst hf4; subst hfs
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (hidBlock_cover _)
  isplitl [H6]
  · iexists _; isplitr
    swap; · iexact H6
    ipureintro
    exact View.read_writes_eq_canon _ _ _ (copyBlock_cover _)
  iexists fs; isplitr; · ipureintro; rfl
  iexact HS

end Cert.KernelIdeal.FirstLayer

end
-- ==== Proof.FirstLayerBody.lean ====
/-
  The first layer's kernel over the whole grid.

  The scratch table is built a slab of 1000 rows per point over points 0..9 and read whole from point 10 on. The
  support table is what it holds once built: row r is row r mod 1000 of the product of x's block r / 1000 with
  the padded weight table. Between points the invariant says: the scratch agrees with the support table on every
  row below 1000 n (after n points), so from point 10 on it IS the support table, and the hidden block a
  second-phase point stores is a function of the adjacency block, the support table, the bias row and the second
  weight table alone. The proof data name that; the obligation at a point is the phase's triple.
-/
import proofs.«100629_g28415503630501_cont_9to1_332_17_alg».proof.Proof.FirstLayerCases
import Idealize.ShloMosaic.Lib.ValueIdx

set_option maxRecDepth 16384

noncomputable section

namespace Cert.KernelIdeal.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The support table -/

/-- Entry y of slab n, for a row of that slab. -/
def slabAt (c : Dev nD) (n : ℕ) (hn : n < 10) (y : S10000x512.Idx)
    (h : 1000 * n ≤ (y (0 : Fin 2)).val ∧ (y (0 : Fin 2)).val < 1000 * n + 1000) : Elt F .bf16 :=
  k0_pay1 (View.ld (blk V c 0 ⟨n, lt_of_lt_of_eq (Nat.lt_trans hn (by norm_num)) N_0.symm⟩) rX)
    (View.ld (blk V c 1 ⟨n, lt_of_lt_of_eq (Nat.lt_trans hn (by norm_num)) N_0.symm⟩) rW1)
    (Rect.unitLocal (s := S10000x512) (off := ![1000 * n, 0]) (size := S1000x512.size) y (Rect.unit_rows_mem y rfl rfl h))

/-- The support table: every row lies in the slab numbered by its thousands. -/
def support (c : Dev nD) : Vec F S10000x512 .bf16 := fun y =>
  slabAt V c ((y (0 : Fin 2)).val / 1000) (by have := ValueIdx.idx2_lt0 y; omega) y (by have := ValueIdx.idx2_lt0 y; omega)

/-- On a row of slab n the support table is that slab's entry. -/
theorem support_eq_slabAt (c : Dev nD) (n : ℕ) (hn : n < 10) (y : S10000x512.Idx)
    (h : 1000 * n ≤ (y (0 : Fin 2)).val ∧ (y (0 : Fin 2)).val < 1000 * n + 1000) : support V c y = slabAt V c n hn y h := by
  have e : (y (0 : Fin 2)).val / 1000 = n := by omega
  unfold support
  subst e
  rfl

/-- After n points the scratch agrees with the support table below row 1000 n. -/
def Built (c : Dev nD) (n : ℕ) (S : Vec F S10000x512 .bf16) : Prop :=
  ∀ y : S10000x512.Idx, (y (0 : Fin 2)).val < 1000 * n → S y = support V c y

theorem built_zero (c : Dev nD) (S : Vec F S10000x512 .bf16) : Built V c 0 S := fun y h => absurd h (by omega)

/-- Once ten slabs are in, the scratch is the support table. -/
theorem built_full (c : Dev nD) (n : ℕ) (hn : 10 ≤ n) (S : Vec F S10000x512 .bf16) (h : Built V c n S) : S = support V c :=
  funext fun y => h y (by have := ValueIdx.idx2_lt0 y; omega)

theorem built_support (c : Dev nD) (n : ℕ) : Built V c n (support V c) := fun _ _ => rfl

/-- A first-phase point adds its slab. -/
theorem built_step (c : Dev nD) (t : Fin cfg0.N) (ht : t.val < 10) (S : Vec F S10000x512 .bf16) (hS : Built V c t.val S) :
    Built V c (t.val + 1) (slabbed (1000 * t.val) (blk V c 0 t) (blk V c 1 t) S) := by
  intro y hy
  unfold slabbed
  by_cases h : 1000 * t.val ≤ (y (0 : Fin 2)).val ∧ (y (0 : Fin 2)).val < 1000 * t.val + 1000
  · rw [dif_pos h, support_eq_slabAt V c t.val ht y h]
    rfl
  · rw [dif_neg h]
    exact hS y (by omega)

/-! ## The invariant between points -/

/-- The scratch table as the body is passed it. -/
abbrev scM : Memref sig .tc .vmem S10000x512 .bf16 := Memref.whole cc0_scratch0

/-- The core's other scoped buffers (the second pallas_call's staging buffers), each whole at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands the body beside the windows: the scratch and the other scoped buffers at anything, and the
    generator register. -/
theorem PhiA_eq (c : Dev nD) :
    (Pipeline.ΦA spec0 c : sProp 𝕄)
      = iprop(((∃ d, owns (c : Thread nD τ) scM fullShare d) ∗ restScoped c) ∗ (∃ r, prngReg c r)) := by
  unfold Pipeline.ΦA restScoped; rw [scopedRest0_eq]; simp only [scM, owns_whole]; rfl

/-- After n points: the scratch at contents that agree with the support table below row 1000 n; the rest untouched. -/
def Inv (c : Dev nD) (n : ℕ) : sProp 𝕄 :=
  iprop(∃ S : Vec F S10000x512 .bf16, ⌜Built V c n S⌝ ∗ owns (c : Thread nD τ) scM fullShare S ∗ restScoped c ∗ (∃ r, prngReg c r))

/-! ## The proof data -/

/-- The proof data of the first pipeline on core c at entry contents V: each input's buffer at its block; the first
    output's at the hidden block over the SUPPORT TABLE, the second's at the copy of the adjacency block (both read
    only at second-phase points: in the first phase the windows are idle); the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => hidBlock (blk V c 4 t) (support V c) (blk V c 2 t) (blk V c 3 t)
    | ⟨6, _⟩ => copyBlock (blk V c 4 t)
  Φ t := Inv V c t.val
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w1 (c : Dev nD) (t : Fin cfg0.N) : (dat V c).after 1 t = blk V c 1 t := by dsimp only [dat]
theorem after_b1 (c : Dev nD) (t : Fin cfg0.N) : (dat V c).after 2 t = blk V c 2 t := by dsimp only [dat]
theorem after_w2 (c : Dev nD) (t : Fin cfg0.N) : (dat V c).after 3 t = blk V c 3 t := by dsimp only [dat]
theorem after_adj (c : Dev nD) (t : Fin cfg0.N) : (dat V c).after 4 t = blk V c 4 t := by dsimp only [dat]
theorem after_hid (c : Dev nD) (t : Fin cfg0.N) :
    (dat V c).after 5 t = hidBlock (blk V c 4 t) (support V c) (blk V c 2 t) (blk V c 3 t) := by dsimp only [dat]
theorem after_copy (c : Dev nD) (t : Fin cfg0.N) : (dat V c).after 6 t = copyBlock (blk V c 4 t) := by dsimp only [dat]

theorem before_x (c : Dev nD) (t : Fin cfg0.N) (d) : (dat V c).before 0 t d = blk V c 0 t :=
  found_x V (dat V c) (dat_A V c 0) (after_x V c) t d
theorem before_w1 (c : Dev nD) (t : Fin cfg0.N) (d) : (dat V c).before 1 t d = blk V c 1 t :=
  found_w1 V (dat V c) (dat_A V c 1) (after_w1 V c) t d
theorem before_b1 (c : Dev nD) (t : Fin cfg0.N) (d) : (dat V c).before 2 t d = blk V c 2 t :=
  found_b1 V (dat V c) (dat_A V c 2) (after_b1 V c) t d
theorem before_w2 (c : Dev nD) (t : Fin cfg0.N) (d) : (dat V c).before 3 t d = blk V c 3 t :=
  found_w2 V (dat V c) (dat_A V c 3) (after_w2 V c) t d
theorem before_adj (c : Dev nD) (t : Fin cfg0.N) (d) : (dat V c).before 4 t d = blk V c 4 t :=
  found_adj V (dat V c) (dat_A V c 4) (after_adj V c) t d

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

/-! ## The obligation at a point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns: each window's buffer at what the body leaves, an idle window's as it was found. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4000000 in
/-- The body at any point. In the first phase the triple replaces the point's slab and the invariant advances by
    one slab; the outputs go back as found. In the second the scratch is the support table, the triple fills both
    outputs, and the invariant is kept. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w1, before_b1, before_w2, before_adj]
  rw [show (dat V c).owesAt () t.succ = (dat V c).owesAt () t.castSucc from rfl,
    show (dat V c).Φ t.succ = Inv V c (t.val + 1) from rfl,
    show (dat V c).Φ t.castSucc = Inv V c t.val from rfl]
  rw [show (dat V c).leavesExact 0 t = owns (c : Thread nD τ) (st0_0 t) fullShare ((dat V c).after 0 t) from by
      unfold Dat.leavesExact; rw [live0 t], after_x]
  rw [show (dat V c).leavesExact 1 t = owns (c : Thread nD τ) (st0_1 t) fullShare ((dat V c).after 1 t) from by
      unfold Dat.leavesExact; rw [live1 t], after_w1]
  rw [show (dat V c).leavesExact 2 t = owns (c : Thread nD τ) (st0_2 t) fullShare ((dat V c).after 2 t) from by
      unfold Dat.leavesExact; rw [live2 t], after_b1]
  rw [show (dat V c).leavesExact 3 t = owns (c : Thread nD τ) (st0_3 t) fullShare ((dat V c).after 3 t) from by
      unfold Dat.leavesExact; rw [live3 t], after_w2]
  rw [show (dat V c).leavesExact 4 t = owns (c : Thread nD τ) (st0_4 t) fullShare ((dat V c).after 4 t) from by
      unfold Dat.leavesExact; rw [live4 t], after_adj]
  unfold Inv
  by_cases hA : t.val < 10
  · have hc1 : k0_cond1 (grid0.coords t) = 1#1 := (phaseA_iff t).mpr hA
    have hc2 : ¬ k0_cond2 (grid0.coords t) = 1#1 := fun h => absurd ((phaseB_iff t).mp h) (by omega)
    rw [Dat.leavesExact_idle (dat V c) 5 t (idle5_A t hA) (noFlush5_A t hA),
      Dat.leavesExact_idle (dat V c) 6 t (idle6_A t hA) (noFlush6_A t hA)]
    iintro ⟨⟨%S, %hS, HS, Hrest, Hg⟩, Ho, ⟨%d0, H0⟩, ⟨%d1, H1⟩, ⟨%d2, H2⟩, ⟨%d3, H3⟩, ⟨%d4, H4⟩, H5, H6⟩
    iapply (tripleA c Set.univ (grid0.coords t) _ _ _ _ _ _ _ _ _ _ _ _ _ _ _ _ hc1 hc2 (1000 * t.val) (slab_off t hA)
      (blk V c 0 t) (blk V c 1 t) S _)
    isplitl [H0]; · iexact H0
    isplitl [H1]; · iexact H1
    isplitl [HS]; · iexact HS
    iintro ⟨H0, H1, HS⟩
    isplitl [HS Hrest Hg]
    · iexists _; isplitr; · ipureintro; exact built_step V c t hA S hS
      isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hB : 10 ≤ t.val := by omega
    have hc1 : ¬ k0_cond1 (grid0.coords t) = 1#1 := fun h => hA ((phaseA_iff t).mp h)
    have hc2 : k0_cond2 (grid0.coords t) = 1#1 := (phaseB_iff t).mpr hB
    rw [show (dat V c).leavesExact 5 t = owns (c : Thread nD τ) (st0_5 t) fullShare ((dat V c).after 5 t) from by
      unfold Dat.leavesExact; rw [live5_B t hB], after_hid]
    rw [show (dat V c).leavesExact 6 t = owns (c : Thread nD τ) (st0_6 t) fullShare ((dat V c).after 6 t) from by
      unfold Dat.leavesExact; rw [live6_B t hB], after_copy]
    iintro ⟨⟨%S, %hS, HS, Hrest, Hg⟩, Ho, ⟨%d0, H0⟩, ⟨%d1, H1⟩, ⟨%d2, H2⟩, ⟨%d3, H3⟩, ⟨%d4, H4⟩, ⟨%d5, H5⟩, ⟨%d6, H6⟩⟩
    obtain rfl : S = support V c := built_full V c t.val hB S hS
    iapply (tripleB c Set.univ (grid0.coords t) _ _ _ _ _ _ _ _ _ _ _ _ _ _ _ _ hc1 hc2
      (blk V c 2 t) (blk V c 3 t) (blk V c 4 t) (support V c) _)
    isplitl [H2]; · iexact H2
    isplitl [H3]; · iexact H3
    isplitl [H4]; · iexact H4
    isplitl [H5]; · iexists _; iexact H5
    isplitl [H6]; · iexists _; iexact H6
    isplitl [HS]; · iexact HS
    iintro ⟨H2, H3, H4, H5, H6, HS⟩
    isplitl [HS Hrest Hg]
    · iexists _; isplitr; · ipureintro; exact built_support V c _
      isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline rule's body obligation, at every point. -/
theorem body_obligation (c : Dev nD) : BodyObligation (dat (F := F) V c) (defs₀ (F := F)) Variants.none () Set.univ := fun t => by
  rw [bigSep_W0, bigSep_W0]
  exact sound_body V c t

/-- What the region hands the body is the invariant before the first point: nothing is claimed of the scratch yet. -/
theorem hin (c : Dev nD) : Pipeline.ΦA spec0 c ⊢ (dat V c).Φ 0 := by
  rw [show (dat V c).Φ 0 = Inv V c 0 from rfl, PhiA_eq]
  unfold Inv
  iintro ⟨⟨⟨%d, HS⟩, Hrest⟩, Hg⟩
  iexists d; isplitr; · ipureintro; exact built_zero V c d
  isplitl [HS]; · iexact HS
  isplitl [Hrest]; · iexact Hrest
  iexact Hg

/-- After the last point the invariant gives the scoped buffers back, the scratch's contents forgotten. -/
theorem hout (c : Dev nD) : (dat V c).Φ (Fin.last cfg0.N) ⊢ Pipeline.ΦA spec0 c := by
  rw [show (dat V c).Φ (Fin.last cfg0.N) = Inv V c cfg0.N from rfl, PhiA_eq]
  unfold Inv
  iintro ⟨%S, -, HS, Hrest, Hg⟩
  isplitl [HS Hrest]
  · isplitl [HS]; · iexists S; iexact HS
    iexact Hrest
  iexact Hg

end Cert.KernelIdeal.FirstLayer

end
-- ==== Proof.SecondLayerBody.lean ====
/-
  The second layer's kernel, one grid point at a time.

  The second pallas_call computes, for the block of 400 rows numbered t, the product of that block of the
  adjacency copy with the whole (10000 x 128) hidden table, plus the bias row broadcast down the block. Its body
  loads its three inputs whole, reads its output buffer once (the value is never used) and stores the block's
  result whole. Stated here for any entry contents V of the core's buffers: what each input buffer holds at a
  point (the array's block there), what the output buffer holds after the body (the payload of the three input
  blocks), the body's triple, and the per-point obligation of the pipeline rule.
-/
import proofs.«100629_g28415503630501_cont_9to1_332_17_alg».proof.Proof.Gen.KernelIdeal.Launch
import proofs.«100629_g28415503630501_cont_9to1_332_17_alg».proof.Proof.Gen.KernelIdeal.Skeleton
import proofs.«100629_g28415503630501_cont_9to1_332_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SecondLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or the block
    index has not moved since the fetch. -/
theorem found_adj {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_hidden {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_bias {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rAdj : Rect S400x10000 := Rect.unit (s := S400x10000) ![0, 0] S400x10000.size inb_S400x10000_S400x10000_0_0
abbrev rHidden : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rOut : Rect S400x128 := Rect.unit (s := S400x128) ![0, 0] S400x128.size inb_S400x128_S400x128_0_0

/-- What the body leaves in the output buffer: its one store, over the whole buffer, of the payload of the three
    input blocks. -/
def outBlock (x0 : Vec F S400x10000 .bf16) (x1 : Vec F S10000x128 .bf16) (x2 : Vec F S1x128 .f32) : Vec F S400x128 .f32 :=
  View.canon [⟨rOut, k1_pay1 (View.ld x0 rAdj) (View.ld x1 rHidden) (View.ld x2 rBias)⟩]

/-- The one store covers the buffer. -/
theorem outBlock_cover (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

set_option maxHeartbeats 1000000 in
/-- The body on whole staging buffers, the inputs at contents x0, x1, x2 and the output at anything, runs to the
    continuation with the inputs as they were and the output at outBlock of them. -/
theorem triple (c : Dev nD) (E : Set ℕ) (i : grid1.Coords) (arg1 : Memref sig .tc .vmem S400x10000 .bf16) (harg1 : arg1.IsWhole)
    (arg2 : Memref sig .tc .vmem S10000x128 .bf16) (harg2 : arg2.IsWhole) (arg3 : Memref sig .tc .vmem S1x128 .f32) (harg3 : arg3.IsWhole)
    (arg4 : Memref sig .tc .vmem S400x128 .f32) (harg4 : arg4.IsWhole)
    (x0 : Vec F S400x10000 .bf16) (x1 : Vec F S10000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The proof data of the second pipeline on core c at entry contents V: each input's buffer at its block, the
    output's at outBlock of the three blocks; the invariant is the scoped rest and the generator register,
    untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlock (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_hidden (c : Dev nD) (t : Fin cfg1.N) : (dat V c).after 1 t = blk V c 1 t := by dsimp only [dat]
theorem after_bias (c : Dev nD) (t : Fin cfg1.N) : (dat V c).after 2 t = blk V c 2 t := by dsimp only [dat]
theorem after_out (c : Dev nD) (t : Fin cfg1.N) :
    (dat V c).after 3 t = outBlock (blk V c 0 t) (blk V c 1 t) (blk V c 2 t) := by dsimp only [dat]

theorem before_adj (c : Dev nD) (t : Fin cfg1.N) (d) : (dat V c).before 0 t d = blk V c 0 t :=
  found_adj V (dat V c) (dat_A V c 0) (after_adj V c) t d
theorem before_hidden (c : Dev nD) (t : Fin cfg1.N) (d) : (dat V c).before 1 t d = blk V c 1 t :=
  found_hidden V (dat V c) (dat_A V c 1) (after_hidden V c) t d
theorem before_bias (c : Dev nD) (t : Fin cfg1.N) (d) : (dat V c).before 2 t d = blk V c 2 t :=
  found_bias V (dat V c) (dat_A V c 2) (after_bias V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_hidden, before_bias]
  rw [show (dat V c).Φ t.succ = (dat V c).Φ t.castSucc from rfl,
    show (dat V c).owesAt () t.succ = (dat V c).owesAt () t.castSucc from rfl,
    after_adj, after_hidden, after_bias, after_out]
  iintro ⟨HΦ, Ho, ⟨%d0, H0⟩, ⟨%d1, H1⟩, ⟨%d2, H2⟩, ⟨%d3, H3⟩⟩
  iapply (triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation (c : Dev nD) : BodyObligation (dat (F := F) V c) (defs₀ (F := F)) Variants.none () Set.univ := fun t => by
  rw [bigSep_W1, bigSep_W1]
  exact sound_body V c t

end Cert.KernelIdeal.SecondLayer

end
-- ==== Proof.TwoLayerRun.lean ====
/-
  The whole program: host operations, the first layer's region, the second layer's region, the closing slice.

  The core's unscoped buffers are followed through the four segments: W0 at launch; W1 after the host operations that
  pad the tables; W2 after the first region, whose two output arrays hold what its write-backs leave; W3 after the
  second region likewise; W4 after the slice to seven columns. Each region is entered from the contents the segment
  before it left and is discharged by its body obligation. The run ends with every unscoped buffer at W4, from which
  both the frame (no segment writes an argument) and the value of the result are read.
-/
import proofs.«100629_g28415503630501_cont_9to1_332_17_alg».proof.Proof.FirstLayerBody
import proofs.«100629_g28415503630501_cont_9to1_332_17_alg».proof.Proof.SecondLayerBody

set_option maxRecDepth 16384

noncomputable section

namespace Cert.KernelIdeal.TwoLayers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the padding operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (FirstLayer.dat (V1 m ρ) c).arrAt w cfg0.N
theorem W2_arr (c : Dev nD) (w : Fin cfg0.W) :
    W2 m ρ c (Proc.devRef .tc (Pipeline.arrRef spec0 w)) = (FirstLayer.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (FirstLayer.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (SecondLayer.dat (V2 m ρ) c).arrAt w cfg1.N
theorem W3_arr (c : Dev nD) (w : Fin cfg1.W) :
    W3 m ρ c (Proc.devRef .tc (Pipeline.arrRef spec1 w)) = (SecondLayer.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (SecondLayer.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing slice: what the program returns with. -/
abbrev W4 : Dev nD → Valuation τ sig (Elt F) := fun c => StableHlo.after hostOps2 (W3 m ρ c)

/-! ## The proof data family and the thread state -/

/-- No pipeline has a prefetched table. -/
abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => FirstLayer.dat (V1 m ρ) c
  | ⟨1, _⟩ => fun c => SecondLayer.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W4, the generator register at some state. -/
abbrev Tₙ (c : Dev nD) : sProp 𝕄 := iprop(StableHlo.held (c : Thread nD τ) (Pipeline.ucRefs τ sig) (W4 m ρ c) ∗ ∃ r, prngReg c r)

/-! ## The regions as segments -/

-- the library lemmas are stated over the pinned configuration: unification may unfold plain definitions in a
-- metavariable's type to meet it
set_option backward.isDefEq.respectTransparency.types false in
/-- Region 0 over the thread state: entered with every unscoped buffer at W1, left with them at W2. Its arrays
    are split out of the unscoped buffers and put back at the contents the write-backs leave; the generator register
    goes into the body's invariant and comes back; nothing is owed; the kernel has no semaphore of its own. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (FirstLayer.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := FirstLayer.hin (V1 m ρ) c
    unfold Pipeline.ΦA at h
    rw [show (pdats m ρ 0 c).Φ 0 = (FirstLayer.dat (V1 m ρ) c).Φ 0 from rfl]
    iintro ⟨Hp, -, Hr⟩
    iapply h
    isplitl [Hr]; · iexact Hr
    iexact Hp
  hout c := by
    have h := FirstLayer.hout (V1 m ρ) c
    unfold Pipeline.ΦA at h
    rw [Pipeline.ownSems0_none, show (pdats m ρ 0 c).Φ (Fin.last _) = (FirstLayer.dat (V1 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas are stated over the pinned configuration: unification may unfold plain definitions in a
-- metavariable's type to meet it
set_option backward.isDefEq.respectTransparency.types false in
/-- Region 1 over the thread state: entered with every unscoped buffer at W2, left with them at W3. Its arrays
    are split out of the unscoped buffers and put back at the contents the write-backs leave; the generator register
    goes into the body's invariant and comes back; nothing is owed; the kernel has no semaphore of its own. -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (SecondLayer.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) tables (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final memory holds each unscoped buffer at W4. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) tables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.TwoLayers

end
-- ==== Proof.Frames.lean ====
/-
  What the run says of the arguments and of the result.

  No segment writes an argument: the host operations write only their own result buffers, and a region changes only
  its output windows' arrays (x and the adjacency matrix are INPUT windows of the first region, whose arrays the
  pipeline leaves as it found them). So each argument's buffer walks back through the four boundaries to its launch
  contents, and the run's post gives the frame. The result buffer ends at W4's value, named here for the value claim.
-/
import proofs.«100629_g28415503630501_cont_9to1_332_17_alg».proof.Proof.TwoLayerRun
import proofs.«100629_g28415503630501_cont_9to1_332_17_alg».proof.Proof.Gen.KernelIdeal.Regions

set_option maxRecDepth 16384

noncomputable section

namespace Cert.KernelIdeal.TwoLayers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem kept_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((FirstLayer.dat (V1 m ρ) c).arrAt_in 0 rfl _).trans (FirstLayer.dat_A (V1 m ρ) c 0))
    _ = W0 m ρ c (Proc.devRef .tc main_arg0) := StableHlo.after_of_writes_sub hostOps0 _ hostOps0_writes (by decide)
    _ = m ((c : Thread nD τ).loc main_arg0) := rfl
theorem kept_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 4).trans (((FirstLayer.dat (V1 m ρ) c).arrAt_in 4 rfl _).trans (FirstLayer.dat_A (V1 m ρ) c 4))
    _ = W0 m ρ c (Proc.devRef .tc main_arg1) := StableHlo.after_of_writes_sub hostOps0 _ hostOps0_writes (by decide)
    _ = m ((c : Thread nD τ).loc main_arg1) := rfl
theorem kept_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem kept_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem kept_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem kept_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- THE FRAME, at any float instance: the program runs to the end, faults nowhere, and leaves its six arguments as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c)⟩) (run m ρ)

/-- The same run with the result named: the result buffer ends at W4's contents there. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v0 (by decide)),
     (h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c)⟩) (run m ρ)

end Cert.KernelIdeal.TwoLayers

end
-- ==== Proof.FirstLayerArrays.lean ====
/-
  The first layer's two output arrays after the run.

  The first pallas_call walks 60 grid points. Points 0..9 build the support table and leave both outputs alone; point
  t of 10..59 takes rows [200 (t - 10), 200 (t - 10) + 200) of the adjacency matrix, stores their copy to the same
  rows of the second output and the hidden block made from them, the support table, the bias row and the second
  weight table to the same rows of the first output, and writes both blocks back. The 50 row blocks tile each
  output, so each ends as ONE function of the input arrays as the region finds them and of the support table: row r,
  column q is entry (r mod 200, q) of the payload of row block r / 200.
-/
import proofs.«100629_g28415503630501_cont_9to1_332_17_alg».proof.Proof.FirstLayerBody
import Idealize.ShloMosaic.Lib.Pipeline.Value
import Idealize.ShloMosaic.Lib.ValueIdx

set_option maxRecDepth 16384

noncomputable section

namespace Cert.KernelIdeal.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The padded bias row, the padded second weight table and the adjacency matrix as the region finds them, at their
    literal types. -/
abbrev b1Arr (c : Dev nD) : Vec F S1x512 .f32 := V c main_call0_v8
abbrev w2Arr (c : Dev nD) : Vec F S512x128 .bf16 := V c main_call0_v14
abbrev adjArr (c : Dev nD) : Vec F S10000x10000 .f32 := V c main_arg1

/-- Rows [200 n, 200 n + 200) of the adjacency matrix. -/
def adjRows (c : Dev nD) (n : Fin 50) : Vec F S200x10000 .f32 := fun y =>
  adjArr V c (ValueIdx.ix2 (⟨200 * n.val + (y 0).val, by have := ValueIdx.idx2_lt0 (n0 := 200) (n1 := 10000) y; have := n.isLt; omega⟩ : Fin 10000) (⟨(y 1).val, (y 1).isLt⟩ : Fin 10000))

/-- The hidden table after the run: row r, column q is the (r mod 200, q) entry of the hidden payload of row block r / 200. -/
def hidArr (c : Dev nD) : Vec F S10000x128 .bf16 := fun y =>
  k0_pay3 (adjRows V c ⟨(y 0).val / 200, by have := ValueIdx.idx2_lt0 (n0 := 10000) (n1 := 128) y; omega⟩) (support V c) (b1Arr V c) (w2Arr V c)
    (ValueIdx.ix2 (⟨(y 0).val % 200, Nat.mod_lt _ (by norm_num)⟩ : Fin 200) (⟨(y 1).val, (y 1).isLt⟩ : Fin 128))

/-- The adjacency copy after the run: row r, column q is the (r mod 200, q) entry of the copy of row block r / 200. -/
def copyArr (c : Dev nD) : Vec F S10000x10000 .bf16 := fun y =>
  k0_pay2 (adjRows V c ⟨(y 0).val / 200, by have := ValueIdx.idx2_lt0 (n0 := 10000) (n1 := 10000) y; omega⟩)
    (ValueIdx.ix2 (⟨(y 0).val % 200, Nat.mod_lt _ (by norm_num)⟩ : Fin 200) (⟨(y 1).val, (y 1).isLt⟩ : Fin 10000))

/-- The printed index maps, decided once over the 60 grid points: from point 10 on the adjacency window and both
    outputs sit at row block t - 10; the bias row and the second weight table stay at their one block. -/
theorem arr_idx : ∀ t : Fin cfg0.N, 10 ≤ t.val →
    (win0_4.index t (0 : Fin 2) = t.val - 10 ∧ win0_4.index t (1 : Fin 2) = 0)
    ∧ (win0_5.index t (0 : Fin 2) = t.val - 10 ∧ win0_5.index t (1 : Fin 2) = 0)
    ∧ (win0_6.index t (0 : Fin 2) = t.val - 10 ∧ win0_6.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, 10 ≤ t.val → _)

/-- Only points from 10 on write the outputs back. -/
theorem flush5_ge : ∀ t : Fin cfg0.N, (cfg0.win 5).flush t = true → 10 ≤ t.val :=
  (by decide +kernel : ∀ t : Fin grid0.N, win0_5.flush t = true → 10 ≤ t.val)
theorem flush6_ge : ∀ t : Fin cfg0.N, (cfg0.win 6).flush t = true → 10 ≤ t.val :=
  (by decide +kernel : ∀ t : Fin grid0.N, win0_6.flush t = true → 10 ≤ t.val)

theorem arr_hz : (![0, 0] : Fin 2 → Nat) = fun _ => 0 := funext fun a => by fin_cases a <;> rfl

/-- A second-phase grid point as a row-block number. -/
abbrev rowBlock (t : Fin cfg0.N) (ht : 10 ≤ t.val) : Fin 50 :=
  ⟨t.val - 10, by have := lt_of_lt_of_eq t.isLt N_0; omega⟩

/-- From point 10 on the adjacency window's block is rows [200 (t - 10), 200 (t - 10) + 200) of the matrix. -/
theorem blk_adj (c : Dev nD) (t : Fin cfg0.N) (ht : 10 ≤ t.val) :
    (blk V c 4 t : Vec F S200x10000 .f32) = adjRows V c (rowBlock t ht) := by
  obtain ⟨⟨e0, e1⟩, -, -, -, -⟩ := arr_idx t ht
  funext x
  unfold blk adjRows
  rw [View.read_apply]
  show V c main_arg1 _ = V c main_arg1 _
  congr 1
  funext a
  apply Fin.ext
  match a with
  | ⟨0, _⟩ => show win0_4.index t (0 : Fin 2) * 200 + 1 * (x 0).val = 200 * (t.val - 10) + (x 0).val; rw [e0]; omega
  | ⟨1, _⟩ => show win0_4.index t (1 : Fin 2) * 10000 + 1 * (x 1).val = (x 1).val; rw [e1]; omega

/-- The bias row's one block is the whole row. -/
theorem blk_b1 (c : Dev nD) (t : Fin cfg0.N) (ht : 10 ≤ t.val) : (blk V c 2 t : Vec F S1x512 .f32) = b1Arr V c := by
  obtain ⟨-, -, -, ⟨e0, e1⟩, -⟩ := arr_idx t ht
  funext x
  unfold blk
  rw [View.read_apply]
  show V c main_call0_v8 _ = V c main_call0_v8 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 512 + 1 * (x 1).val = (x 1).val; rw [e1]; omega

/-- The second weight table's one block is the whole table. -/
theorem blk_w2 (c : Dev nD) (t : Fin cfg0.N) (ht : 10 ≤ t.val) : (blk V c 3 t : Vec F S512x128 .bf16) = w2Arr V c := by
  obtain ⟨-, -, -, -, ⟨e0, e1⟩⟩ := arr_idx t ht
  funext x
  unfold blk
  rw [View.read_apply]
  show V c main_call0_v14 _ = V c main_call0_v14 x
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 128 + 1 * (x 1).val = (x 1).val; rw [e1]; omega

/-- The hidden table at row 200 n + p, column q: entry (p, q) of the hidden payload of row block n. -/
theorem hidArr_at (c : Dev nD) (n : Fin 50) (y : S10000x128.Idx) (x : S200x128.Idx)
    (h0 : (y 0).val = 200 * n.val + (x 0).val) (h1 : (y 1).val = (x 1).val) :
    hidArr V c y = k0_pay3 (adjRows V c n) (support V c) (b1Arr V c) (w2Arr V c) x := by
  have hx : (x 0).val < 200 := ValueIdx.idx2_lt0 (n0 := 200) (n1 := 128) x
  have e1 : (⟨(y 0).val / 200, by have := ValueIdx.idx2_lt0 (n0 := 10000) (n1 := 128) y; omega⟩ : Fin 50) = n :=
    Fin.ext (by show (y 0).val / 200 = n.val; omega)
  have e2 : ValueIdx.ix2 (⟨(y 0).val % 200, Nat.mod_lt _ (by norm_num)⟩ : Fin 200) (⟨(y 1).val, (y 1).isLt⟩ : Fin 128) = x :=
    funext fun a => by
      match a with
      | ⟨0, _⟩ => exact Fin.ext (by show (y 0).val % 200 = (x 0).val; omega)
      | ⟨1, _⟩ => exact Fin.ext h1
  unfold hidArr
  rw [e1, e2]

/-- The adjacency copy at row 200 n + p, column q: entry (p, q) of the copy of row block n. -/
theorem copyArr_at (c : Dev nD) (n : Fin 50) (y : S10000x10000.Idx) (x : S200x10000.Idx)
    (h0 : (y 0).val = 200 * n.val + (x 0).val) (h1 : (y 1).val = (x 1).val) :
    copyArr V c y = k0_pay2 (adjRows V c n) x := by
  have hx : (x 0).val < 200 := ValueIdx.idx2_lt0 (n0 := 200) (n1 := 10000) x
  have e1 : (⟨(y 0).val / 200, by have := ValueIdx.idx2_lt0 (n0 := 10000) (n1 := 10000) y; omega⟩ : Fin 50) = n :=
    Fin.ext (by show (y 0).val / 200 = n.val; omega)
  have e2 : ValueIdx.ix2 (⟨(y 0).val % 200, Nat.mod_lt _ (by norm_num)⟩ : Fin 200) (⟨(y 1).val, (y 1).isLt⟩ : Fin 10000) = x :=
    funext fun a => by
      match a with
      | ⟨0, _⟩ => exact Fin.ext (by show (y 0).val % 200 = (x 0).val; omega)
      | ⟨1, _⟩ => exact Fin.ext h1
  unfold copyArr
  rw [e1, e2]

/-- What a writing point t writes back to the hidden table is block t of its closed form. -/
theorem hidArr_flushed (c : Dev nD) (t : Fin cfg0.N) (hf : (cfg0.win 5).flush t = true) :
    (dat V c).flushed 5 t = ((cfg0.win 5).blk t).view.read (Elt F) (hidArr V c) := by
  have ht : 10 ≤ t.val := flush5_ge t hf
  show (cfg0.win 5).cut (grid0.coords t) ((dat V c).after 5 t) = _
  rw [after_hid]
  unfold hidBlock
  rw [View.canon_unit_zero arr_hz]
  simp only [View.ld_unit_zero (S := S200x10000) arr_hz, View.ld_unit_zero (S := S10000x512) arr_hz, View.ld_unit_zero (S := S1x512) arr_hz, View.ld_unit_zero (S := S512x128) arr_hz]
  rw [blk_adj V c t ht, blk_b1 V c t ht, blk_w2 V c t ht]
  obtain ⟨-, ⟨e0, e1⟩, -, -, -⟩ := arr_idx t ht
  funext j
  have h0 : ((((cfg0.win 5).blk t).view.emb j) 0).val = 200 * (rowBlock t ht).val + (((win0 5).xinj (grid0.coords t) j) 0).val := by
    show win0_5.index t (0 : Fin 2) * 200 + 1 * (j 0).val = 200 * (t.val - 10) + (j 0).val
    rw [e0]; omega
  have h1 : ((((cfg0.win 5).blk t).view.emb j) 1).val = (((win0 5).xinj (grid0.coords t) j) 1).val := by
    show win0_5.index t (1 : Fin 2) * 128 + 1 * (j 1).val = (j 1).val
    rw [e1]; omega
  exact (hidArr_at V c (rowBlock t ht) (((cfg0.win 5).blk t).view.emb j) ((win0 5).xinj (grid0.coords t) j) h0 h1).symm

/-- What a writing point t writes back to the adjacency copy is block t of its closed form. -/
theorem copyArr_flushed (c : Dev nD) (t : Fin cfg0.N) (hf : (cfg0.win 6).flush t = true) :
    (dat V c).flushed 6 t = ((cfg0.win 6).blk t).view.read (Elt F) (copyArr V c) := by
  have ht : 10 ≤ t.val := flush6_ge t hf
  show (cfg0.win 6).cut (grid0.coords t) ((dat V c).after 6 t) = _
  rw [after_copy]
  unfold copyBlock
  rw [View.canon_unit_zero arr_hz]
  simp only [View.ld_unit_zero (S := S200x10000) arr_hz]
  rw [blk_adj V c t ht]
  obtain ⟨-, -, ⟨e0, e1⟩, -, -⟩ := arr_idx t ht
  funext j
  have h0 : ((((cfg0.win 6).blk t).view.emb j) 0).val = 200 * (rowBlock t ht).val + (((win0 6).xinj (grid0.coords t) j) 0).val := by
    show win0_6.index t (0 : Fin 2) * 200 + 1 * (j 0).val = 200 * (t.val - 10) + (j 0).val
    rw [e0]; omega
  have h1 : ((((cfg0.win 6).blk t).view.emb j) 1).val = (((win0 6).xinj (grid0.coords t) j) 1).val := by
    show win0_6.index t (1 : Fin 2) * 10000 + 1 * (j 1).val = (j 1).val
    rw [e1]; omega
  exact (copyArr_at V c (rowBlock t ht) (((cfg0.win 6).blk t).view.emb j) ((win0 6).xinj (grid0.coords t) j) h0 h1).symm

/-- An index of the hidden table is in point t's block iff each coordinate is in the block's range on its axis. -/
theorem hid_mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_call0_v20_0).slice (win0_5.rect t)).set ↔ _
  rw [View.set_slice_whole, Rect.mem_set_unit]
  exact Iff.rfl

/-- The same for the adjacency copy. -/
theorem copy_mem_blk (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_call0_v20_1).slice (win0_6.rect t)).set ↔ _
  rw [View.set_slice_whole, Rect.mem_set_unit]
  exact Iff.rfl

/-- The 50 row blocks tile the hidden table: row r lies in the block of point r / 200 + 10, which writes back. -/
theorem hidArr_cover (i : S10000x128.Idx) :
    ∃ t : Fin cfg0.N, (cfg0.win 5).flush t = true ∧ i ∈ ((cfg0.win 5).blk t).view.set := by
  have hi0 : (i 0).val < 10000 := ValueIdx.idx2_lt0 (n0 := 10000) (n1 := 128) i
  have hi1 : (i 1).val < 128 := ValueIdx.idx2_lt1 (n0 := 10000) (n1 := 128) i
  obtain ⟨t, ht⟩ : ∃ t : Fin cfg0.N, t.val = (i 0).val / 200 + 10 := ⟨Fin.cast N_0.symm ⟨(i 0).val / 200 + 10, by omega⟩, rfl⟩
  have hge : 10 ≤ t.val := by omega
  obtain ⟨-, ⟨e0, e1⟩, -, -, -⟩ := arr_idx t hge
  refine ⟨t, flush5_B t hge, ?_⟩
  rw [hid_mem_blk]
  intro a
  match a with
  | ⟨0, _⟩ =>
    show win0_5.index t (0 : Fin 2) * 200 ≤ (i 0).val ∧ (i 0).val < win0_5.index t (0 : Fin 2) * 200 + 200
    rw [e0, ht]; omega
  | ⟨1, _⟩ =>
    show win0_5.index t (1 : Fin 2) * 128 ≤ (i 1).val ∧ (i 1).val < win0_5.index t (1 : Fin 2) * 128 + 128
    rw [e1]; omega

/-- The 50 row blocks tile the adjacency copy in the same way. -/
theorem copyArr_cover (i : S10000x10000.Idx) :
    ∃ t : Fin cfg0.N, (cfg0.win 6).flush t = true ∧ i ∈ ((cfg0.win 6).blk t).view.set := by
  have hi0 : (i 0).val < 10000 := ValueIdx.idx2_lt0 (n0 := 10000) (n1 := 10000) i
  have hi1 : (i 1).val < 10000 := ValueIdx.idx2_lt1 (n0 := 10000) (n1 := 10000) i
  obtain ⟨t, ht⟩ : ∃ t : Fin cfg0.N, t.val = (i 0).val / 200 + 10 := ⟨Fin.cast N_0.symm ⟨(i 0).val / 200 + 10, by omega⟩, rfl⟩
  have hge : 10 ≤ t.val := by omega
  obtain ⟨-, -, ⟨e0, e1⟩, -, -⟩ := arr_idx t hge
  refine ⟨t, flush6_B t hge, ?_⟩
  rw [copy_mem_blk]
  intro a
  match a with
  | ⟨0, _⟩ =>
    show win0_6.index t (0 : Fin 2) * 200 ≤ (i 0).val ∧ (i 0).val < win0_6.index t (0 : Fin 2) * 200 + 200
    rw [e0, ht]; omega
  | ⟨1, _⟩ =>
    show win0_6.index t (1 : Fin 2) * 10000 ≤ (i 1).val ∧ (i 1).val < win0_6.index t (1 : Fin 2) * 10000 + 10000
    rw [e1]; omega

/-- The hidden table after the run is its closed form: every writing point writes block t of it, and the blocks cover. -/
theorem arrAt_hid (c : Dev nD) : (dat V c).arrAt 5 cfg0.N = hidArr V c :=
  (dat V c).arrAt_eq_of_cover 5 (hidArr V c) (fun t hf => hidArr_flushed V c t hf) hidArr_cover

/-- The adjacency copy after the run is its closed form. -/
theorem arrAt_copy (c : Dev nD) : (dat V c).arrAt 6 cfg0.N = copyArr V c :=
  (dat V c).arrAt_eq_of_cover 6 (copyArr V c) (fun t hf => copyArr_flushed V c t hf) copyArr_cover

end Cert.KernelIdeal.FirstLayer

end
-- ==== Proof.SupportTable.lean ====
/-
  The first layer's support table in closed form.

  The support table is defined slab by slab through the first pallas_call's window blocks: row r lies in slab
  r / 1000, whose entries are the product of x's window block at grid point r / 1000 with the weight table's window
  block there, read at the row's position inside the slab. Here the blocks are read off the arrays: at a point
  t < 10 the x window's block index is (t, 0), so its block is rows [1000 t, 1000 t + 1000) of x; the weight table's
  window has the one block (0, 0), the whole padded table. So row r, column q of the support table is entry
  (r mod 1000, q) of the product of rows [1000 (r / 1000), 1000 (r / 1000) + 1000) of x with the padded weight table.
-/
import proofs.«100629_g28415503630501_cont_9to1_332_17_alg».proof.Proof.FirstLayerBody
import Idealize.ShloMosaic.Lib.Pipeline.Value
import Idealize.ShloMosaic.Lib.ValueIdx

set_option maxRecDepth 16384

noncomputable section

namespace Cert.KernelIdeal.FirstLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The two input arrays of the first phase as the region finds them, at their literal types. -/
abbrev xArr (c : Dev nD) : Vec F S10000x1433 .f32 := V c main_arg0
abbrev w1Arr (c : Dev nD) : Vec F S1433x512 .bf16 := V c main_call0_v3

/-- rows [1000 n, 1000 n + 1000) of x -/
def xRows (c : Dev nD) (n : Fin 10) : Vec F S1000x1433 .f32 := fun y =>
  xArr V c (ValueIdx.ix2 (⟨1000 * n.val + (y 0).val, by have := ValueIdx.idx2_lt0 (n0 := 1000) (n1 := 1433) y; have := n.isLt; omega⟩ : Fin 10000) (⟨(y 1).val, (y 1).isLt⟩ : Fin 1433))

/-- the support table in closed form: row r is row r mod 1000 of the product of x's rows block r / 1000 with the padded weight table -/
def supportArr (c : Dev nD) : Vec F S10000x512 .bf16 := fun y =>
  k0_pay1 (xRows V c ⟨(y 0).val / 1000, by have := ValueIdx.idx2_lt0 (n0 := 10000) (n1 := 512) y; omega⟩) (w1Arr V c)
    (ValueIdx.ix2 (⟨(y 0).val % 1000, Nat.mod_lt _ (by norm_num)⟩ : Fin 1000) (⟨(y 1).val, (y 1).isLt⟩ : Fin 512))

/-- The printed index maps of the two windows the first phase reads, decided once over the grid: through the first ten
    points x's window moves one row block per point; the weight table's stays at its one block throughout. -/
theorem support_idx : ∀ t : Fin cfg0.N, (t.val < 10 → win0_0.index t (0 : Fin 2) = t.val ∧ win0_0.index t (1 : Fin 2) = 0)
    ∧ (win0_1.index t (0 : Fin 2) = 0 ∧ win0_1.index t (1 : Fin 2) = 0) :=
  (by decide +kernel : ∀ t : Fin grid0.N, _)

theorem support_hz : (![0, 0] : Fin 2 → Nat) = fun _ => 0 := funext fun a => by fin_cases a <;> rfl

/-- At a first-phase point t, x's window block is rows [1000 t, 1000 t + 1000) of x. -/
theorem blk_x (c : Dev nD) (t : Fin cfg0.N) (ht : t.val < 10) : (blk V c 0 t : Vec F S1000x1433 .f32) = xRows V c ⟨t.val, ht⟩ := by
  obtain ⟨e0, e1⟩ := (support_idx t).1 ht
  funext x
  unfold blk xRows
  rw [View.read_apply]
  show V c main_arg0 _ = V c main_arg0 _
  congr 1
  funext a
  apply Fin.ext
  match a with
  | ⟨0, _⟩ => show win0_0.index t (0 : Fin 2) * 1000 + 1 * (x 0).val = 1000 * t.val + (x 0).val; rw [e0]; omega
  | ⟨1, _⟩ => show win0_0.index t (1 : Fin 2) * 1433 + 1 * (x 1).val = (x 1).val; rw [e1]; omega

/-- The weight table's one block is the whole padded table. -/
theorem blk_w1 (c : Dev nD) (t : Fin cfg0.N) : (blk V c 1 t : Vec F S1433x512 .bf16) = w1Arr V c := by
  obtain ⟨e0, e1⟩ := (support_idx t).2
  funext x
  unfold blk
  rw [View.read_apply]
  show V c main_call0_v3 _ = V c main_call0_v3 x
  congr 1
  funext a
  apply Fin.ext
  match a with
  | ⟨0, _⟩ => show win0_1.index t (0 : Fin 2) * 1433 + 1 * (x 0).val = (x 0).val; rw [e0]; omega
  | ⟨1, _⟩ => show win0_1.index t (1 : Fin 2) * 512 + 1 * (x 1).val = (x 1).val; rw [e1]; omega

/-- A row's position inside its slab: row r of the table is row r mod 1000 of slab r / 1000, the column unchanged. -/
theorem slab_local (y : S10000x512.Idx)
    (h : ∀ a : Fin 2, (![1000 * ((y (0 : Fin 2)).val / 1000), 0] : Fin 2 → ℕ) a ≤ (y a).val
      ∧ (y a).val < (![1000 * ((y (0 : Fin 2)).val / 1000), 0] : Fin 2 → ℕ) a + S1000x512.size a) :
    (Rect.unitLocal (s := S10000x512) (off := ![1000 * ((y (0 : Fin 2)).val / 1000), 0]) (size := S1000x512.size) y h : S1000x512.Idx)
      = ValueIdx.ix2 (⟨(y 0).val % 1000, Nat.mod_lt _ (by norm_num)⟩ : Fin 1000) (⟨(y 1).val, (y 1).isLt⟩ : Fin 512) := by
  funext a
  apply Fin.ext
  match a with
  | ⟨0, _⟩ => show (y 0).val - 1000 * ((y 0).val / 1000) = (y 0).val % 1000; omega
  | ⟨1, _⟩ => show (y 1).val - 0 = (y 1).val; omega

/-- The support table is its closed form. -/
theorem support_eq (c : Dev nD) : support V c = supportArr V c := by
  funext y
  have hy0 : (y 0).val < 10000 := ValueIdx.idx2_lt0 (n0 := 10000) (n1 := 512) y
  have hn : (y 0).val / 1000 < 10 := by omega
  unfold support slabAt supportArr
  rw [View.ld_unit_zero (S := S1000x1433) support_hz, View.ld_unit_zero (S := S1433x512) support_hz]
  rw [blk_x V c _ hn, blk_w1, slab_local]

end Cert.KernelIdeal.FirstLayer

end
-- ==== Proof.SecondLayerArray.lean ====
/-
  The second layer's output array after the run.

  The second pallas_call walks 25 grid points; at point t its output window's block is rows [400 t, 400 t + 400) of the
  (10000 x 128) output array, and the body leaves there the product of the same rows of the adjacency copy with the
  whole hidden table, plus the bias row. Every point writes its block back and the 25 blocks tile the array, so the
  array ends as ONE function of the three input arrays as the region finds them: row r, column q is entry
  (r mod 400, q) of the payload of row block r / 400.
-/
import proofs.«100629_g28415503630501_cont_9to1_332_17_alg».proof.Proof.SecondLayerBody
import Idealize.ShloMosaic.Lib.Pipeline.Value
import Idealize.ShloMosaic.Lib.ValueIdx

set_option maxRecDepth 16384

noncomputable section

namespace Cert.KernelIdeal.SecondLayer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The three input arrays as the region finds them, at their literal types. -/
abbrev adjArr (c : Dev nD) : Vec F S10000x10000 .bf16 := V c main_call0_v20_1
abbrev hidArr (c : Dev nD) : Vec F S10000x128 .bf16 := V c main_call0_v20_0
abbrev biasArr (c : Dev nD) : Vec F S1x128 .f32 := V c main_call0_v19

/-- Rows [400 t, 400 t + 400) of the adjacency copy. -/
def adjRows (c : Dev nD) (n : Fin 25) : Vec F S400x10000 .bf16 := fun y =>
  adjArr V c (ValueIdx.ix2 (⟨400 * n.val + (y 0).val, by have := ValueIdx.idx2_lt0 (n0 := 400) (n1 := 10000) y; have := n.isLt; omega⟩ : Fin 10000) (⟨(y 1).val, (y 1).isLt⟩ : Fin 10000))

/-- The output array after the run: row r, column q is the (r mod 400, q) entry of the payload of the row block r / 400. -/
def outArr (c : Dev nD) : Vec F S10000x128 .f32 := fun y =>
  k1_pay1 (adjRows V c ⟨(y 0).val / 400, by have := ValueIdx.idx2_lt0 (n0 := 10000) (n1 := 128) y; omega⟩) (hidArr V c) (biasArr V c)
    (ValueIdx.ix2 (⟨(y 0).val % 400, Nat.mod_lt _ (by norm_num)⟩ : Fin 400) (⟨(y 1).val, (y 1).isLt⟩ : Fin 128))

/-- The printed index maps, decided once over the 25 grid points: the output and the adjacency copy move one row block
    per point, the hidden table and the bias row stay at their one block. -/
theorem outArr_idx : ∀ t : Fin cfg1.N, (win1_3.index t (0 : Fin 2) = t.val ∧ win1_3.index t (1 : Fin 2) = 0)
    ∧ (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0) :=
  (by decide +kernel : ∀ t : Fin grid1.N, _)

theorem outArr_hz : (![0, 0] : Fin 2 → Nat) = fun _ => 0 := funext fun a => by fin_cases a <;> rfl

/-- A grid point as a row-block number. -/
abbrev rowBlock (t : Fin cfg1.N) : Fin 25 := Fin.cast N_1 t

/-- The adjacency window's block at point t is rows [400 t, 400 t + 400) of the adjacency copy. -/
theorem blk_adj (c : Dev nD) (t : Fin cfg1.N) : (blk V c 0 t : Vec F S400x10000 .bf16) = adjRows V c (rowBlock t) := by
  obtain ⟨-, ⟨e0, e1⟩, -, -⟩ := outArr_idx t
  funext x
  unfold blk adjRows
  rw [View.read_apply]
  show V c main_call0_v20_1 _ = V c main_call0_v20_1 _
  congr 1
  funext a
  apply Fin.ext
  match a with
  | ⟨0, _⟩ => show win1_0.index t (0 : Fin 2) * 400 + 1 * (x 0).val = 400 * t.val + (x 0).val; rw [e0]; omega
  | ⟨1, _⟩ => show win1_0.index t (1 : Fin 2) * 10000 + 1 * (x 1).val = (x 1).val; rw [e1]; omega

/-- The hidden table's one block is the whole table. -/
theorem blk_hid (c : Dev nD) (t : Fin cfg1.N) : (blk V c 1 t : Vec F S10000x128 .bf16) = hidArr V c := by
  obtain ⟨-, -, ⟨e0, e1⟩, -⟩ := outArr_idx t
  funext x
  unfold blk
  rw [View.read_apply]
  show V c main_call0_v20_0 _ = V c main_call0_v20_0 x
  congr 1
  funext a
  apply Fin.ext
  match a with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

/-- The bias row's one block is the whole row. -/
theorem blk_bias (c : Dev nD) (t : Fin cfg1.N) : (blk V c 2 t : Vec F S1x128 .f32) = biasArr V c := by
  obtain ⟨-, -, -, ⟨e0, e1⟩⟩ := outArr_idx t
  funext x
  unfold blk
  rw [View.read_apply]
  show V c main_call0_v19 _ = V c main_call0_v19 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The output array at row 400 n + p, column q: entry (p, q) of the payload of row block n. -/
theorem outArr_at (c : Dev nD) (n : Fin 25) (y : S10000x128.Idx) (x : S400x128.Idx)
    (h0 : (y 0).val = 400 * n.val + (x 0).val) (h1 : (y 1).val = (x 1).val) :
    outArr V c y = k1_pay1 (adjRows V c n) (hidArr V c) (biasArr V c) x := by
  have hx : (x 0).val < 400 := ValueIdx.idx2_lt0 (n0 := 400) (n1 := 128) x
  have e1 : (⟨(y 0).val / 400, by have := ValueIdx.idx2_lt0 (n0 := 10000) (n1 := 128) y; omega⟩ : Fin 25) = n :=
    Fin.ext (by show (y 0).val / 400 = n.val; omega)
  have e2 : ValueIdx.ix2 (⟨(y 0).val % 400, Nat.mod_lt _ (by norm_num)⟩ : Fin 400) (⟨(y 1).val, (y 1).isLt⟩ : Fin 128) = x :=
    funext fun a => by
      match a with
      | ⟨0, _⟩ => exact Fin.ext (by show (y 0).val % 400 = (x 0).val; omega)
      | ⟨1, _⟩ => exact Fin.ext h1
  unfold outArr
  rw [e1, e2]

/-- What point t writes back is block t of the output array's closed form. -/
theorem outArr_flushed (c : Dev nD) (t : Fin cfg1.N) :
    (dat V c).flushed 3 t = ((cfg1.win 3).blk t).view.read (Elt F) (outArr V c) := by
  show (cfg1.win 3).cut (grid1.coords t) ((dat V c).after 3 t) = _
  rw [after_out]
  unfold outBlock
  rw [View.canon_unit_zero outArr_hz]
  simp only [View.ld_unit_zero (S := S400x10000) outArr_hz, View.ld_unit_zero (S := S10000x128) outArr_hz, View.ld_unit_zero (S := S1x128) outArr_hz]
  rw [blk_adj, blk_hid, blk_bias]
  obtain ⟨⟨e0, e1⟩, -, -, -⟩ := outArr_idx t
  funext j
  have h0 : ((((cfg1.win 3).blk t).view.emb j) 0).val = 400 * (rowBlock t).val + (((win1 3).xinj (grid1.coords t) j) 0).val := by
    show win1_3.index t (0 : Fin 2) * 400 + 1 * (j 0).val = 400 * t.val + (j 0).val
    rw [e0]; omega
  have h1 : ((((cfg1.win 3).blk t).view.emb j) 1).val = (((win1 3).xinj (grid1.coords t) j) 1).val := by
    show win1_3.index t (1 : Fin 2) * 128 + 1 * (j 1).val = (j 1).val
    rw [e1]; omega
  exact (outArr_at V c (rowBlock t) (((cfg1.win 3).blk t).view.emb j) ((win1 3).xinj (grid1.coords t) j) h0 h1).symm

/-- An index of the output array is in point t's block iff each coordinate is in the block's range on its axis. -/
theorem outArr_mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_call0_v21).slice (win1_3.rect t)).set ↔ _
  rw [View.set_slice_whole, Rect.mem_set_unit]
  exact Iff.rfl

/-- The 25 row blocks tile the output array: row r lies in the block of point r / 400, and every point writes back. -/
theorem outArr_cover (i : S10000x128.Idx) :
    ∃ t : Fin cfg1.N, (cfg1.win 3).flush t = true ∧ i ∈ ((cfg1.win 3).blk t).view.set := by
  have hi0 : (i 0).val < 10000 := ValueIdx.idx2_lt0 (n0 := 10000) (n1 := 128) i
  have hi1 : (i 1).val < 128 := ValueIdx.idx2_lt1 (n0 := 10000) (n1 := 128) i
  obtain ⟨t, ht⟩ : ∃ t : Fin cfg1.N, t.val = (i 0).val / 400 := ⟨Fin.cast N_1.symm ⟨(i 0).val / 400, by omega⟩, rfl⟩
  obtain ⟨⟨e0, e1⟩, -, -, -⟩ := outArr_idx t
  refine ⟨t, flush1_3 t, ?_⟩
  rw [outArr_mem_blk]
  intro a
  match a with
  | ⟨0, _⟩ =>
    show win1_3.index t (0 : Fin 2) * 400 ≤ (i 0).val ∧ (i 0).val < win1_3.index t (0 : Fin 2) * 400 + 400
    rw [e0, ht]; omega
  | ⟨1, _⟩ =>
    show win1_3.index t (1 : Fin 2) * 128 ≤ (i 1).val ∧ (i 1).val < win1_3.index t (1 : Fin 2) * 128 + 128
    rw [e1]; omega

/-- The output array after the run is its closed form: every point writes block t of it, and the blocks cover. -/
theorem arrAt_out (c : Dev nD) : (dat V c).arrAt 3 cfg1.N = outArr V c :=
  (dat V c).arrAt_eq_of_cover 3 (outArr V c) (fun t _ => outArr_flushed V c t) outArr_cover

end Cert.KernelIdeal.SecondLayer

end
-- ==== Proof.PayloadValues.lean ====
/-
  The arithmetic of the two layers read at one entry, over the extended reals, where every operation is exact and a change
  of number format is the identity.

  A product of two tables accumulated from zero has, at entry (p, q), the sum over the shared axis of the products of the
  entries: one lemma for each of the four pairs of extents that occur (1000 × 1433 by 1433 × 512, 200 × 10000 by
  10000 × 512, 200 × 512 by 512 × 128, 400 × 10000 by 10000 × 128), each resting on four small facts that name the two
  coordinates of the left and of the right operand's index. On top of them:
  • a slab of the support table is the rows of x times the first weight table;
  • the copy of an adjacency block is the block;
  • a block of the hidden table is max (A · S + b, 0) · W, the row b added to every row;
  • a block of the output is A · H + b, the row b added to every row.
-/
import proofs.«100629_g28415503630501_cont_9to1_332_17_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Group.Finset.Defs
import Mathlib.Algebra.BigOperators.Group.Finset.Basic

namespace Cert.KernelIdeal.Payload
open Idealize.ShloMosaic Idealize.ShloMosaic.ValueIdx Cert.KernelIdeal Cert.KernelIdeal.Gen
open scoped BigOperators

/-! ## The product of a 1000 × 1433 table with a 1433 × 512 table -/

theorem lhs_support_0 (i : S1000x512.Idx) (q : dot_S1000x1433_S1433x512_S1000x512_1_0_0_1_n_n.contr.Idx) :
    (dot_S1000x1433_S1433x512_S1000x512_1_0_0_1_n_n.lhsIdx i q 0).val = (i 0).val := by
  unfold DotDims.lhsIdx
  rw [dif_neg (show ¬(0 : Fin S1000x1433.rank) ∈ dot_S1000x1433_S1433x512_S1000x512_1_0_0_1_n_n.lhsBatch by decide),
    dif_pos (show (0 : Fin S1000x1433.rank) ∈ dot_S1000x1433_S1433x512_S1000x512_1_0_0_1_n_n.lhsNonContracting by decide)]
  rfl
theorem lhs_support_1 (i : S1000x512.Idx) (q : dot_S1000x1433_S1433x512_S1000x512_1_0_0_1_n_n.contr.Idx) :
    (dot_S1000x1433_S1433x512_S1000x512_1_0_0_1_n_n.lhsIdx i q 1).val = (q ⟨0, by decide⟩).val :=
  dot_S1000x1433_S1433x512_S1000x512_1_0_0_1_n_n.lhsIdx_val_of_single rfl i q
theorem rhs_support_0 (i : S1000x512.Idx) (q : dot_S1000x1433_S1433x512_S1000x512_1_0_0_1_n_n.contr.Idx) :
    (dot_S1000x1433_S1433x512_S1000x512_1_0_0_1_n_n.rhsIdx i q 0).val = (q ⟨0, by decide⟩).val :=
  dot_S1000x1433_S1433x512_S1000x512_1_0_0_1_n_n.rhsIdx_val_of_single rfl i q
theorem rhs_support_1 (i : S1000x512.Idx) (q : dot_S1000x1433_S1433x512_S1000x512_1_0_0_1_n_n.contr.Idx) :
    (dot_S1000x1433_S1433x512_S1000x512_1_0_0_1_n_n.rhsIdx i q 1).val = (i 1).val := by
  unfold DotDims.rhsIdx
  rw [dif_neg (show ¬(1 : Fin S1433x512.rank) ∈ dot_S1000x1433_S1433x512_S1000x512_1_0_0_1_n_n.rhsBatch by decide),
    dif_pos (show (1 : Fin S1433x512.rank) ∈ dot_S1000x1433_S1433x512_S1000x512_1_0_0_1_n_n.rhsNonContracting by decide)]
  rfl

/-- Entry (p, k) of the product accumulated from zero is the sum over the shared axis of the products of the entries. -/
theorem matmul_support_apply (x : FVec Ideal S1000x1433 .bf16) (w : FVec Ideal S1433x512 .bf16) (p : Fin 1000) (k : Fin 512) :
    matmul dot_S1000x1433_S1433x512_S1000x512_1_0_0_1_n_n none x w (constant (F := Ideal) S1000x512 .f32 0x00000000#32) (ix2 p k)
      = ∑ f : Fin 1433, x (ix2 p f) * w (ix2 f k) := by
  simp only [matmul]
  rw [Ideal.matmul_constant_zero_apply,
    ← Equiv.sum_comp (contrEquiv1 dot_S1000x1433_S1433x512_S1000x512_1_0_0_1_n_n 1433 rfl rfl).symm]
  refine Finset.sum_congr rfl fun f _ => ?_
  have hf := contrEquiv1_symm_val dot_S1000x1433_S1433x512_S1000x512_1_0_0_1_n_n 1433 rfl rfl f
  have el : dot_S1000x1433_S1433x512_S1000x512_1_0_0_1_n_n.lhsIdx (ix2 p k)
      ((contrEquiv1 dot_S1000x1433_S1433x512_S1000x512_1_0_0_1_n_n 1433 rfl rfl).symm f) = ix2 p f :=
    funext fun a => Fin.ext (by
      match a with
      | ⟨0, _⟩ => exact lhs_support_0 _ _
      | ⟨1, _⟩ => exact (lhs_support_1 _ _).trans hf)
  have er : dot_S1000x1433_S1433x512_S1000x512_1_0_0_1_n_n.rhsIdx (ix2 p k)
      ((contrEquiv1 dot_S1000x1433_S1433x512_S1000x512_1_0_0_1_n_n 1433 rfl rfl).symm f) = ix2 f k :=
    funext fun a => Fin.ext (by
      match a with
      | ⟨0, _⟩ => exact (rhs_support_0 _ _).trans hf
      | ⟨1, _⟩ => exact rhs_support_1 _ _)
  rw [el, er]

/-! ## The product of a 200 × 10000 table with a 10000 × 512 table -/

theorem lhs_aggregate_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide),
    dif_pos (show (0 : Fin S200x10000.rank) ∈ dot_S200x10000_S10000x512_S200x512_1_0_0_1_n_n.lhsNonContracting by decide)]
  rfl
theorem lhs_aggregate_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
theorem rhs_aggregate_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
theorem rhs_aggregate_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide),
    dif_pos (show (1 : Fin S10000x512.rank) ∈ dot_S200x10000_S10000x512_S200x512_1_0_0_1_n_n.rhsNonContracting by decide)]
  rfl

/-- Entry (p, k) of the product accumulated from zero is the sum over the shared axis of the products of the entries. -/
theorem matmul_aggregate_apply (x : FVec Ideal S200x10000 .bf16) (w : FVec Ideal S10000x512 .bf16) (p : Fin 200) (k : Fin 512) :
    matmul dot_S200x10000_S10000x512_S200x512_1_0_0_1_n_n none x w (constant (F := Ideal) S200x512 .f32 0x00000000#32) (ix2 p k)
      = ∑ l : Fin 10000, x (ix2 p l) * w (ix2 l k) := by
  simp only [matmul]
  rw [Ideal.matmul_constant_zero_apply,
    ← Equiv.sum_comp (contrEquiv1 dot_S200x10000_S10000x512_S200x512_1_0_0_1_n_n 10000 rfl rfl).symm]
  refine Finset.sum_congr rfl fun l _ => ?_
  have hl := contrEquiv1_symm_val dot_S200x10000_S10000x512_S200x512_1_0_0_1_n_n 10000 rfl rfl l
  have el : dot_S200x10000_S10000x512_S200x512_1_0_0_1_n_n.lhsIdx (ix2 p k)
      ((contrEquiv1 dot_S200x10000_S10000x512_S200x512_1_0_0_1_n_n 10000 rfl rfl).symm l) = ix2 p l :=
    funext fun a => Fin.ext (by
      match a with
      | ⟨0, _⟩ => exact lhs_aggregate_0 _ _
      | ⟨1, _⟩ => exact (lhs_aggregate_1 _ _).trans hl)
  have er : dot_S200x10000_S10000x512_S200x512_1_0_0_1_n_n.rhsIdx (ix2 p k)
      ((contrEquiv1 dot_S200x10000_S10000x512_S200x512_1_0_0_1_n_n 10000 rfl rfl).symm l) = ix2 l k :=
    funext fun a => Fin.ext (by
      match a with
      | ⟨0, _⟩ => exact (rhs_aggregate_0 _ _).trans hl
      | ⟨1, _⟩ => exact rhs_aggregate_1 _ _)
  rw [el, er]

/-! ## The product of a 200 × 512 table with a 512 × 128 table -/

theorem lhs_project_0 (i : S200x128.Idx) (q : dot_S200x512_S512x128_S200x128_1_0_0_1_n_n.contr.Idx) :
    (dot_S200x512_S512x128_S200x128_1_0_0_1_n_n.lhsIdx i q 0).val = (i 0).val := by
  unfold DotDims.lhsIdx
  rw [dif_neg (show ¬(0 : Fin S200x512.rank) ∈ dot_S200x512_S512x128_S200x128_1_0_0_1_n_n.lhsBatch by decide),
    dif_pos (show (0 : Fin S200x512.rank) ∈ dot_S200x512_S512x128_S200x128_1_0_0_1_n_n.lhsNonContracting by decide)]
  rfl
theorem lhs_project_1 (i : S200x128.Idx) (q : dot_S200x512_S512x128_S200x128_1_0_0_1_n_n.contr.Idx) :
    (dot_S200x512_S512x128_S200x128_1_0_0_1_n_n.lhsIdx i q 1).val = (q ⟨0, by decide⟩).val :=
  dot_S200x512_S512x128_S200x128_1_0_0_1_n_n.lhsIdx_val_of_single rfl i q
theorem rhs_project_0 (i : S200x128.Idx) (q : dot_S200x512_S512x128_S200x128_1_0_0_1_n_n.contr.Idx) :
    (dot_S200x512_S512x128_S200x128_1_0_0_1_n_n.rhsIdx i q 0).val = (q ⟨0, by decide⟩).val :=
  dot_S200x512_S512x128_S200x128_1_0_0_1_n_n.rhsIdx_val_of_single rfl i q
theorem rhs_project_1 (i : S200x128.Idx) (q : dot_S200x512_S512x128_S200x128_1_0_0_1_n_n.contr.Idx) :
    (dot_S200x512_S512x128_S200x128_1_0_0_1_n_n.rhsIdx i q 1).val = (i 1).val := by
  unfold DotDims.rhsIdx
  rw [dif_neg (show ¬(1 : Fin S512x128.rank) ∈ dot_S200x512_S512x128_S200x128_1_0_0_1_n_n.rhsBatch by decide),
    dif_pos (show (1 : Fin S512x128.rank) ∈ dot_S200x512_S512x128_S200x128_1_0_0_1_n_n.rhsNonContracting by decide)]
  rfl

/-- Entry (p, q) of the product accumulated from zero is the sum over the shared axis of the products of the entries. -/
theorem matmul_project_apply (x : FVec Ideal S200x512 .bf16) (w : FVec Ideal S512x128 .bf16) (p : Fin 200) (q : Fin 128) :
    matmul dot_S200x512_S512x128_S200x128_1_0_0_1_n_n none x w (constant (F := Ideal) S200x128 .f32 0x00000000#32) (ix2 p q)
      = ∑ k : Fin 512, x (ix2 p k) * w (ix2 k q) := by
  simp only [matmul]
  rw [Ideal.matmul_constant_zero_apply,
    ← Equiv.sum_comp (contrEquiv1 dot_S200x512_S512x128_S200x128_1_0_0_1_n_n 512 rfl rfl).symm]
  refine Finset.sum_congr rfl fun k _ => ?_
  have hk := contrEquiv1_symm_val dot_S200x512_S512x128_S200x128_1_0_0_1_n_n 512 rfl rfl k
  have el : dot_S200x512_S512x128_S200x128_1_0_0_1_n_n.lhsIdx (ix2 p q)
      ((contrEquiv1 dot_S200x512_S512x128_S200x128_1_0_0_1_n_n 512 rfl rfl).symm k) = ix2 p k :=
    funext fun a => Fin.ext (by
      match a with
      | ⟨0, _⟩ => exact lhs_project_0 _ _
      | ⟨1, _⟩ => exact (lhs_project_1 _ _).trans hk)
  have er : dot_S200x512_S512x128_S200x128_1_0_0_1_n_n.rhsIdx (ix2 p q)
      ((contrEquiv1 dot_S200x512_S512x128_S200x128_1_0_0_1_n_n 512 rfl rfl).symm k) = ix2 k q :=
    funext fun a => Fin.ext (by
      match a with
      | ⟨0, _⟩ => exact (rhs_project_0 _ _).trans hk
      | ⟨1, _⟩ => exact rhs_project_1 _ _)
  rw [el, er]

/-! ## The product of a 400 × 10000 table with a 10000 × 128 table -/

theorem lhs_output_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhs_output_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_output_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_output_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Entry (p, q) of the product accumulated from zero is the sum over the shared axis of the products of the entries. -/
theorem matmul_output_apply (x : FVec Ideal S400x10000 .bf16) (w : FVec Ideal S10000x128 .bf16) (p : Fin 400) (q : Fin 128) :
    matmul dot_S400x10000_S10000x128_S400x128_1_0_0_1_n_n none x w (constant (F := Ideal) S400x128 .f32 0x00000000#32) (ix2 p q)
      = ∑ j : Fin 10000, x (ix2 p j) * w (ix2 j q) := by
  simp only [matmul]
  rw [Ideal.matmul_constant_zero_apply,
    ← Equiv.sum_comp (contrEquiv1 dot_S400x10000_S10000x128_S400x128_1_0_0_1_n_n 10000 rfl rfl).symm]
  refine Finset.sum_congr rfl fun j _ => ?_
  have hj := contrEquiv1_symm_val dot_S400x10000_S10000x128_S400x128_1_0_0_1_n_n 10000 rfl rfl j
  have el : dot_S400x10000_S10000x128_S400x128_1_0_0_1_n_n.lhsIdx (ix2 p q)
      ((contrEquiv1 dot_S400x10000_S10000x128_S400x128_1_0_0_1_n_n 10000 rfl rfl).symm j) = ix2 p j :=
    funext fun a => Fin.ext (by
      match a with
      | ⟨0, _⟩ => exact lhs_output_0 _ _
      | ⟨1, _⟩ => exact (lhs_output_1 _ _).trans hj)
  have er : dot_S400x10000_S10000x128_S400x128_1_0_0_1_n_n.rhsIdx (ix2 p q)
      ((contrEquiv1 dot_S400x10000_S10000x128_S400x128_1_0_0_1_n_n 10000 rfl rfl).symm j) = ix2 j q :=
    funext fun a => Fin.ext (by
      match a with
      | ⟨0, _⟩ => exact (rhs_output_0 _ _).trans hj
      | ⟨1, _⟩ => exact rhs_output_1 _ _)
  rw [el, er]

/-! ## The four values at an entry -/

/-- a slab of the support table: rows of x times the padded first weight table -/
theorem support_slab_apply (x : Vec Ideal S1000x1433 .f32) (w : Vec Ideal S1433x512 .bf16) (p : Fin 1000) (k : Fin 512) :
    k0_pay1 (F := Ideal) x w (ix2 p k) = ∑ f : Fin 1433, x (ix2 p f) * w (ix2 f k) := by
  unfold k0_pay1
  simp only [shapeCast_self]
  exact matmul_support_apply _ _ p k

/-- the copy of an adjacency block is the block -/
theorem adj_copy_apply (a : Vec Ideal S200x10000 .f32) (y : S200x10000.Idx) : k0_pay2 (F := Ideal) a y = a y := rfl

/-- a block of the hidden table -/
theorem hidden_block_apply (a : Vec Ideal S200x10000 .f32) (s : Vec Ideal S10000x512 .bf16) (b : Vec Ideal S1x512 .f32) (w : Vec Ideal S512x128 .bf16)
    (p : Fin 200) (q : Fin 128) :
    k0_pay3 (F := Ideal) a s b w (ix2 p q)
      = ∑ k : Fin 512, max ((∑ l : Fin 10000, a (ix2 p l) * s (ix2 l k)) + b (ix2 (0 : Fin 1) k)) 0 * w (ix2 k q) := by
  unfold k0_pay3
  simp only [shapeCast_self]
  refine (matmul_project_apply _ _ p q).trans ?_
  refine Finset.sum_congr rfl fun k _ => ?_
  refine congrArg (· * w (ix2 k q)) ?_
  rw [truncf_apply, maximumf_apply, addf_apply, broadcast_apply, matmul_aggregate_apply, broadcastTo_1b_ab_apply,
    Ideal.ofBits_def, Ideal.ofBits_zero_f32]
  simp only [adj_copy_apply]

/-- a block of the output -/
theorem output_block_apply (a : Vec Ideal S400x10000 .bf16) (h : Vec Ideal S10000x128 .bf16) (b : Vec Ideal S1x128 .f32) (p : Fin 400) (q : Fin 128) :
    k1_pay1 (F := Ideal) a h b (ix2 p q) = (∑ j : Fin 10000, a (ix2 p j) * h (ix2 j q)) + b (ix2 (0 : Fin 1) q) := by
  unfold k1_pay1
  simp only [shapeCast_self]
  rw [addf_apply, matmul_output_apply, broadcastTo_1b_ab_apply]

end Cert.KernelIdeal.Payload
-- ==== Proof.LibScatterSet.lean ====
/-
  A host scatter whose combining function keeps the update (an `.at[…].set`), read at one entry.

  `Host.scatter d f x idx upd` folds over the update indices in row-major order; each step either leaves the array
  alone (the update's target lies outside the operand) or replaces the one entry at the target.  With `f = fun _ b => b`
  an entry that exactly one update index targets ends at that update's value, whatever the order; an entry no update
  index targets keeps the operand's value.

  The argument is about the fold alone.  Over ANY list of update numbers and any starting array: a step whose target
  is not `i` does not touch entry `i`, so a list none of whose members targets `i` leaves entry `i` as it was; and
  in a list without repeats in which `n₀` is the only member that targets `i`, the steps before `n₀` are irrelevant
  (the step of `n₀` overwrites entry `i` whatever it held), and the steps after `n₀` all miss `i`.  The row-major
  enumeration of the update's index space is one such list.
-/
import Idealize.ShloMosaic.PureOps.ShapeOps

namespace Idealize.ShloMosaic

section SetFold

variable {α : Type} {w : Nat} {s si u : Shape}

/-- One step of the fold of a scatter that keeps the update: the update numbered `n` (row-major) replaces the entry at
    its target, when that target lies inside the operand. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- A step whose target is not `i` leaves entry `i` alone. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  generalize d.resultIdx? (u.rowMajor.symm n) idx = o at h
  cases o with
  | none => rfl
  | some i₀ =>
    have hne : i ≠ i₀ := fun e => h (e ▸ rfl)
    simp [hne]

/-- A step whose target is `i` puts its update at entry `i`, whatever was there. -/
private theorem setStep_of_eq (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  simp

/-- A list of updates none of which targets `i` leaves entry `i` as it was. -/
private theorem foldl_setStep_of_miss (d : ScatterDims s si u) (idx : IVec si w) (upd : u.Idx → α)
    (L : List (Fin u.numel)) (r : s.Idx → α) (i : s.Idx)
    (h : ∀ n ∈ L, d.resultIdx? (u.rowMajor.symm n) idx ≠ some i) :
    L.foldl (setStep d idx upd) r i = r i := by
  induction L generalizing r with
  | nil => rfl
  | cons n L ih =>
    rw [List.foldl_cons, ih _ (fun m hm => h m (List.mem_cons_of_mem _ hm)),
      setStep_of_ne d idx upd r n i (h n List.mem_cons_self)]

/-- In a list without repeats whose only member targeting `i` is `n₀`, entry `i` ends at the update numbered `n₀`:
    the steps before it are overwritten, the steps after it miss `i`. -/
private theorem foldl_setStep_of_hit (d : ScatterDims s si u) (idx : IVec si w) (upd : u.Idx → α)
    (L : List (Fin u.numel)) (hL : L.Nodup) (r : s.Idx → α) (i : s.Idx) (n₀ : Fin u.numel) (hmem : n₀ ∈ L)
    (h₀ : d.resultIdx? (u.rowMajor.symm n₀) idx = some i)
    (huniq : ∀ n ∈ L, d.resultIdx? (u.rowMajor.symm n) idx = some i → n = n₀) :
    L.foldl (setStep d idx upd) r i = upd (u.rowMajor.symm n₀) := by
  induction L generalizing r with
  | nil => cases hmem
  | cons n L ih =>
    rw [List.foldl_cons]
    have hnd := List.nodup_cons.mp hL
    by_cases hn : n = n₀
    · subst hn
      rw [foldl_setStep_of_miss d idx upd L _ i]
      · exact setStep_of_eq d idx upd r n i h₀
      · intro m hm hmi
        have hmn := huniq m (List.mem_cons_of_mem _ hm) hmi
        exact hnd.1 (hmn ▸ hm)
    · have hmem' : n₀ ∈ L := by
        rcases List.mem_cons.mp hmem with e | e
        · exact absurd e.symm hn
        · exact e
      exact ih hnd.2 _ hmem' (fun m hm => huniq m (List.mem_cons_of_mem _ hm))

/-- The scatter that keeps the update is the fold of `setStep` over the row-major numbering. -/
private theorem scatter_set_eq_foldl (d : ScatterDims s si u) (x : s.Idx → α) (idx : IVec si w) (upd : u.Idx → α) :
    Host.scatter d (fun _ b => b) x idx upd = (List.finRange u.numel).foldl (setStep d idx upd) x := rfl

end SetFold

/-- An entry that no update index targets keeps the operand's value. -/
theorem Host.scatter_set_apply_of_miss {α : Type} {w : Nat} {s si u : Shape} (d : ScatterDims s si u) (x : s.Idx → α)
    (idx : IVec si w) (upd : u.Idx → α) (i : s.Idx) (hmiss : ∀ j : u.Idx, d.resultIdx? j idx ≠ some i) :
    Host.scatter d (fun _ b => b) x idx upd i = x i := by
  rw [scatter_set_eq_foldl]
  exact foldl_setStep_of_miss d idx upd _ x i (fun n _ => hmiss _)

/-- An entry that exactly one update index `j` targets ends at `upd j`. -/
theorem Host.scatter_set_apply_of_hit {α : Type} {w : Nat} {s si u : Shape} (d : ScatterDims s si u) (x : s.Idx → α)
    (idx : IVec si w) (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_set_eq_foldl]
  have hj' : d.resultIdx? (u.rowMajor.symm (u.rowMajor j)) idx = some i := by
    rw [Equiv.symm_apply_apply]; exact hj
  have key := foldl_setStep_of_hit d idx upd (List.finRange u.numel) (List.nodup_finRange _) x i (u.rowMajor j)
    (List.mem_finRange _) hj'
    (fun n _ hn => by
      have e := huniq _ hn
      rw [← e, Equiv.apply_symm_apply])
  rw [key, Equiv.symm_apply_apply]

end Idealize.ShloMosaic
-- ==== Proof.PaddedTables.lean ====
/-
  Four zero-padded tables read at an index.

  The host program widens each table by writing it into a larger array at the origin: a scatter whose combining
  function keeps the update, with ONE scatter index all of whose words are zero and the table as the update
  (W1 : 1433×500 into 1433×512, b1 : 500 into 1×512, W2 : 500×7 into 512×128, b2 : 7 into 1×128).  Read at an index
  `i` the result is the table's entry with `i`'s coordinates where those lie inside the table, and the operand's
  entry at `i` elsewhere.

  The argument.  With every index word zero the window of every update index starts at the origin
  (`start_eq_zero`: an operand axis either is not named by the index map, or reads a zero word, whose signed value
  is 0), so update index `j` lands on `i` exactly when `j`'s window coordinates are `i`'s coordinates
  (`resultIdx?_eq_some_iff`; the bounds ask nothing more, `i` being an index of the operand).  For each of the four
  dimension records the window coordinate on an operand axis is the update's coordinate on the matching axis, or 0 on
  an inserted axis (`…_window0`, `…_window1`), which turns "lands on `i`" into equalities between coordinates
  (`…_lands_iff`).  Inside the table the update index with `i`'s coordinates lands on `i` and is the only one that
  does (an index is determined by its coordinates), so the entry is that update's value; outside, a landing update
  index would have a coordinate equal to one of `i`'s that is not below the table's extent, which no update
  coordinate is, so no update index lands on `i` and the entry stays the operand's.

  The statements hold for any element type, any operand and any index vector of zero words.
-/
import proofs.«100629_g28415503630501_cont_9to1_332_17_alg».proof.Proof.Gen.KernelIdeal
import proofs.«100629_g28415503630501_cont_9to1_332_17_alg».proof.Proof.LibScatterSet
import Idealize.ShloMosaic.Lib.ValueIdx

namespace Cert.KernelIdeal.Padded

open Idealize.ShloMosaic Cert.KernelIdeal

variable {α : Type}

section General

variable {w : Nat} {s si u : Shape} (d : ScatterDims s si u)

/-- With every index word zero the window starts at the origin on every operand axis. -/
theorem start_eq_zero (j : u.Idx) (idx : IVec si w) (hidx : ∀ b, idx b = 0#w) (a : Fin s.rank) :
    d.start j idx a = 0 := by
  unfold ScatterDims.start
  split
  · rw [hidx, BitVec.toInt_zero]
  · rfl

/-- With every index word zero, update index `j` lands on `i` exactly when its window coordinates are `i`'s. -/
theorem resultIdx?_eq_some_iff (j : u.Idx) (idx : IVec si w) (hidx : ∀ b, idx b = 0#w) (i : s.Idx) :
    d.resultIdx? j idx = some i ↔ ∀ a, d.window j a = (i a).val := by
  unfold ScatterDims.resultIdx?
  simp only [start_eq_zero d j idx hidx]
  constructor
  · intro h a
    split at h
    · have e := congrFun (Option.some.inj h) a
      have e' := congrArg Fin.val e
      simp only at e'
      omega
    · cases h
  · intro h
    have hc : ∀ a, 0 ≤ (0 : Int) + d.window j a ∧ (0 : Int) + d.window j a < s.size a := by
      intro a
      have := (i a).isLt
      rw [h a]
      omega
    rw [dif_pos hc]
    congr 1
    funext a
    apply Fin.ext
    simp only
    rw [h a]
    omega

end General

section W1

/-- On the first axis the window coordinate is the update's first coordinate. -/
theorem w1_window0 (j : S1433x500.Idx) : scatter_S1433x512_S1_S1433x500_01_n_1_0.window j 0 = (j 0).val := rfl
/-- On the second axis the window coordinate is the update's second coordinate. -/
theorem w1_window1 (j : S1433x500.Idx) : scatter_S1433x512_S1_S1433x500_01_n_1_0.window j 1 = (j 1).val := rfl

/-- An update index lands on `i` exactly when it has `i`'s two coordinates. -/
theorem w1_lands_iff (idx : IVec S1 32) (hidx : ∀ b, idx b = 0#32) (j : S1433x500.Idx) (i : S1433x512.Idx) :
    scatter_S1433x512_S1_S1433x500_01_n_1_0.resultIdx? j idx = some i ↔ (j 0).val = (i 0).val ∧ (j 1).val = (i 1).val := by
  rw [resultIdx?_eq_some_iff _ j idx hidx i]
  constructor
  · intro h
    exact ⟨(w1_window0 j).symm.trans (h 0), (w1_window1 j).symm.trans (h 1)⟩
  · intro h a
    match a with
    | ⟨0, _⟩ => exact (w1_window0 j).trans h.1
    | ⟨1, _⟩ => exact (w1_window1 j).trans h.2

theorem w1_pad_apply (z : S1433x512.Idx → α) (idx : IVec S1 32) (hidx : ∀ b, idx b = 0#32) (u : S1433x500.Idx → α) (i : S1433x512.Idx) :
    Host.scatter scatter_S1433x512_S1_S1433x500_01_n_1_0 (fun _ b => b) z idx u i
      = if h : (i 1).val < 500 then u (ValueIdx.ix2 (⟨(i 0).val, (i 0).isLt⟩ : Fin 1433) (⟨(i 1).val, h⟩ : Fin 500)) else z i := by
  by_cases h : (i 1).val < 500
  · rw [dif_pos h]
    refine Host.scatter_set_apply_of_hit _ z idx u i _ ?_ ?_
    · exact (w1_lands_iff idx hidx _ i).2 ⟨rfl, rfl⟩
    · intro j' hj'
      have e := (w1_lands_iff idx hidx j' i).1 hj'
      rw [ValueIdx.eq_ix2 j']
      congr 1
      · exact Fin.ext e.1
      · exact Fin.ext e.2
  · rw [dif_neg h]
    refine Host.scatter_set_apply_of_miss _ z idx u i ?_
    intro j hj
    have e := (w1_lands_iff idx hidx j i).1 hj
    have := ValueIdx.idx2_lt1 j
    omega

end W1

section B1

/-- The first operand axis is inserted: its window coordinate is zero. -/
theorem b1_window0 (j : S500.Idx) : scatter_S1x512_S2_S500_0_0_01_0.window j 0 = 0 := rfl
/-- On the second operand axis the window coordinate is the update's one coordinate. -/
theorem b1_window1 (j : S500.Idx) : scatter_S1x512_S2_S500_0_0_01_0.window j 1 = (j 0).val := rfl

/-- An update index lands on `i` exactly when its coordinate is `i`'s second one (the first axis has one point). -/
theorem b1_lands_iff (idx : IVec S2 32) (hidx : ∀ b, idx b = 0#32) (j : S500.Idx) (i : S1x512.Idx) :
    scatter_S1x512_S2_S500_0_0_01_0.resultIdx? j idx = some i ↔ (j 0).val = (i 1).val := by
  rw [resultIdx?_eq_some_iff _ j idx hidx i]
  constructor
  · intro h
    exact (b1_window1 j).symm.trans (h 1)
  · intro h a
    match a with
    | ⟨0, _⟩ =>
      have hlt : (i 0).val < 1 := ValueIdx.idx2_lt0 i
      refine (b1_window0 j).trans ?_
      show 0 = (i 0).val
      omega
    | ⟨1, _⟩ => exact (b1_window1 j).trans h

theorem b1_pad_apply (z : S1x512.Idx → α) (idx : IVec S2 32) (hidx : ∀ b, idx b = 0#32) (u : S500.Idx → α) (i : S1x512.Idx) :
    Host.scatter scatter_S1x512_S2_S500_0_0_01_0 (fun _ b => b) z idx u i
      = if h : (i 1).val < 500 then u (ValueIdx.ix1 (⟨(i 1).val, h⟩ : Fin 500)) else z i := by
  by_cases h : (i 1).val < 500
  · rw [dif_pos h]
    refine Host.scatter_set_apply_of_hit _ z idx u i _ ?_ ?_
    · exact (b1_lands_iff idx hidx _ i).2 rfl
    · intro j' hj'
      have e := (b1_lands_iff idx hidx j' i).1 hj'
      rw [ValueIdx.eq_ix1 j']
      congr 1
      exact Fin.ext e
  · rw [dif_neg h]
    refine Host.scatter_set_apply_of_miss _ z idx u i ?_
    intro j hj
    have e := (b1_lands_iff idx hidx j i).1 hj
    have : (j 0).val < 500 := (j 0).isLt
    omega

end B1

section W2

/-- On the first axis the window coordinate is the update's first coordinate. -/
theorem w2_window0 (j : S500x7.Idx) : scatter_S512x128_S2_S500x7_01_n_01_0.window j 0 = (j 0).val := rfl
/-- On the second axis the window coordinate is the update's second coordinate. -/
theorem w2_window1 (j : S500x7.Idx) : scatter_S512x128_S2_S500x7_01_n_01_0.window j 1 = (j 1).val := rfl

/-- An update index lands on `i` exactly when it has `i`'s two coordinates. -/
theorem w2_lands_iff (idx : IVec S2 32) (hidx : ∀ b, idx b = 0#32) (j : S500x7.Idx) (i : S512x128.Idx) :
    scatter_S512x128_S2_S500x7_01_n_01_0.resultIdx? j idx = some i ↔ (j 0).val = (i 0).val ∧ (j 1).val = (i 1).val := by
  rw [resultIdx?_eq_some_iff _ j idx hidx i]
  constructor
  · intro h
    exact ⟨(w2_window0 j).symm.trans (h 0), (w2_window1 j).symm.trans (h 1)⟩
  · intro h a
    match a with
    | ⟨0, _⟩ => exact (w2_window0 j).trans h.1
    | ⟨1, _⟩ => exact (w2_window1 j).trans h.2

theorem w2_pad_apply (z : S512x128.Idx → α) (idx : IVec S2 32) (hidx : ∀ b, idx b = 0#32) (u : S500x7.Idx → α) (i : S512x128.Idx) :
    Host.scatter scatter_S512x128_S2_S500x7_01_n_01_0 (fun _ b => b) z idx u i
      = if h : (i 0).val < 500 ∧ (i 1).val < 7 then u (ValueIdx.ix2 (⟨(i 0).val, h.1⟩ : Fin 500) (⟨(i 1).val, h.2⟩ : Fin 7)) else z i := by
  by_cases h : (i 0).val < 500 ∧ (i 1).val < 7
  · rw [dif_pos h]
    refine Host.scatter_set_apply_of_hit _ z idx u i _ ?_ ?_
    · exact (w2_lands_iff idx hidx _ i).2 ⟨rfl, rfl⟩
    · intro j' hj'
      have e := (w2_lands_iff idx hidx j' i).1 hj'
      rw [ValueIdx.eq_ix2 j']
      congr 1
      · exact Fin.ext e.1
      · exact Fin.ext e.2
  · rw [dif_neg h]
    refine Host.scatter_set_apply_of_miss _ z idx u i ?_
    intro j hj
    have e := (w2_lands_iff idx hidx j i).1 hj
    have h0 := ValueIdx.idx2_lt0 j
    have h1 := ValueIdx.idx2_lt1 j
    exact h ⟨by omega, by omega⟩

end W2

section B2

/-- The first operand axis is inserted: its window coordinate is zero. -/
theorem b2_window0 (j : S7.Idx) : scatter_S1x128_S2_S7_0_0_01_0.window j 0 = 0 := rfl
/-- On the second operand axis the window coordinate is the update's one coordinate. -/
theorem b2_window1 (j : S7.Idx) : scatter_S1x128_S2_S7_0_0_01_0.window j 1 = (j 0).val := rfl

/-- An update index lands on `i` exactly when its coordinate is `i`'s second one (the first axis has one point). -/
theorem b2_lands_iff (idx : IVec S2 32) (hidx : ∀ b, idx b = 0#32) (j : S7.Idx) (i : S1x128.Idx) :
    scatter_S1x128_S2_S7_0_0_01_0.resultIdx? j idx = some i ↔ (j 0).val = (i 1).val := by
  rw [resultIdx?_eq_some_iff _ j idx hidx i]
  constructor
  · intro h
    exact (b2_window1 j).symm.trans (h 1)
  · intro h a
    match a with
    | ⟨0, _⟩ =>
      have hlt : (i 0).val < 1 := ValueIdx.idx2_lt0 i
      refine (b2_window0 j).trans ?_
      show 0 = (i 0).val
      omega
    | ⟨1, _⟩ => exact (b2_window1 j).trans h

theorem b2_pad_apply (z : S1x128.Idx → α) (idx : IVec S2 32) (hidx : ∀ b, idx b = 0#32) (u : S7.Idx → α) (i : S1x128.Idx) :
    Host.scatter scatter_S1x128_S2_S7_0_0_01_0 (fun _ b => b) z idx u i
      = if h : (i 1).val < 7 then u (ValueIdx.ix1 (⟨(i 1).val, h⟩ : Fin 7)) else z i := by
  by_cases h : (i 1).val < 7
  · rw [dif_pos h]
    refine Host.scatter_set_apply_of_hit _ z idx u i _ ?_ ?_
    · exact (b2_lands_iff idx hidx _ i).2 rfl
    · intro j' hj'
      have e := (b2_lands_iff idx hidx j' i).1 hj'
      rw [ValueIdx.eq_ix1 j']
      congr 1
      exact Fin.ext e
  · rw [dif_neg h]
    refine Host.scatter_set_apply_of_miss _ z idx u i ?_
    intro j hj
    have e := (b2_lands_iff idx hidx j i).1 hj
    have : (j 0).val < 7 := (j 0).isLt
    omega

end B2

end Cert.KernelIdeal.Padded
-- ==== Proof.HostTables.lean ====
/-
  What the host operations leave in the buffers the two kernel regions read, and the closing slice.

  The padding operations write only their own result buffers, so x and the adjacency matrix reach the first region as
  launched. Each padded table is a scatter of the table into a zero operand at the single index (0, ..), keeping the
  update: inside the table's window it is the table (a change of float format is the identity on the extended reals),
  outside it is zero. The program's result is the slice [0:10000, 0:7] of the second region's output array.
-/
import proofs.«100629_g28415503630501_cont_9to1_332_17_alg».proof.Proof.TwoLayerRun
import proofs.«100629_g28415503630501_cont_9to1_332_17_alg».proof.Proof.PaddedTables
import proofs.«100629_g28415503630501_cont_9to1_332_17_alg».proof.Proof.Gen.KernelIdeal.Regions
import Idealize.ShloMosaic.Lib.StableHlo.Run
import Idealize.ShloMosaic.Lib.ValueIdx
import Idealize.ShloMosaic.Lib.Pipeline.Value
import Idealize.ShloMosaic.PureOps.Ideal.Laws
import Idealize.ShloMosaic.PureOps.IdealRules

set_option maxRecDepth 16384

noncomputable section

namespace Cert.KernelIdeal.TwoLayers

open Idealize.ShloMosaic Idealize.ShloMosaic.TcCoe Idealize.ShloMosaic.ValueIdx Idealize.ShloMosaic.StableHlo
open Idealize.SL Idealize.SL.Sem
open Cert.KernelIdeal Cert.KernelIdeal.Gen

section AnyInstance

variable {F : FTy → Type} [FloatOps F]
variable (m : (ℓ : Loc nD τ sig) → Buf (Elt F) ℓ) (ρ : Dev nD → PrngReg)

/-- The padding operations do not write x, -/
theorem entry_x (c : Dev nD) : V1 m ρ c main_arg0 = m ((c : Thread nD τ).loc main_arg0) :=
  StableHlo.after_of_writes_sub hostOps0 _ hostOps0_writes (by decide)
/-- nor the adjacency matrix. -/
theorem entry_adj (c : Dev nD) : V1 m ρ c main_arg1 = m ((c : Thread nD τ).loc main_arg1) :=
  StableHlo.after_of_writes_sub hostOps0 _ hostOps0_writes (by decide)

/-- Contents moved to a buffer's own type and back are unchanged. -/
theorem ofBuf_toBuf {σ : RefSig} {Val : EltTy → Type} {T : BufTy} (x : StableHlo.TRef σ T) (v : T.Contents Val) :
    x.ofBuf (x.toBuf v) = v := by
  obtain ⟨r, h, _, _⟩ := x
  subst h
  rfl

theorem ofBuf_out (c : Dev nD) (x : Buf (Elt F) ((c : Thread nD τ).loc main_call0_v21)) :
    (StableHlo.TRef.of main_call0_v21 : StableHlo.TRef sig ⟨S10000x128, .f32⟩).ofBuf (Val := Elt F) x = x := rfl
theorem toBuf_res (x : S10000x7.Idx → F .f32) : (StableHlo.TRef.of main_v0 : StableHlo.TRef sig ⟨S10000x7, .f32⟩).toBuf (Val := Elt F) x = x := rfl

set_option maxHeartbeats 1000000 in
/-- The result is the slice [0:10000, 0:7] of the second region's output array. -/
theorem result_slice (c : Dev nD) :
    W4 m ρ c (Proc.devRef .tc main_v0)
      = extractStridedSlice S10000x7 ![0, 0] (W3 m ρ c (Proc.devRef .tc main_call0_v21)) slices_S10000x128_S10000x7_0_0 := by
  show StableHlo.after hostOps2 (W3 m ρ c) (Proc.devRef .tc main_v0) = _
  after_results
  refine (toBuf_res _).trans ?_
  exact congrArg (fun u => extractStridedSlice S10000x7 ![0, 0] u slices_S10000x128_S10000x7_0_0) (ofBuf_out (F := F) c _)

/-! ## The four padded tables, as the padding operations compose them -/

theorem launch_w1p (c : Dev nD) : (StableHlo.TRef.of main_arg2 : StableHlo.TRef sig ⟨S1433x500, .f32⟩).ofBuf (Val := Elt F) (W0 m ρ c (Proc.devRef .tc main_arg2)) = m ((c : Thread nD τ).loc main_arg2) := rfl
theorem toBuf_w1p (x : S1433x512.Idx → F .bf16) : (StableHlo.TRef.of main_call0_v3 : StableHlo.TRef sig ⟨S1433x512, .bf16⟩).toBuf (Val := Elt F) x = x := rfl

set_option maxHeartbeats 1000000 in
theorem entry_w1p (c : Dev nD) : V1 m ρ c main_call0_v3
    = Host.scatter scatter_S1433x512_S1_S1433x500_01_n_1_0 (fun _ b => b)
        (broadcastInDim S1433x512 ![] bcast_S_S1433x512 (constant (F := F) S_ .bf16 0x0000#16))
        (broadcastInDim S1 ![] bcast_S_S1 (constantI S_ 32 0#32))
        (truncf .bf16 (m ((c : Thread nD τ).loc main_arg2)) bitsLt_bf16_f32) := by
  show StableHlo.after hostOps0 (W0 m ρ c) (Proc.devRef .tc main_call0_v3) = _
  after_results
  repeat rw [ofBuf_toBuf]
  refine (toBuf_w1p _).trans ?_
  exact congrArg (fun u => Host.scatter scatter_S1433x512_S1_S1433x500_01_n_1_0 (fun _ b => b)
        (broadcastInDim S1433x512 ![] bcast_S_S1433x512 (constant (F := F) S_ .bf16 0x0000#16))
        (broadcastInDim S1 ![] bcast_S_S1 (constantI S_ 32 0#32))
        (truncf .bf16 u bitsLt_bf16_f32)) (launch_w1p m ρ c)

theorem launch_b1p (c : Dev nD) : (StableHlo.TRef.of main_arg3 : StableHlo.TRef sig ⟨S500, .f32⟩).ofBuf (Val := Elt F) (W0 m ρ c (Proc.devRef .tc main_arg3)) = m ((c : Thread nD τ).loc main_arg3) := rfl
theorem toBuf_b1p (x : S1x512.Idx → F .f32) : (StableHlo.TRef.of main_call0_v8 : StableHlo.TRef sig ⟨S1x512, .f32⟩).toBuf (Val := Elt F) x = x := rfl

set_option maxHeartbeats 1000000 in
theorem entry_b1p (c : Dev nD) : V1 m ρ c main_call0_v8
    = Host.scatter scatter_S1x512_S2_S500_0_0_01_0 (fun _ b => b)
        (broadcastInDim S1x512 ![] bcast_S_S1x512 (constant (F := F) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg3)) := by
  show StableHlo.after hostOps0 (W0 m ρ c) (Proc.devRef .tc main_call0_v8) = _
  after_results
  repeat rw [ofBuf_toBuf]
  refine (toBuf_b1p _).trans ?_
  exact congrArg (fun u => Host.scatter scatter_S1x512_S2_S500_0_0_01_0 (fun _ b => b)
        (broadcastInDim S1x512 ![] bcast_S_S1x512 (constant (F := F) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        u) (launch_b1p m ρ c)

theorem launch_w2p (c : Dev nD) : (StableHlo.TRef.of main_arg4 : StableHlo.TRef sig ⟨S500x7, .f32⟩).ofBuf (Val := Elt F) (W0 m ρ c (Proc.devRef .tc main_arg4)) = m ((c : Thread nD τ).loc main_arg4) := rfl
theorem toBuf_w2p (x : S512x128.Idx → F .bf16) : (StableHlo.TRef.of main_call0_v14 : StableHlo.TRef sig ⟨S512x128, .bf16⟩).toBuf (Val := Elt F) x = x := rfl

set_option maxHeartbeats 1000000 in
theorem entry_w2p (c : Dev nD) : V1 m ρ c main_call0_v14
    = Host.scatter scatter_S512x128_S2_S500x7_01_n_01_0 (fun _ b => b)
        (broadcastInDim S512x128 ![] bcast_S_S512x128 (constant (F := F) S_ .bf16 0x0000#16))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (truncf .bf16 (m ((c : Thread nD τ).loc main_arg4)) bitsLt_bf16_f32) := by
  show StableHlo.after hostOps0 (W0 m ρ c) (Proc.devRef .tc main_call0_v14) = _
  after_results
  repeat rw [ofBuf_toBuf]
  refine (toBuf_w2p _).trans ?_
  exact congrArg (fun u => Host.scatter scatter_S512x128_S2_S500x7_01_n_01_0 (fun _ b => b)
        (broadcastInDim S512x128 ![] bcast_S_S512x128 (constant (F := F) S_ .bf16 0x0000#16))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (truncf .bf16 u bitsLt_bf16_f32)) (launch_w2p m ρ c)

theorem launch_b2p (c : Dev nD) : (StableHlo.TRef.of main_arg5 : StableHlo.TRef sig ⟨S7, .f32⟩).ofBuf (Val := Elt F) (W0 m ρ c (Proc.devRef .tc main_arg5)) = m ((c : Thread nD τ).loc main_arg5) := rfl
theorem toBuf_b2p (x : S1x128.Idx → F .f32) : (StableHlo.TRef.of main_call0_v19 : StableHlo.TRef sig ⟨S1x128, .f32⟩).toBuf (Val := Elt F) x = x := rfl

set_option maxHeartbeats 1000000 in
theorem entry_b2p (c : Dev nD) : V1 m ρ c main_call0_v19
    = Host.scatter scatter_S1x128_S2_S7_0_0_01_0 (fun _ b => b)
        (broadcastInDim S1x128 ![] bcast_S_S1x128 (constant (F := F) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg5)) := by
  show StableHlo.after hostOps0 (W0 m ρ c) (Proc.devRef .tc main_call0_v19) = _
  after_results
  repeat rw [ofBuf_toBuf]
  refine (toBuf_b2p _).trans ?_
  exact congrArg (fun u => Host.scatter scatter_S1x128_S2_S7_0_0_01_0 (fun _ b => b)
        (broadcastInDim S1x128 ![] bcast_S_S1x128 (constant (F := F) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        u) (launch_b2p m ρ c)

end AnyInstance

/-- Every word of the one-component scatter index is 0, -/
theorem idx1_zero : ∀ b, (broadcastInDim S1 ![] bcast_S_S1 (constantI S_ 32 0#32) : IVec S1 32) b = 0#32 := fun _ => rfl
/-- and of the two-component one. -/
theorem idx2_zero : ∀ b, (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) b = 0#32 := fun b =>
  congrFun (IdealRules.zero_identity.concatenate_zero S2 0 [⟨S1, broadcastInDim S1 ![] bcast_S_S1 (constantI S_ 32 0#32)⟩,
      ⟨S1, broadcastInDim S1 ![] bcast_S_S1 (constantI S_ 32 0#32)⟩] concatenates_S1_S1_S2_d0 (fun p hp => by
    simp only [List.mem_cons, List.mem_nil_iff, or_false] at hp
    rcases hp with rfl | rfl <;> rfl)) b

/-- The half-width zero is the extended real 0. -/
theorem ofBits_zero_bf16 : Ideal.ofBits .bf16 0x0000#16 = 0 := by simp [Ideal.ofBits, Ideal.ieee]

section Ideal

variable (m : (ℓ : Loc nD τ sig) → Buf (Elt Ideal) ℓ) (ρ : Dev nD → PrngReg)

/-- The arguments and the padded tables at their literal types (entries are extended reals). -/
abbrev xA (c : Dev nD) : S10000x1433.Idx → EReal := m ((c : Thread nD τ).loc main_arg0)
abbrev adjA (c : Dev nD) : S10000x10000.Idx → EReal := m ((c : Thread nD τ).loc main_arg1)
abbrev w1A (c : Dev nD) : S1433x500.Idx → EReal := m ((c : Thread nD τ).loc main_arg2)
abbrev b1A (c : Dev nD) : S500.Idx → EReal := m ((c : Thread nD τ).loc main_arg3)
abbrev w2A (c : Dev nD) : S500x7.Idx → EReal := m ((c : Thread nD τ).loc main_arg4)
abbrev b2A (c : Dev nD) : S7.Idx → EReal := m ((c : Thread nD τ).loc main_arg5)
abbrev w1pA (c : Dev nD) : S1433x512.Idx → EReal := V1 m ρ c main_call0_v3
abbrev b1pA (c : Dev nD) : S1x512.Idx → EReal := V1 m ρ c main_call0_v8
abbrev w2pA (c : Dev nD) : S512x128.Idx → EReal := V1 m ρ c main_call0_v14
abbrev b2pA (c : Dev nD) : S1x128.Idx → EReal := V1 m ρ c main_call0_v19

theorem w1p_eq (c : Dev nD) : w1pA m ρ c = Host.scatter scatter_S1433x512_S1_S1433x500_01_n_1_0 (fun _ b => b)
    (broadcastInDim S1433x512 ![] bcast_S_S1433x512 (constant (F := Ideal) S_ .bf16 0x0000#16))
    (broadcastInDim S1 ![] bcast_S_S1 (constantI S_ 32 0#32)) (truncf .bf16 (w1A m c) bitsLt_bf16_f32) := entry_w1p m ρ c
theorem b1p_eq (c : Dev nD) : b1pA m ρ c = Host.scatter scatter_S1x512_S2_S500_0_0_01_0 (fun _ b => b)
    (broadcastInDim S1x512 ![] bcast_S_S1x512 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (b1A m c) := entry_b1p m ρ c
theorem w2p_eq (c : Dev nD) : w2pA m ρ c = Host.scatter scatter_S512x128_S2_S500x7_01_n_01_0 (fun _ b => b)
    (broadcastInDim S512x128 ![] bcast_S_S512x128 (constant (F := Ideal) S_ .bf16 0x0000#16))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (truncf .bf16 (w2A m c) bitsLt_bf16_f32) := entry_w2p m ρ c
theorem b2p_eq (c : Dev nD) : b2pA m ρ c = Host.scatter scatter_S1x128_S2_S7_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (b2A m c) := entry_b2p m ρ c

/-- A broadcast of the f32 zero scalar is 0 everywhere, -/
theorem zeros_f32 {t : Shape} (h : S_.BroadcastsInDim t (![] : Fin 0 → Fin t.rank)) (j : t.Idx) :
    broadcastInDim t ![] h (constant (F := Ideal) S_ .f32 0x00000000#32) j = 0 :=
  (broadcastInDim_apply _ h _ j (fun a => a.elim0) (fun a => a.elim0)).trans ((constant_apply _ _).trans Ideal.ofBits_zero_f32)
/-- and so is one of the bf16 zero scalar. -/
theorem zeros_bf16 {t : Shape} (h : S_.BroadcastsInDim t (![] : Fin 0 → Fin t.rank)) (j : t.Idx) :
    broadcastInDim t ![] h (constant (F := Ideal) S_ .bf16 0x0000#16) j = 0 :=
  (broadcastInDim_apply _ h _ j (fun a => a.elim0) (fun a => a.elim0)).trans ((constant_apply _ _).trans ofBits_zero_bf16)

/-- The padded first weight table. -/
theorem w1p_apply (c : Dev nD) (f : Fin 1433) (k : Fin 512) :
    w1pA m ρ c (ix2 f k) = if h : k.val < 500 then w1A m c (ix2 f (⟨k.val, h⟩ : Fin 500)) else 0 := by
  rw [w1p_eq, Padded.w1_pad_apply _ _ idx1_zero _ (ix2 f k)]
  by_cases h : k.val < 500
  · rw [dif_pos h, dif_pos (show ((ix2 f k) 1).val < 500 from h)]; rfl
  · rw [dif_neg h, dif_neg (show ¬ ((ix2 f k) 1).val < 500 from h)]; exact zeros_bf16 _ _

/-- The padded first bias row. -/
theorem b1p_apply (c : Dev nD) (k : Fin 512) :
    b1pA m ρ c (ix2 (0 : Fin 1) k) = if h : k.val < 500 then b1A m c (ix1 (⟨k.val, h⟩ : Fin 500)) else 0 := by
  rw [b1p_eq, Padded.b1_pad_apply _ _ idx2_zero _ (ix2 (0 : Fin 1) k)]
  by_cases h : k.val < 500
  · rw [dif_pos h, dif_pos (show ((ix2 (0 : Fin 1) k) 1).val < 500 from h)]
  · rw [dif_neg h, dif_neg (show ¬ ((ix2 (0 : Fin 1) k) 1).val < 500 from h)]; exact zeros_f32 _ _

/-- The padded second weight table. -/
theorem w2p_apply (c : Dev nD) (k : Fin 512) (q : Fin 128) :
    w2pA m ρ c (ix2 k q) = if h : k.val < 500 ∧ q.val < 7 then w2A m c (ix2 (⟨k.val, h.1⟩ : Fin 500) (⟨q.val, h.2⟩ : Fin 7)) else 0 := by
  rw [w2p_eq, Padded.w2_pad_apply _ _ idx2_zero _ (ix2 k q)]
  by_cases h : k.val < 500 ∧ q.val < 7
  · rw [dif_pos h, dif_pos (show ((ix2 k q) 0).val < 500 ∧ ((ix2 k q) 1).val < 7 from h)]; rfl
  · rw [dif_neg h, dif_neg (show ¬ (((ix2 k q) 0).val < 500 ∧ ((ix2 k q) 1).val < 7) from h)]; exact zeros_bf16 _ _

/-- The padded second bias row. -/
theorem b2p_apply (c : Dev nD) (q : Fin 128) :
    b2pA m ρ c (ix2 (0 : Fin 1) q) = if h : q.val < 7 then b2A m c (ix1 (⟨q.val, h⟩ : Fin 7)) else 0 := by
  rw [b2p_eq, Padded.b2_pad_apply _ _ idx2_zero _ (ix2 (0 : Fin 1) q)]
  by_cases h : q.val < 7
  · rw [dif_pos h, dif_pos (show ((ix2 (0 : Fin 1) q) 1).val < 7 from h)]
  · rw [dif_neg h, dif_neg (show ¬ ((ix2 (0 : Fin 1) q) 1).val < 7 from h)]; exact zeros_f32 _ _

end Ideal

end Cert.KernelIdeal.TwoLayers

end
-- ==== Proof.PaddedSum.lean ====
import Mathlib.Data.EReal.Basic
import Mathlib.Algebra.BigOperators.Fin

/-!
# Zero padding of a two-layer graph convolution

A two-layer graph convolution whose hidden width is padded from 500 to 512 and whose class
count is padded from 7 to 128 by zero columns and rows agrees with the unpadded convolution on
the first 7 columns.  Over the extended reals `a * 0 = 0` for every `a` (also for `⊤` and `⊥`),
and a sum of zeros is zero, so no finiteness hypothesis is needed: the terms `k ≥ 500` of the
contraction over the hidden index vanish because the padded second weight table is zero there,
and for `k < 500` the padded tables are the original tables.
-/

namespace Cert.PaddedSum
open scoped BigOperators

/-- A sum over `Fin 512` is the sum of its first 500 terms plus the sum of its last 12 terms. -/
theorem sum_split (g : Fin 512 → EReal) :
    ∑ k : Fin 512, g k
      = ∑ k : Fin 500, g ⟨k.val, by omega⟩ + ∑ k : Fin 12, g ⟨500 + k.val, by omega⟩ :=
  Fin.sum_univ_add (M := EReal) (a := 500) (b := 12) g

/-- A contraction `∑ k, h k * w k` over 512 indices whose second factor vanishes for `k ≥ 500`
equals the contraction over the first 500 indices. -/
theorem sum_mul_padded (h w : Fin 512 → EReal) (h' w' : Fin 500 → EReal)
    (hh : ∀ k : Fin 500, h ⟨k.val, by omega⟩ = h' k)
    (hw : ∀ k : Fin 500, w ⟨k.val, by omega⟩ = w' k)
    (hz : ∀ k : Fin 512, 500 ≤ k.val → w k = 0) :
    ∑ k : Fin 512, h k * w k = ∑ k : Fin 500, h' k * w' k := by
  rw [sum_split (fun k => h k * w k)]
  have tail : ∑ k : Fin 12, h ⟨500 + k.val, by omega⟩ * w ⟨500 + k.val, by omega⟩ = 0 :=
    Finset.sum_eq_zero fun k _ => by
      rw [hz ⟨500 + k.val, by omega⟩ (Nat.le_add_right 500 k.val), mul_zero]
  rw [tail, add_zero]
  exact Finset.sum_congr rfl fun k _ => by rw [hh k, hw k]

theorem padded_two_layer
    (x : Fin 10000 → Fin 1433 → EReal) (A : Fin 10000 → Fin 10000 → EReal)
    (W1 : Fin 1433 → Fin 500 → EReal) (b1 : Fin 500 → EReal) (W2 : Fin 500 → Fin 7 → EReal) (b2 : Fin 7 → EReal)
    (W1p : Fin 1433 → Fin 512 → EReal) (b1p : Fin 512 → EReal) (W2p : Fin 512 → Fin 128 → EReal) (b2p : Fin 128 → EReal)
    (hW1 : ∀ (f : Fin 1433) (k : Fin 512), W1p f k = if h : k.val < 500 then W1 f ⟨k.val, h⟩ else 0)
    (hb1 : ∀ k : Fin 512, b1p k = if h : k.val < 500 then b1 ⟨k.val, h⟩ else 0)
    (hW2 : ∀ (k : Fin 512) (q : Fin 128), W2p k q = if h : k.val < 500 ∧ q.val < 7 then W2 ⟨k.val, h.1⟩ ⟨q.val, h.2⟩ else 0)
    (hb2 : ∀ q : Fin 128, b2p q = if h : q.val < 7 then b2 ⟨q.val, h⟩ else 0)
    (i : Fin 10000) (q : Fin 7) :
    (∑ j : Fin 10000, A i j * (∑ k : Fin 512, max ((∑ l : Fin 10000, A j l * (∑ f : Fin 1433, x l f * W1p f k)) + b1p k) 0
        * W2p k ⟨q.val, by omega⟩)) + b2p ⟨q.val, by omega⟩
      = (∑ j : Fin 10000, A i j * (∑ k : Fin 500, max ((∑ l : Fin 10000, A j l * (∑ f : Fin 1433, x l f * W1 f k)) + b1 k) 0
        * W2 k q)) + b2 q := by
  -- the padded output bias is the bias on the first 7 columns
  have e2 : b2p ⟨q.val, by omega⟩ = b2 q := by
    rw [hb2]; exact dif_pos q.isLt
  rw [e2]
  congr 1
  refine Finset.sum_congr rfl fun j _ => ?_
  congr 1
  refine sum_mul_padded _ _ _ _ (fun k => ?_) (fun k => ?_) (fun k hk => ?_)
  · -- for `k < 500` the padded first layer is the first layer
    have eW1 : ∀ f : Fin 1433, W1p f ⟨k.val, by omega⟩ = W1 f k := fun f => by
      rw [hW1]; exact dif_pos k.isLt
    have eb1 : b1p ⟨k.val, by omega⟩ = b1 k := by
      rw [hb1]; exact dif_pos k.isLt
    simp only [eW1, eb1]
  · -- for `k < 500` and `q < 7` the padded second weight table is the table
    rw [hW2]; exact dif_pos ⟨k.isLt, q.isLt⟩
  · -- for `k ≥ 500` the padded second weight table is zero
    rw [hW2]; exact dif_neg fun hlt => absurd hlt.1 (Nat.not_lt.mpr hk)

end Cert.PaddedSum
-- ==== Proof.ReferenceEntry.lean ====
/- The reference program's result at an index, as one nested sum over the extended reals.

   The reference is a two-layer graph convolution: with x : 10000 x 1433, adj : 10000 x 10000, W1 : 1433 x 500,
   b1 : 500, W2 : 500 x 7, b2 : 7, it computes adj * (relu (adj * (x * W1) + b1) * W2) + b2. Read at the index
   (i, q) this is
     (sum_j adj i j * (sum_k max ((sum_l adj j l * (sum_f x l f * W1 f k)) + b1 k) 0 * W2 k q)) + b2 q.
   Each matrix product is read as a finite sum, each bias row is read at its column, and the relu's zero table is
   the extended real 0 at every index. -/
import proofs.«100629_g28415503630501_cont_9to1_332_17_alg».proof.Proof.Gen.ReferenceIdeal.Read
import Idealize.ShloMosaic.PureOps.Ideal.Laws
import Idealize.ShloMosaic.Lib.ValueIdx

namespace Cert.ReferenceEntry

open Idealize.ShloMosaic Idealize.ShloMosaic.ValueIdx Cert.ReferenceIdeal Cert.ReferenceIdeal.Read
open scoped BigOperators

/-! ## The index maps of the matrix products and of the bias broadcasts, on coordinates -/

/-- The left operand of the first product x * W1 is read at row `l`, column `f`. -/
theorem lidx_v0 (l : Fin 10000) (k : Fin 500) (f : Fin 1433) : lidx_main_v0 (ix2 l k) f = ix2 l f :=
  funext fun a => by match a with | ⟨0, _⟩ => rfl | ⟨1, _⟩ => rfl

/-- The right operand of the first product x * W1 is read at row `f`, column `k`. -/
theorem ridx_v0 (l : Fin 10000) (k : Fin 500) (f : Fin 1433) : ridx_main_v0 (ix2 l k) f = ix2 f k :=
  funext fun a => by match a with | ⟨0, _⟩ => rfl | ⟨1, _⟩ => rfl

/-- The left operand of adj * (x * W1) is read at row `j`, column `l`. -/
theorem lidx_v1 (j : Fin 10000) (k : Fin 500) (l : Fin 10000) : lidx_main_v1 (ix2 j k) l = ix2 j l :=
  funext fun a => by match a with | ⟨0, _⟩ => rfl | ⟨1, _⟩ => rfl

/-- The right operand of adj * (x * W1) is read at row `l`, column `k`. -/
theorem ridx_v1 (j : Fin 10000) (k : Fin 500) (l : Fin 10000) : ridx_main_v1 (ix2 j k) l = ix2 l k :=
  funext fun a => by match a with | ⟨0, _⟩ => rfl | ⟨1, _⟩ => rfl

/-- The first bias, broadcast to 1 x 500 and then to 10000 x 500, is read at its column. -/
theorem idx_v2_v3 (j : Fin 10000) (k : Fin 500) : idx_main_v2 (idx_main_v3 (ix2 j k)) = ix1 k :=
  funext fun a => by match a with | ⟨0, _⟩ => rfl

/-- The left operand of the product with W2 is read at row `j`, column `k`. -/
theorem lidx_v6 (j : Fin 10000) (q : Fin 7) (k : Fin 500) : lidx_main_v6 (ix2 j q) k = ix2 j k :=
  funext fun a => by match a with | ⟨0, _⟩ => rfl | ⟨1, _⟩ => rfl

/-- The right operand of the product with W2 is read at row `k`, column `q`. -/
theorem ridx_v6 (j : Fin 10000) (q : Fin 7) (k : Fin 500) : ridx_main_v6 (ix2 j q) k = ix2 k q :=
  funext fun a => by match a with | ⟨0, _⟩ => rfl | ⟨1, _⟩ => rfl

/-- The left operand of the outer product with adj is read at row `i`, column `j`. -/
theorem lidx_v7 (i : Fin 10000) (q : Fin 7) (j : Fin 10000) : lidx_main_v7 (ix2 i q) j = ix2 i j :=
  funext fun a => by match a with | ⟨0, _⟩ => rfl | ⟨1, _⟩ => rfl

/-- The right operand of the outer product with adj is read at row `j`, column `q`. -/
theorem ridx_v7 (i : Fin 10000) (q : Fin 7) (j : Fin 10000) : ridx_main_v7 (ix2 i q) j = ix2 j q :=
  funext fun a => by match a with | ⟨0, _⟩ => rfl | ⟨1, _⟩ => rfl

/-- The second bias, broadcast to 1 x 7 and then to 10000 x 7, is read at its column. -/
theorem idx_v8_v9 (i : Fin 10000) (q : Fin 7) : idx_main_v8 (idx_main_v9 (ix2 i q)) = ix1 q :=
  funext fun a => by match a with | ⟨0, _⟩ => rfl

/-! ## The first layer -/

/-- x * W1 at (l, k). -/
theorem v0_entry (x0 : S10000x1433.Idx → EReal) (x2 : S1433x500.Idx → EReal) (l : Fin 10000) (k : Fin 500) :
    val_main_v0 (F := Ideal) x0 x2 (ix2 l k) = ∑ f : Fin 1433, x0 (ix2 l f) * x2 (ix2 f k) := by
  rw [val_main_v0_apply]
  refine Finset.sum_congr rfl fun f _ => ?_
  rw [lidx_v0, ridx_v0]

/-- adj * (x * W1) at (j, k). -/
theorem v1_entry (x0 : S10000x1433.Idx → EReal) (x1 : S10000x10000.Idx → EReal) (x2 : S1433x500.Idx → EReal)
    (j : Fin 10000) (k : Fin 500) :
    val_main_v1 (F := Ideal) x0 x1 x2 (ix2 j k)
      = ∑ l : Fin 10000, x1 (ix2 j l) * (∑ f : Fin 1433, x0 (ix2 l f) * x2 (ix2 f k)) := by
  rw [val_main_v1_apply]
  refine Finset.sum_congr rfl fun l _ => ?_
  rw [lidx_v1, ridx_v1, v0_entry]

/-- The broadcast first bias at (j, k) is b1 k. -/
theorem v3_entry (x3 : S500.Idx → EReal) (j : Fin 10000) (k : Fin 500) :
    val_main_v3 (F := Ideal) x3 (ix2 j k) = x3 (ix1 k) := by
  rw [val_main_v3_apply, val_main_v2_apply, idx_v2_v3]

/-- The relu's zero table is 0 at every index. -/
theorem zero_entry (j : S10000x500.Idx) : val_main_call0_v0 (F := Ideal) j = (0 : EReal) := by
  rw [val_main_call0_v0_apply, val_main_call0_cst_apply, Ideal.ofBits_def]
  exact Ideal.ofBits_zero_f32

/-- The hidden layer relu (adj * (x * W1) + b1) at (j, k). -/
theorem v5_entry (x0 : S10000x1433.Idx → EReal) (x1 : S10000x10000.Idx → EReal) (x2 : S1433x500.Idx → EReal)
    (x3 : S500.Idx → EReal) (j : Fin 10000) (k : Fin 500) :
    val_main_v5 (F := Ideal) x0 x1 x2 x3 (ix2 j k)
      = max ((∑ l : Fin 10000, x1 (ix2 j l) * (∑ f : Fin 1433, x0 (ix2 l f) * x2 (ix2 f k))) + x3 (ix1 k)) 0 := by
  rw [val_main_v5_apply, val_main_v4_apply, v1_entry, v3_entry, zero_entry, Ideal.maximumf_def, Ideal.addf_def]

/-! ## The second layer -/

/-- relu (...) * W2 at (j, q). -/
theorem v6_entry (x0 : S10000x1433.Idx → EReal) (x1 : S10000x10000.Idx → EReal) (x2 : S1433x500.Idx → EReal)
    (x3 : S500.Idx → EReal) (x4 : S500x7.Idx → EReal) (j : Fin 10000) (q : Fin 7) :
    val_main_v6 (F := Ideal) x0 x1 x2 x3 x4 (ix2 j q)
      = ∑ k : Fin 500, max ((∑ l : Fin 10000, x1 (ix2 j l) * (∑ f : Fin 1433, x0 (ix2 l f) * x2 (ix2 f k))) + x3 (ix1 k)) 0
          * x4 (ix2 k q) := by
  rw [val_main_v6_apply]
  refine Finset.sum_congr rfl fun k _ => ?_
  rw [lidx_v6, ridx_v6, v5_entry]

/-- The broadcast second bias at (i, q) is b2 q. -/
theorem v9_entry (x5 : S7.Idx → EReal) (i : Fin 10000) (q : Fin 7) :
    val_main_v9 (F := Ideal) x5 (ix2 i q) = x5 (ix1 q) := by
  rw [val_main_v9_apply, val_main_v8_apply, idx_v8_v9]

/-- The reference's result at (i, q): adj * (relu (adj * (x * W1) + b1) * W2) + b2, written out as sums. -/
theorem reference_entry (x0 : S10000x1433.Idx → EReal) (x1 : S10000x10000.Idx → EReal) (x2 : S1433x500.Idx → EReal) (x3 : S500.Idx → EReal)
    (x4 : S500x7.Idx → EReal) (x5 : S7.Idx → EReal) (i : Fin 10000) (q : Fin 7) :
    val_main_v10 (F := Ideal) x0 x1 x2 x3 x4 x5 (ix2 i q)
      = (∑ j : Fin 10000, x1 (ix2 i j) * (∑ k : Fin 500, max ((∑ l : Fin 10000, x1 (ix2 j l) * (∑ f : Fin 1433, x0 (ix2 l f) * x2 (ix2 f k))) + x3 (ix1 k)) 0 * x4 (ix2 k q))) + x5 (ix1 q) := by
  rw [val_main_v10_apply, v9_entry, val_main_v7_apply, Ideal.addf_def]
  refine congrArg (· + x5 (ix1 q)) ?_
  refine Finset.sum_congr rfl fun j _ => ?_
  rw [lidx_v7, ridx_v7, v6_entry]

end Cert.ReferenceEntry
-- ==== Proof.KernelValue.lean ====
/-
  The kernel's result, entry by entry, over the extended reals.

  Read back through the segments: the result is the first seven columns of the second region's output array; row i,
  column q of that array is the sum over j of the adjacency copy's entry (i, j) times the hidden table's (j, q), plus
  the padded second bias; the copy is the adjacency matrix itself (a change of float format is the identity here);
  the hidden table's entry (j, q) is the sum over the 512 padded hidden units k of max (pre-activation, 0) times the
  padded second weight table's (k, q), the pre-activation being the sum over l of the adjacency's (j, l) times the
  support table's (l, k) plus the padded first bias; and the support table's (l, k) is the sum over the features f of
  x's (l, f) times the padded first weight table's (f, k). The padded tables are the tables inside their windows and
  zero outside, so the padded contraction is the reference's (the padded-sum lemma), and the reference's result is the
  same nested sum.
-/
import proofs.«100629_g28415503630501_cont_9to1_332_17_alg».proof.Proof.Frames
import proofs.«100629_g28415503630501_cont_9to1_332_17_alg».proof.Proof.FirstLayerArrays
import proofs.«100629_g28415503630501_cont_9to1_332_17_alg».proof.Proof.SupportTable
import proofs.«100629_g28415503630501_cont_9to1_332_17_alg».proof.Proof.SecondLayerArray
import proofs.«100629_g28415503630501_cont_9to1_332_17_alg».proof.Proof.PayloadValues
import proofs.«100629_g28415503630501_cont_9to1_332_17_alg».proof.Proof.HostTables
import proofs.«100629_g28415503630501_cont_9to1_332_17_alg».proof.Proof.PaddedSum
import proofs.«100629_g28415503630501_cont_9to1_332_17_alg».proof.Proof.ReferenceEntry

set_option maxRecDepth 16384

noncomputable section

namespace Cert.KernelIdeal.TwoLayers

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg)

/-- What the regions hold, at literal types: the support table, the adjacency copy, the hidden table, the padded second
    bias as the second region finds it, the second region's output array, and the result. -/
abbrev suppA (c : Dev nD) : S10000x512.Idx → EReal := FirstLayer.support (V1 m ρ) c
abbrev copyA (c : Dev nD) : S10000x10000.Idx → EReal := V2 m ρ c main_call0_v20_1
abbrev hidA (c : Dev nD) : S10000x128.Idx → EReal := V2 m ρ c main_call0_v20_0
abbrev bias2A (c : Dev nD) : S1x128.Idx → EReal := V2 m ρ c main_call0_v19
abbrev outA (c : Dev nD) : S10000x128.Idx → EReal := W3 m ρ c (Proc.devRef .tc main_call0_v21)
abbrev resA (c : Dev nD) : S10000x7.Idx → EReal := W4 m ρ c (Proc.devRef .tc main_v0)

/-! ## Row r of a table cut into blocks of b rows is row r mod b of block r / b -/

theorem adjRows_entry (c : Dev nD) (j l : Fin 10000) (h1 : j.val / 200 < 50) (h2 : j.val % 200 < 200) :
    FirstLayer.adjRows (V1 m ρ) c ⟨j.val / 200, h1⟩ (ix2 (⟨j.val % 200, h2⟩ : Fin 200) l) = adjA m c (ix2 j l) := by
  unfold FirstLayer.adjRows
  refine (congrArg (FirstLayer.adjArr (V1 m ρ) c) (?_ : _ = ix2 j l)).trans
    (congrArg (fun g : S10000x10000.Idx → EReal => g (ix2 j l)) (entry_adj m ρ c))
  funext a
  match a with
  | ⟨0, _⟩ => exact Fin.ext (by show 200 * (j.val / 200) + j.val % 200 = j.val; omega)
  | ⟨1, _⟩ => rfl

theorem xRows_entry (c : Dev nD) (l : Fin 10000) (f : Fin 1433) (h1 : l.val / 1000 < 10) (h2 : l.val % 1000 < 1000) :
    FirstLayer.xRows (V1 m ρ) c ⟨l.val / 1000, h1⟩ (ix2 (⟨l.val % 1000, h2⟩ : Fin 1000) f) = xA m c (ix2 l f) := by
  unfold FirstLayer.xRows
  refine (congrArg (FirstLayer.xArr (V1 m ρ) c) (?_ : _ = ix2 l f)).trans
    (congrArg (fun g : S10000x1433.Idx → EReal => g (ix2 l f)) (entry_x m ρ c))
  funext a
  match a with
  | ⟨0, _⟩ => exact Fin.ext (by show 1000 * (l.val / 1000) + l.val % 1000 = l.val; omega)
  | ⟨1, _⟩ => rfl

theorem copyRows_entry (c : Dev nD) (i j : Fin 10000) (h1 : i.val / 400 < 25) (h2 : i.val % 400 < 400) :
    SecondLayer.adjRows (V2 m ρ) c ⟨i.val / 400, h1⟩ (ix2 (⟨i.val % 400, h2⟩ : Fin 400) j) = copyA m ρ c (ix2 i j) := by
  unfold SecondLayer.adjRows
  refine congrArg (SecondLayer.adjArr (V2 m ρ) c) (?_ : _ = ix2 i j)
  funext a
  match a with
  | ⟨0, _⟩ => exact Fin.ext (by show 400 * (i.val / 400) + i.val % 400 = i.val; omega)
  | ⟨1, _⟩ => rfl

/-! ## The arrays, entry by entry -/

/-- The adjacency copy the second region reads is the adjacency matrix. -/
theorem copy_entry (c : Dev nD) (i j : Fin 10000) : copyA m ρ c (ix2 i j) = adjA m c (ix2 i j) := by
  have hi := i.isLt
  have e : copyA m ρ c = FirstLayer.copyArr (V1 m ρ) c := (W2_arr m ρ c 6).trans (FirstLayer.arrAt_copy (V1 m ρ) c)
  rw [e, FirstLayer.copyArr_at (V1 m ρ) c ⟨i.val / 200, by omega⟩ (ix2 i j)
    (ix2 (⟨i.val % 200, Nat.mod_lt _ (by norm_num)⟩ : Fin 200) j) (by show i.val = 200 * (i.val / 200) + i.val % 200; omega) rfl,
    Payload.adj_copy_apply]
  exact adjRows_entry m ρ c i j _ _

/-- The support table's entry: x's row against the padded first weight table's column. -/
theorem support_entry (c : Dev nD) (l : Fin 10000) (k : Fin 512) :
    suppA m ρ c (ix2 l k) = ∑ f : Fin 1433, xA m c (ix2 l f) * w1pA m ρ c (ix2 f k) := by
  have hl := l.isLt
  have e : suppA m ρ c = FirstLayer.supportArr (V1 m ρ) c := FirstLayer.support_eq (V1 m ρ) c
  rw [e]
  unfold FirstLayer.supportArr
  refine (Payload.support_slab_apply _ _ (⟨l.val % 1000, Nat.mod_lt _ (by norm_num)⟩ : Fin 1000) k).trans ?_
  simp only [xRows_entry]
  try rfl

/-- The hidden table's entry: the padded contraction over the 512 hidden units. -/
theorem hidden_entry (c : Dev nD) (j : Fin 10000) (q : Fin 128) :
    hidA m ρ c (ix2 j q)
      = ∑ k : Fin 512, max ((∑ l : Fin 10000, adjA m c (ix2 j l) * suppA m ρ c (ix2 l k)) + b1pA m ρ c (ix2 (0 : Fin 1) k)) 0
          * w2pA m ρ c (ix2 k q) := by
  have hj := j.isLt
  have e : hidA m ρ c = FirstLayer.hidArr (V1 m ρ) c := (W2_arr m ρ c 5).trans (FirstLayer.arrAt_hid (V1 m ρ) c)
  rw [e, FirstLayer.hidArr_at (V1 m ρ) c ⟨j.val / 200, by omega⟩ (ix2 j q)
    (ix2 (⟨j.val % 200, Nat.mod_lt _ (by norm_num)⟩ : Fin 200) q) (by show j.val = 200 * (j.val / 200) + j.val % 200; omega) rfl,
    Payload.hidden_block_apply]
  simp only [adjRows_entry]
  try rfl

/-- The second region's output array's entry. -/
theorem output_entry (c : Dev nD) (i : Fin 10000) (q : Fin 128) :
    outA m ρ c (ix2 i q)
      = (∑ j : Fin 10000, copyA m ρ c (ix2 i j) * hidA m ρ c (ix2 j q)) + bias2A m ρ c (ix2 (0 : Fin 1) q) := by
  have hi := i.isLt
  have e : outA m ρ c = SecondLayer.outArr (V2 m ρ) c := (W3_arr m ρ c 3).trans (SecondLayer.arrAt_out (V2 m ρ) c)
  rw [e, SecondLayer.outArr_at (V2 m ρ) c ⟨i.val / 400, by omega⟩ (ix2 i q)
    (ix2 (⟨i.val % 400, Nat.mod_lt _ (by norm_num)⟩ : Fin 400) q) (by show i.val = 400 * (i.val / 400) + i.val % 400; omega) rfl,
    Payload.output_block_apply]
  simp only [copyRows_entry]
  try rfl

/-- The padded second bias passes the first region untouched. -/
theorem bias_kept (c : Dev nD) : bias2A m ρ c = b2pA m ρ c := W2_of_ne m ρ c main_call0_v19 (by decide)

/-- The result is the first seven columns of the second region's output array. -/
theorem result_entry (c : Dev nD) (i : Fin 10000) (q : Fin 7) :
    resA m ρ c (ix2 i q) = outA m ρ c (ix2 i (⟨q.val, by have := q.isLt; omega⟩ : Fin 128)) := by
  have e : resA m ρ c = extractStridedSlice S10000x7 ![0, 0] (outA m ρ c) slices_S10000x128_S10000x7_0_0 := result_slice m ρ c
  rw [e]
  exact extractStridedSlice_apply _ _ _ (ix2 i q) (ix2 i (⟨q.val, by have := q.isLt; omega⟩ : Fin 128))
    (fun a => by match a with | ⟨0, _⟩ => exact (Nat.zero_add _).symm | ⟨1, _⟩ => exact (Nat.zero_add _).symm)

/-- THE RESULT: the kernel's result buffer ends at the reference's value of the launch contents. -/
theorem result_eq (c : Dev nD) :
    resA m ρ c = Cert.ReferenceIdeal.Read.val_main_v10 (F := Ideal) (xA m c) (adjA m c) (w1A m c) (b1A m c) (w2A m c) (b2A m c) := by
  funext y
  obtain ⟨i, q, rfl⟩ : ∃ (i : Fin 10000) (q : Fin 7), y = ix2 i q := ⟨y 0, y 1, eq_ix2 y⟩
  rw [Cert.ReferenceEntry.reference_entry, result_entry, output_entry, bias_kept]
  have hsum : (∑ j : Fin 10000, copyA m ρ c (ix2 i j) * hidA m ρ c (ix2 j (⟨q.val, by have := q.isLt; omega⟩ : Fin 128)))
      = ∑ j : Fin 10000, adjA m c (ix2 i j) * (∑ k : Fin 512, max ((∑ l : Fin 10000, adjA m c (ix2 j l)
          * (∑ f : Fin 1433, xA m c (ix2 l f) * w1pA m ρ c (ix2 f k))) + b1pA m ρ c (ix2 (0 : Fin 1) k)) 0
          * w2pA m ρ c (ix2 k (⟨q.val, by have := q.isLt; omega⟩ : Fin 128))) :=
    Finset.sum_congr rfl fun j _ => by
      rw [copy_entry, hidden_entry]
      refine congrArg (adjA m c (ix2 i j) * ·) (Finset.sum_congr rfl fun k _ => ?_)
      refine congrArg (fun s => max (s + b1pA m ρ c (ix2 (0 : Fin 1) k)) 0 * w2pA m ρ c (ix2 k (⟨q.val, by have := q.isLt; omega⟩ : Fin 128)))
        (Finset.sum_congr rfl fun l _ => ?_)
      rw [support_entry]
  rw [hsum]
  exact Cert.PaddedSum.padded_two_layer
    (fun l f => xA m c (ix2 l f)) (fun a b => adjA m c (ix2 a b)) (fun f k => w1A m c (ix2 f k)) (fun k => b1A m c (ix1 k))
    (fun k r => w2A m c (ix2 k r)) (fun r => b2A m c (ix1 r))
    (fun f k => w1pA m ρ c (ix2 f k)) (fun k => b1pA m ρ c (ix2 (0 : Fin 1) k)) (fun k r => w2pA m ρ c (ix2 k r))
    (fun r => b2pA m ρ c (ix2 (0 : Fin 1) r))
    (fun f k => w1p_apply m ρ c f k) (fun k => b1p_apply m ρ c k) (fun k r => w2p_apply m ρ c k r) (fun r => b2p_apply m ρ c r)
    i q

end Cert.KernelIdeal.TwoLayers

end
-- ==== Proof.lean ====
/-
  A two-layer graph convolution, out = adj · relu(adj · (x · W1) + b1) · W2 + b2, computed by two pipelined kernels
  against the plain jnp program.

  The kernel program pads the hidden width 500 to 512 and the class count 7 to 128 with zeros, builds the support
  table x · W1 slab by slab in a scratch buffer over the first ten grid points of its first kernel, then for each
  block of 200 rows of the adjacency matrix stores a half-width copy of the block and the block of the hidden table
  relu(adj · support + b1) · W2; its second kernel multiplies the copy by the hidden table, block of 400 rows by
  block, and adds b2; the first seven columns are the result.

  The three frames: each kernel program's run is followed through its four segments with every unscoped buffer named
  (the word-level program's modules are the idealized program's with the namespace substituted: the text is generic
  in the float instance); the reference's frame is its run with the result dropped. No ideal-pass rewrite was
  applied, so there is nothing to preserve. At the ideal instance a change of float format is the identity and every
  matrix product is a plain sum of products, so the kernel's result is the reference's nested sum with the
  contraction over the hidden units running to 512 instead of 500; the extra terms are products with a zero weight,
  which vanish on every extended real, so the two results agree with no appeal to finiteness.
-/
import proofs.«100629_g28415503630501_cont_9to1_332_17_alg».proof.Defs
import proofs.«100629_g28415503630501_cont_9to1_332_17_alg».proof.Proof.Gen.Kernel
import proofs.«100629_g28415503630501_cont_9to1_332_17_alg».proof.Proof.Gen.KernelIdeal
import proofs.«100629_g28415503630501_cont_9to1_332_17_alg».proof.Proof.Gen.ReferenceIdeal
import proofs.«100629_g28415503630501_cont_9to1_332_17_alg».proof.Proof.Gen.Pre_finite_inputs
import proofs.«100629_g28415503630501_cont_9to1_332_17_alg».proof.Proof.Gen.ReferenceIdeal.Run
import proofs.«100629_g28415503630501_cont_9to1_332_17_alg».proof.Proof.Gen.ReferenceIdeal.Read
import proofs.«100629_g28415503630501_cont_9to1_332_17_alg».proof.Proof.WordLevel.Frames
import proofs.«100629_g28415503630501_cont_9to1_332_17_alg».proof.Proof.Frames
import proofs.«100629_g28415503630501_cont_9to1_332_17_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.TwoLayers.frame (F := Bits) m ρ

/-- So does the idealized kernel program. -/
theorem frame_kernel_ideal : Cert.frame_KernelIdeal := fun m ρ _ => Cert.KernelIdeal.TwoLayers.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal instance, from memories that agree on the six arguments, both programs end with the same result:
    the kernel's result buffer holds the reference's value of the launch contents. -/
theorem algebraic : Cert.algebraic_KernelIdeal_ReferenceIdeal := by
  intro m ρ m' ρ' _ hagree
  refine ⟨fun c => Cert.KernelIdeal.TwoLayers.W4 m ρ c (Proc.devRef .tc Cert.KernelIdeal.main_v0),
    Cert.KernelIdeal.TwoLayers.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.KernelIdeal.TwoLayers.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
